-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v327)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v327) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v324) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x4096 : Shape := ⟨3, ![4, 1024, 4096]⟩
abbrev S4096 : Shape := ⟨1, ![4096]⟩
abbrev S65536x1 : Shape := ⟨2, ![65536, 1]⟩
abbrev S1024x2 : Shape := ⟨2, ![1024, 2]⟩
abbrev S65536x32 : Shape := ⟨2, ![65536, 32]⟩
abbrev S_ : Shape := ⟨0, ![]⟩

class Facts : Prop where
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S65536x1 : S_.BroadcastsInDim S65536x1 (![] : Fin 0 → Fin S65536x1.rank)
  reducesTo_S65536x1_S_d0_1 : S65536x1.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn_part1 {F : FTy → Type} [FloatOps F] (main_arg4 : FVec F S1024x2 .f32) (main_v13 : IVec S_ 1) (main_v16 : IVec S65536x1 1) : IVec S_ 1 :=
  let main_c_5 : IVec S_ 1 := constantI S_ 1 1#1
  let main_v17 : IVec S_ 1 := (fun x v => Host.reduce IntOp.andi x v reducesTo_S65536x1_S_d0_1 h_S_) main_v16 main_c_5
  let main_v18 : IVec S_ 1 := andi main_v13 main_v17
  let main_v19 : FVec F S1024x2 .f32 := Host.absf main_arg4
  let main_cst_6 : FVec F S_ .f32 := constant S_ .f32 0x7F800000#32
  let main_v20 : FVec F S1024x2 .f32 := broadcastInDim S1024x2 ![] bcast_S_S1024x2 main_cst_6
  let main_v21 : IVec S1024x2 1 := cmpf .olt main_v19 main_v20
  let main_c_7 : IVec S_ 1 := constantI S_ 1 1#1
  let main_v22 : IVec S_ 1 := (fun x v => Host.reduce IntOp.andi x v reducesTo_S1024x2_S_d0_1 h_S_) main_v21 main_c_7
  let main_v23 : IVec S_ 1 := andi main_v18 main_v22
  main_v23

def fn {F : FTy → Type} [FloatOps F] (main_arg0 : FVec F S4x1024x4096 .f32) (main_arg1 : FVec F S4096 .f32) (main_arg2 : FVec F S4096 .f32) (main_arg3 : FVec F S65536x1 .f32) (main_arg4 : FVec F S1024x2 .f32) (main_arg5 : IVec S65536x32 32) : IVec S_ 1 :=
  let main_v0 : FVec F S4x1024x4096 .f32 := Host.absf main_arg0
  let main_cst : FVec F S_ .f32 := constant S_ .f32 0x7F800000#32
  let main_v1 : FVec F S4x1024x4096 .f32 := broadcastInDim S4x1024x4096 ![] bcast_S_S4x1024x4096 main_cst
  let main_v2 : IVec S4x1024x4096 1 := cmpf .olt main_v0 main_v1
  let main_c : IVec S_ 1 := constantI S_ 1 1#1
  let main_v3 : IVec S_ 1 := (fun x v => Host.reduce IntOp.andi x v reducesTo_S4x1024x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S65536x1 .f32 := Host.absf main_arg3
  let main_cst_4 : FVec F S_ .f32 := constant S_ .f32 0x7F800000#32
  let main_v15 : FVec F S65536x1 .f32 := broadcastInDim S65536x1 ![] bcast_S_S65536x1 main_cst_4
  let main_v16 : IVec S65536x1 1 := cmpf .olt main_v14 main_v15
  fn_part1 (F := F) main_arg4 main_v13 main_v16
-- ==== Kernel.lean ====
abbrev S4x1024x4096 : Shape := ⟨3, ![4, 1024, 4096]⟩
abbrev S4096 : Shape := ⟨1, ![4096]⟩
abbrev S65536x1 : Shape := ⟨2, ![65536, 1]⟩
abbrev S1024x2 : Shape := ⟨2, ![1024, 2]⟩
abbrev S65536x32 : Shape := ⟨2, ![65536, 32]⟩
abbrev S128 : Shape := ⟨1, ![128]⟩
abbrev S_ : Shape := ⟨0, ![]⟩
abbrev S128x1 : Shape := ⟨2, ![128, 1]⟩
abbrev S65536x128 : Shape := ⟨2, ![65536, 128]⟩
abbrev S1x128 : Shape := ⟨2, ![1, 128]⟩
abbrev S65536x128x1 : Shape := ⟨3, ![65536, 128, 1]⟩
abbrev S65536x128x2 : Shape := ⟨3, ![65536, 128, 2]⟩
abbrev S65536x256 : Shape := ⟨2, ![65536, 256]⟩
abbrev S4096x4096 : Shape := ⟨2, ![4096, 4096]⟩
abbrev S4096x2048x2x1 : Shape := ⟨4, ![4096, 2048, 2, 1]⟩
abbrev S4096x2048x1x1 : Shape := ⟨4, ![4096, 2048, 1, 1]⟩
abbrev S4096x2048x1 : Shape := ⟨3, ![4096, 2048, 1]⟩
abbrev S4096x1024x2x2 : Shape := ⟨4, ![4096, 1024, 2, 2]⟩
abbrev S4096x1024x1x2 : Shape := ⟨4, ![4096, 1024, 1, 2]⟩
abbrev S4096x1024x2 : Shape := ⟨3, ![4096, 1024, 2]⟩
abbrev S4096x512x2x4 : Shape := ⟨4, ![4096, 512, 2, 4]⟩
abbrev S4096x512x1x4 : Shape := ⟨4, ![4096, 512, 1, 4]⟩
abbrev S4096x512x4 : Shape := ⟨3, ![4096, 512, 4]⟩
abbrev S4096x256x2x8 : Shape := ⟨4, ![4096, 256, 2, 8]⟩
abbrev S4096x256x1x8 : Shape := ⟨4, ![4096, 256, 1, 8]⟩
abbrev S4096x256x8 : Shape := ⟨3, ![4096, 256, 8]⟩
abbrev S4096x128x2x16 : Shape := ⟨4, ![4096, 128, 2, 16]⟩
abbrev S4096x128x1x16 : Shape := ⟨4, ![4096, 128, 1, 16]⟩
abbrev S4096x128x16 : Shape := ⟨3, ![4096, 128, 16]⟩
abbrev S4096x64x2x32 : Shape := ⟨4, ![4096, 64, 2, 32]⟩
abbrev S4096x64x1x32 : Shape := ⟨4, ![4096, 64, 1, 32]⟩
abbrev S4096x64x32 : Shape := ⟨3, ![4096, 64, 32]⟩
abbrev S4096x32x2x64 : Shape := ⟨4, ![4096, 32, 2, 64]⟩
abbrev S4096x32x1x64 : Shape := ⟨4, ![4096, 32, 1, 64]⟩
abbrev S4096x32x64 : Shape := ⟨3, ![4096, 32, 64]⟩
abbrev S4096x16x2x128 : Shape := ⟨4, ![4096, 16, 2, 128]⟩
abbrev S4096x16x1x128 : Shape := ⟨4, ![4096, 16, 1, 128]⟩
abbrev S4096x16x128 : Shape := ⟨3, ![4096, 16, 128]⟩
abbrev S4096x8x2x256 : Shape := ⟨4, ![4096, 8, 2, 256]⟩
abbrev S4096x8x1x256 : Shape := ⟨4, ![4096, 8, 1, 256]⟩
abbrev S4096x8x256 : Shape := ⟨3, ![4096, 8, 256]⟩
abbrev S4096x4x2x512 : Shape := ⟨4, ![4096, 4, 2, 512]⟩
abbrev S4096x4x1x512 : Shape := ⟨4, ![4096, 4, 1, 512]⟩
abbrev S4096x4x512 : Shape := ⟨3, ![4096, 4, 512]⟩
abbrev S4096x2x2x1024 : Shape := ⟨4, ![4096, 2, 2, 1024]⟩
abbrev S4096x2x1x1024 : Shape := ⟨4, ![4096, 2, 1, 1024]⟩
abbrev S4096x2x1024 : Shape := ⟨3, ![4096, 2, 1024]⟩
abbrev S4096x1x2x2048 : Shape := ⟨4, ![4096, 1, 2, 2048]⟩
abbrev S4096x1x1x2048 : Shape := ⟨4, ![4096, 1, 1, 2048]⟩
abbrev S4096x1x2048 : Shape := ⟨3, ![4096, 1, 2048]⟩
abbrev S1x4096 : Shape := ⟨2, ![1, 4096]⟩
abbrev S4096x1 : Shape := ⟨2, ![4096, 1]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 406
  | .vmem => 7
  | .smem => 0
  | _ => 0

abbrev hbmTy0_0 (i : Nat) : BufTy := match i % 128 with
  | 0 => ⟨S4x1024x4096, .f32⟩
  | 1 => ⟨S4096, .f32⟩
  | 2 => ⟨S4096, .f32⟩
  | 3 => ⟨S65536x1, .f32⟩
  | 4 => ⟨S1024x2, .f32⟩
  | 5 => ⟨S65536x32, .i32⟩
  | 6 => ⟨S128, .i32⟩
  | 7 => ⟨S_, .i32⟩
  | 8 => ⟨S_, .i32⟩
  | 9 => ⟨S128, .i32⟩
  | 10 => ⟨S128, .i32⟩
  | 11 => ⟨S128, .i32⟩
  | 12 => ⟨S_, .i32⟩
  | 13 => ⟨S128, .i32⟩
  | 14 => ⟨S128, .i1⟩
  | 15 => ⟨S128, .i32⟩
  | 16 => ⟨S128, .i32⟩
  | 17 => ⟨S_, .i32⟩
  | 18 => ⟨S128, .i32⟩
  | 19 => ⟨S128, .i1⟩
  | 20 => ⟨S128, .i1⟩
  | 21 => ⟨S_, .i32⟩
  | 22 => ⟨S128, .i32⟩
  | 23 => ⟨S128, .i32⟩
  | 24 => ⟨S128, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S128, .i32⟩
  | 32 => ⟨S128, .i32⟩
  | 33 => ⟨S_, .i32⟩
  | 34 => ⟨S128, .i32⟩
  | 35 => ⟨S128, .i1⟩
  | 36 => ⟨S_, .i32⟩
  | 37 => ⟨S128, .i32⟩
  | 38 => ⟨S128, .i1⟩
  | 39 => ⟨S_, .i32⟩
  | 40 => ⟨S_, .i1⟩
  | 41 => ⟨S128, .i1⟩
  | 42 => ⟨S128, .i1⟩
  | 43 => ⟨S128, .i1⟩
  | 44 => ⟨S128, .i32⟩
  | 45 => ⟨S128, .i32⟩
  | 46 => ⟨S128, .i32⟩
  | 47 => ⟨S_, .i32⟩
  | 48 => ⟨S128, .i32⟩
  | 49 => ⟨S128, .i32⟩
  | 50 => ⟨S_, .i32⟩
  | 51 => ⟨S128, .i32⟩
  | 52 => ⟨S128, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S128, .i32⟩
  | 60 => ⟨S128, .i32⟩
  | 61 => ⟨S_, .i32⟩
  | 62 => ⟨S128, .i32⟩
  | 63 => ⟨S128, .i1⟩
  | 64 => ⟨S_, .i32⟩
  | 65 => ⟨S128, .i32⟩
  | 66 => ⟨S128, .i1⟩
  | 67 => ⟨S_, .i32⟩
  | 68 => ⟨S_, .i1⟩
  | 69 => ⟨S128, .i1⟩
  | 70 => ⟨S128, .i1⟩
  | 71 => ⟨S128, .i1⟩
  | 72 => ⟨S128, .i32⟩
  | 73 => ⟨S128, .i32⟩
  | 74 => ⟨S128, .i32⟩
  | 75 => ⟨S_, .i32⟩
  | 76 => ⟨S128, .i32⟩
  | 77 => ⟨S128, .i1⟩
  | 78 => ⟨S_, .i32⟩
  | 79 => ⟨S128, .i32⟩
  | 80 => ⟨S128, .i32⟩
  | 81 => ⟨S128, .i32⟩
  | 82 => ⟨S128x1, .i32⟩
  | 83 => ⟨S65536x128, .i32⟩
  | 84 => ⟨S1x128, .i32⟩
  | 85 => ⟨S65536x128, .i32⟩
  | 86 => ⟨S65536x128, .i32⟩
  | 87 => ⟨S_, .i32⟩
  | 88 => ⟨S128, .i32⟩
  | 89 => ⟨S128, .i1⟩
  | 90 => ⟨S_, .i32⟩
  | 91 => ⟨S128, .i32⟩
  | 92 => ⟨S128, .i32⟩
  | 93 => ⟨S128, .i32⟩
  | 94 => ⟨S128x1, .i32⟩
  | 95 => ⟨S65536x128, .i32⟩
  | 96 => ⟨S_, .i32⟩
  | 97 => ⟨S128, .i32⟩
  | 98 => ⟨S128, .i32⟩
  | 99 => ⟨S1x128, .i32⟩
  | 100 => ⟨S65536x128, .i32⟩
  | 101 => ⟨S65536x128, .i32⟩
  | 102 => ⟨S65536x128, .i32⟩
  | 103 => ⟨S_, .i32⟩
  | 104 => ⟨S65536x128, .i32⟩
  | 105 => ⟨S65536x128, .i32⟩
  | 106 => ⟨S_, .i32⟩
  | 107 => ⟨S65536x128, .i32⟩
  | 108 => ⟨S65536x128, .i32⟩
  | 109 => ⟨S_, .i32⟩
  | 110 => ⟨S65536x128, .i32⟩
  | 111 => ⟨S65536x128, .i1⟩
  | 112 => ⟨S_, .i32⟩
  | 113 => ⟨S65536x128, .i32⟩
  | 114 => ⟨S65536x128, .i32⟩
  | 115 => ⟨S65536x128, .i32⟩
  | 116 => ⟨S65536x128x1, .i32⟩
  | 117 => ⟨S65536x128x2, .f32⟩
  | 118 => ⟨S65536x256, .f32⟩
  | 119 => ⟨S4096x4096, .f32⟩
  | 120 => ⟨S4096x2048x2x1, .f32⟩
  | 121 => ⟨S4096x2048x1x1, .f32⟩
  | 122 => ⟨S4096x2048x1, .f32⟩
  | 123 => ⟨S4096x2048x1x1, .f32⟩
  | 124 => ⟨S4096x2048x1, .f32⟩
  | 125 => ⟨S4096x2048x1, .f32⟩
  | 126 => ⟨S4096x2048x1, .f32⟩
  | 127 => ⟨S4096x2048x1x1, .f32⟩
  | _ => ⟨S4x1024x4096, .f32⟩

abbrev hbmTy0_1 (i : Nat) : BufTy := match i % 128 with
  | 0 => ⟨S4096x2048x1x1, .f32⟩
  | 1 => ⟨S4096x2048x2x1, .f32⟩
  | 2 => ⟨S4096x4096, .f32⟩
  | 3 => ⟨S4096x1024x2x2, .f32⟩
  | 4 => ⟨S4096x1024x1x2, .f32⟩
  | 5 => ⟨S4096x1024x2, .f32⟩
  | 6 => ⟨S4096x1024x1x2, .f32⟩
  | 7 => ⟨S4096x1024x2, .f32⟩
  | 8 => ⟨S4096x1024x2, .f32⟩
  | 9 => ⟨S4096x1024x2, .f32⟩
  | 10 => ⟨S4096x1024x1x2, .f32⟩
  | 11 => ⟨S4096x1024x1x2, .f32⟩
  | 12 => ⟨S4096x1024x2x2, .f32⟩
  | 13 => ⟨S4096x4096, .f32⟩
  | 14 => ⟨S4096x512x2x4, .f32⟩
  | 15 => ⟨S4096x512x1x4, .f32⟩
  | 16 => ⟨S4096x512x4, .f32⟩
  | 17 => ⟨S4096x512x1x4, .f32⟩
  | 18 => ⟨S4096x512x4, .f32⟩
  | 19 => ⟨S4096x512x4, .f32⟩
  | 20 => ⟨S4096x512x4, .f32⟩
  | 21 => ⟨S4096x512x1x4, .f32⟩
  | 22 => ⟨S4096x512x1x4, .f32⟩
  | 23 => ⟨S4096x512x2x4, .f32⟩
  | 24 => ⟨S4096x4096, .f32⟩
  | 25 => ⟨S4096x256x2x8, .f32⟩
  | 26 => ⟨S4096x256x1x8, .f32⟩
  | 27 => ⟨S4096x256x8, .f32⟩
  | 28 => ⟨S4096x256x1x8, .f32⟩
  | 29 => ⟨S4096x256x8, .f32⟩
  | 30 => ⟨S4096x256x8, .f32⟩
  | 31 => ⟨S4096x256x8, .f32⟩
  | 32 => ⟨S4096x256x1x8, .f32⟩
  | 33 => ⟨S4096x256x1x8, .f32⟩
  | 34 => ⟨S4096x256x2x8, .f32⟩
  | 35 => ⟨S4096x4096, .f32⟩
  | 36 => ⟨S4096x128x2x16, .f32⟩
  | 37 => ⟨S4096x128x1x16, .f32⟩
  | 38 => ⟨S4096x128x16, .f32⟩
  | 39 => ⟨S4096x128x1x16, .f32⟩
  | 40 => ⟨S4096x128x16, .f32⟩
  | 41 => ⟨S4096x128x16, .f32⟩
  | 42 => ⟨S4096x128x16, .f32⟩
  | 43 => ⟨S4096x128x1x16, .f32⟩
  | 44 => ⟨S4096x128x1x16, .f32⟩
  | 45 => ⟨S4096x128x2x16, .f32⟩
  | 46 => ⟨S4096x4096, .f32⟩
  | 47 => ⟨S4096x64x2x32, .f32⟩
  | 48 => ⟨S4096x64x1x32, .f32⟩
  | 49 => ⟨S4096x64x32, .f32⟩
  | 50 => ⟨S4096x64x1x32, .f32⟩
  | 51 => ⟨S4096x64x32, .f32⟩
  | 52 => ⟨S4096x64x32, .f32⟩
  | 53 => ⟨S4096x64x32, .f32⟩
  | 54 => ⟨S4096x64x1x32, .f32⟩
  | 55 => ⟨S4096x64x1x32, .f32⟩
  | 56 => ⟨S4096x64x2x32, .f32⟩
  | 57 => ⟨S4096x4096, .f32⟩
  | 58 => ⟨S4096x32x2x64, .f32⟩
  | 59 => ⟨S4096x32x1x64, .f32⟩
  | 60 => ⟨S4096x32x64, .f32⟩
  | 61 => ⟨S4096x32x1x64, .f32⟩
  | 62 => ⟨S4096x32x64, .f32⟩
  | 63 => ⟨S4096x32x64, .f32⟩
  | 64 => ⟨S4096x32x64, .f32⟩
  | 65 => ⟨S4096x32x1x64, .f32⟩
  | 66 => ⟨S4096x32x1x64, .f32⟩
  | 67 => ⟨S4096x32x2x64, .f32⟩
  | 68 => ⟨S4096x4096, .f32⟩
  | 69 => ⟨S4096x16x2x128, .f32⟩
  | 70 => ⟨S4096x16x1x128, .f32⟩
  | 71 => ⟨S4096x16x128, .f32⟩
  | 72 => ⟨S4096x16x1x128, .f32⟩
  | 73 => ⟨S4096x16x128, .f32⟩
  | 74 => ⟨S4096x16x128, .f32⟩
  | 75 => ⟨S4096x16x128, .f32⟩
  | 76 => ⟨S4096x16x1x128, .f32⟩
  | 77 => ⟨S4096x16x1x128, .f32⟩
  | 78 => ⟨S4096x16x2x128, .f32⟩
  | 79 => ⟨S4096x4096, .f32⟩
  | 80 => ⟨S4096x8x2x256, .f32⟩
  | 81 => ⟨S4096x8x1x256, .f32⟩
  | 82 => ⟨S4096x8x256, .f32⟩
  | 83 => ⟨S4096x8x1x256, .f32⟩
  | 84 => ⟨S4096x8x256, .f32⟩
  | 85 => ⟨S4096x8x256, .f32⟩
  | 86 => ⟨S4096x8x256, .f32⟩
  | 87 => ⟨S4096x8x1x256, .f32⟩
  | 88 => ⟨S4096x8x1x256, .f32⟩
  | 89 => ⟨S4096x8x2x256, .f32⟩
  | 90 => ⟨S4096x4096, .f32⟩
  | 91 => ⟨S4096x4x2x512, .f32⟩
  | 92 => ⟨S4096x4x1x512, .f32⟩
  | 93 => ⟨S4096x4x512, .f32⟩
  | 94 => ⟨S4096x4x1x512, .f32⟩
  | 95 => ⟨S4096x4x512, .f32⟩
  | 96 => ⟨S4096x4x512, .f32⟩
  | 97 => ⟨S4096x4x512, .f32⟩
  | 98 => ⟨S4096x4x1x512, .f32⟩
  | 99 => ⟨S4096x4x1x512, .f32⟩
  | 100 => ⟨S4096x4x2x512, .f32⟩
  | 101 => ⟨S4096x4096, .f32⟩
  | 102 => ⟨S4096x2x2x1024, .f32⟩
  | 103 => ⟨S4096x2x1x1024, .f32⟩
  | 104 => ⟨S4096x2x1024, .f32⟩
  | 105 => ⟨S4096x2x1x1024, .f32⟩
  | 106 => ⟨S4096x2x1024, .f32⟩
  | 107 => ⟨S4096x2x1024, .f32⟩
  | 108 => ⟨S4096x2x1024, .f32⟩
  | 109 => ⟨S4096x2x1x1024, .f32⟩
  | 110 => ⟨S4096x2x1x1024, .f32⟩
  | 111 => ⟨S4096x2x2x1024, .f32⟩
  | 112 => ⟨S4096x4096, .f32⟩
  | 113 => ⟨S4096x1x2x2048, .f32⟩
  | 114 => ⟨S4096x1x1x2048, .f32⟩
  | 115 => ⟨S4096x1x2048, .f32⟩
  | 116 => ⟨S4096x1x1x2048, .f32⟩
  | 117 => ⟨S4096x1x2048, .f32⟩
  | 118 => ⟨S4096x1x2048, .f32⟩
  | 119 => ⟨S4096x1x2048, .f32⟩
  | 120 => ⟨S4096x1x1x2048, .f32⟩
  | 121 => ⟨S4096x1x1x2048, .f32⟩
  | 122 => ⟨S4096x1x2x2048, .f32⟩
  | 123 => ⟨S4096x4096, .f32⟩
  | 124 => ⟨S_, .f32⟩
  | 125 => ⟨S4096x4096, .f32⟩
  | 126 => ⟨S4096x4096, .f32⟩
  | 127 => ⟨S1x4096, .f32⟩
  | _ => ⟨S4x1024x4096, .f32⟩

abbrev hbmTy0_2 (i : Nat) : BufTy := match i % 128 with
  | 0 => ⟨S4096x4096, .f32⟩
  | 1 => ⟨S4096x4096, .f32⟩
  | 2 => ⟨S4096x4096, .f32⟩
  | 3 => ⟨S4096x2048x2x1, .f32⟩
  | 4 => ⟨S4096x2048x1x1, .f32⟩
  | 5 => ⟨S4096x2048x1, .f32⟩
  | 6 => ⟨S4096x2048x1x1, .f32⟩
  | 7 => ⟨S4096x2048x1, .f32⟩
  | 8 => ⟨S4096x2048x1, .f32⟩
  | 9 => ⟨S4096x2048x1, .f32⟩
  | 10 => ⟨S4096x2048x1x1, .f32⟩
  | 11 => ⟨S4096x2048x1x1, .f32⟩
  | 12 => ⟨S4096x2048x2x1, .f32⟩
  | 13 => ⟨S4096x4096, .f32⟩
  | 14 => ⟨S4096x1024x2x2, .f32⟩
  | 15 => ⟨S4096x1024x1x2, .f32⟩
  | 16 => ⟨S4096x1024x2, .f32⟩
  | 17 => ⟨S4096x1024x1x2, .f32⟩
  | 18 => ⟨S4096x1024x2, .f32⟩
  | 19 => ⟨S4096x1024x2, .f32⟩
  | 20 => ⟨S4096x1024x2, .f32⟩
  | 21 => ⟨S4096x1024x1x2, .f32⟩
  | 22 => ⟨S4096x1024x1x2, .f32⟩
  | 23 => ⟨S4096x1024x2x2, .f32⟩
  | 24 => ⟨S4096x4096, .f32⟩
  | 25 => ⟨S4096x512x2x4, .f32⟩
  | 26 => ⟨S4096x512x1x4, .f32⟩
  | 27 => ⟨S4096x512x4, .f32⟩
  | 28 => ⟨S4096x512x1x4, .f32⟩
  | 29 => ⟨S4096x512x4, .f32⟩
  | 30 => ⟨S4096x512x4, .f32⟩
  | 31 => ⟨S4096x512x4, .f32⟩
  | 32 => ⟨S4096x512x1x4, .f32⟩
  | 33 => ⟨S4096x512x1x4, .f32⟩
  | 34 => ⟨S4096x512x2x4, .f32⟩
  | 35 => ⟨S4096x4096, .f32⟩
  | 36 => ⟨S4096x256x2x8, .f32⟩
  | 37 => ⟨S4096x256x1x8, .f32⟩
  | 38 => ⟨S4096x256x8, .f32⟩
  | 39 => ⟨S4096x256x1x8, .f32⟩
  | 40 => ⟨S4096x256x8, .f32⟩
  | 41 => ⟨S4096x256x8, .f32⟩
  | 42 => ⟨S4096x256x8, .f32⟩
  | 43 => ⟨S4096x256x1x8, .f32⟩
  | 44 => ⟨S4096x256x1x8, .f32⟩
  | 45 => ⟨S4096x256x2x8, .f32⟩
  | 46 => ⟨S4096x4096, .f32⟩
  | 47 => ⟨S4096x128x2x16, .f32⟩
  | 48 => ⟨S4096x128x1x16, .f32⟩
  | 49 => ⟨S4096x128x16, .f32⟩
  | 50 => ⟨S4096x128x1x16, .f32⟩
  | 51 => ⟨S4096x128x16, .f32⟩
  | 52 => ⟨S4096x128x16, .f32⟩
  | 53 => ⟨S4096x128x16, .f32⟩
  | 54 => ⟨S4096x128x1x16, .f32⟩
  | 55 => ⟨S4096x128x1x16, .f32⟩
  | 56 => ⟨S4096x128x2x16, .f32⟩
  | 57 => ⟨S4096x4096, .f32⟩
  | 58 => ⟨S4096x64x2x32, .f32⟩
  | 59 => ⟨S4096x64x1x32, .f32⟩
  | 60 => ⟨S4096x64x32, .f32⟩
  | 61 => ⟨S4096x64x1x32, .f32⟩
  | 62 => ⟨S4096x64x32, .f32⟩
  | 63 => ⟨S4096x64x32, .f32⟩
  | 64 => ⟨S4096x64x32, .f32⟩
  | 65 => ⟨S4096x64x1x32, .f32⟩
  | 66 => ⟨S4096x64x1x32, .f32⟩
  | 67 => ⟨S4096x64x2x32, .f32⟩
  | 68 => ⟨S4096x4096, .f32⟩
  | 69 => ⟨S4096x32x2x64, .f32⟩
  | 70 => ⟨S4096x32x1x64, .f32⟩
  | 71 => ⟨S4096x32x64, .f32⟩
  | 72 => ⟨S4096x32x1x64, .f32⟩
  | 73 => ⟨S4096x32x64, .f32⟩
  | 74 => ⟨S4096x32x64, .f32⟩
  | 75 => ⟨S4096x32x64, .f32⟩
  | 76 => ⟨S4096x32x1x64, .f32⟩
  | 77 => ⟨S4096x32x1x64, .f32⟩
  | 78 => ⟨S4096x32x2x64, .f32⟩
  | 79 => ⟨S4096x4096, .f32⟩
  | 80 => ⟨S4096x16x2x128, .f32⟩
  | 81 => ⟨S4096x16x1x128, .f32⟩
  | 82 => ⟨S4096x16x128, .f32⟩
  | 83 => ⟨S4096x16x1x128, .f32⟩
  | 84 => ⟨S4096x16x128, .f32⟩
  | 85 => ⟨S4096x16x128, .f32⟩
  | 86 => ⟨S4096x16x128, .f32⟩
  | 87 => ⟨S4096x16x1x128, .f32⟩
  | 88 => ⟨S4096x16x1x128, .f32⟩
  | 89 => ⟨S4096x16x2x128, .f32⟩
  | 90 => ⟨S4096x4096, .f32⟩
  | 91 => ⟨S4096x8x2x256, .f32⟩
  | 92 => ⟨S4096x8x1x256, .f32⟩
  | 93 => ⟨S4096x8x256, .f32⟩
  | 94 => ⟨S4096x8x1x256, .f32⟩
  | 95 => ⟨S4096x8x256, .f32⟩
  | 96 => ⟨S4096x8x256, .f32⟩
  | 97 => ⟨S4096x8x256, .f32⟩
  | 98 => ⟨S4096x8x1x256, .f32⟩
  | 99 => ⟨S4096x8x1x256, .f32⟩
  | 100 => ⟨S4096x8x2x256, .f32⟩
  | 101 => ⟨S4096x4096, .f32⟩
  | 102 => ⟨S4096x4x2x512, .f32⟩
  | 103 => ⟨S4096x4x1x512, .f32⟩
  | 104 => ⟨S4096x4x512, .f32⟩
  | 105 => ⟨S4096x4x1x512, .f32⟩
  | 106 => ⟨S4096x4x512, .f32⟩
  | 107 => ⟨S4096x4x512, .f32⟩
  | 108 => ⟨S4096x4x512, .f32⟩
  | 109 => ⟨S4096x4x1x512, .f32⟩
  | 110 => ⟨S4096x4x1x512, .f32⟩
  | 111 => ⟨S4096x4x2x512, .f32⟩
  | 112 => ⟨S4096x4096, .f32⟩
  | 113 => ⟨S4096x2x2x1024, .f32⟩
  | 114 => ⟨S4096x2x1x1024, .f32⟩
  | 115 => ⟨S4096x2x1024, .f32⟩
  | 116 => ⟨S4096x2x1x1024, .f32⟩
  | 117 => ⟨S4096x2x1024, .f32⟩
  | 118 => ⟨S4096x2x1024, .f32⟩
  | 119 => ⟨S4096x2x1024, .f32⟩
  | 120 => ⟨S4096x2x1x1024, .f32⟩
  | 121 => ⟨S4096x2x1x1024, .f32⟩
  | 122 => ⟨S4096x2x2x1024, .f32⟩
  | 123 => ⟨S4096x4096, .f32⟩
  | 124 => ⟨S4096x1x2x2048, .f32⟩
  | 125 => ⟨S4096x1x1x2048, .f32⟩
  | 126 => ⟨S4096x1x2048, .f32⟩
  | 127 => ⟨S4096x1x1x2048, .f32⟩
  | _ => ⟨S4x1024x4096, .f32⟩

abbrev hbmTy0_3 (i : Nat) : BufTy := match i % 128 with
  | 0 => ⟨S4096x1x2048, .f32⟩
  | 1 => ⟨S4096x1x2048, .f32⟩
  | 2 => ⟨S4096x1x2048, .f32⟩
  | 3 => ⟨S4096x1x1x2048, .f32⟩
  | 4 => ⟨S4096x1x1x2048, .f32⟩
  | 5 => ⟨S4096x1x2x2048, .f32⟩
  | 6 => ⟨S4096x4096, .f32⟩
  | 7 => ⟨S_, .f32⟩
  | 8 => ⟨S4096x4096, .f32⟩
  | 9 => ⟨S4096x4096, .f32⟩
  | 10 => ⟨S4096x4096, .f32⟩
  | 11 => ⟨S4096x1, .f32⟩
  | 12 => ⟨S4096x4096, .f32⟩
  | 13 => ⟨S4096x4096, .f32⟩
  | 14 => ⟨S65536x256, .f32⟩
  | 15 => ⟨S65536x256, .f32⟩
  | 16 => ⟨S65536x256, .f32⟩
  | 17 => ⟨S4096x4096, .f32⟩
  | 18 => ⟨S4096x4096, .f32⟩
  | 19 => ⟨S4096x4096, .f32⟩
  | 20 => ⟨S4096x4096, .f32⟩
  | 21 => ⟨S4x1024x4096, .f32⟩
  | _ => ⟨S4x1024x4096, .f32⟩

abbrev hbmTy (i : Nat) : BufTy := match i / 128 with
  | 0 => hbmTy0_0 i
  | 1 => hbmTy0_1 i
  | 2 => hbmTy0_2 i
  | 3 => hbmTy0_3 i
  | _ => ⟨S4x1024x4096, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v2 : Ref sig .tc := ⟨.hbm, 46, rfl⟩
abbrev main_c_1 : Ref sig .tc := ⟨.hbm, 47, rfl⟩
abbrev main_v3 : Ref sig .tc := ⟨.hbm, 48, rfl⟩
abbrev main_v4 : Ref sig .tc := ⟨.hbm, 49, rfl⟩
abbrev main_c_2 : Ref sig .tc := ⟨.hbm, 50, rfl⟩
abbrev main_v5 : Ref sig .tc := ⟨.hbm, 51, rfl⟩
abbrev main_v6 : Ref sig .tc := ⟨.hbm, 52, rfl⟩
abbrev main_c_3 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v7 : Ref sig .tc := ⟨.hbm, 74, rfl⟩
abbrev main_c_4 : Ref sig .tc := ⟨.hbm, 75, rfl⟩
abbrev main_v8 : Ref sig .tc := ⟨.hbm, 76, rfl⟩
abbrev main_v9 : Ref sig .tc := ⟨.hbm, 77, rfl⟩
abbrev main_c_5 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_c_6 : Ref sig .tc := ⟨.hbm, 87, rfl⟩
abbrev main_v18 : Ref sig .tc := ⟨.hbm, 88, rfl⟩
abbrev main_v19 : Ref sig .tc := ⟨.hbm, 89, rfl⟩
abbrev main_c_7 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_c_8 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_c_9 : Ref sig .tc := ⟨.hbm, 103, rfl⟩
abbrev main_v31 : Ref sig .tc := ⟨.hbm, 104, rfl⟩
abbrev main_v32 : Ref sig .tc := ⟨.hbm, 105, rfl⟩
abbrev main_c_10 : Ref sig .tc := ⟨.hbm, 106, rfl⟩
abbrev main_v33 : Ref sig .tc := ⟨.hbm, 107, rfl⟩
abbrev main_v34 : Ref sig .tc := ⟨.hbm, 108, rfl⟩
abbrev main_c_11 : Ref sig .tc := ⟨.hbm, 109, rfl⟩
abbrev main_v35 : Ref sig .tc := ⟨.hbm, 110, rfl⟩
abbrev main_v36 : Ref sig .tc := ⟨.hbm, 111, rfl⟩
abbrev main_c_12 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_cst : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_v293 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_v306 : Ref sig .tc := ⟨.hbm, 383, rfl⟩
abbrev main_v307 : Ref sig .tc := ⟨.hbm, 384, rfl⟩
abbrev main_v308 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_cst_13 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S65536x128_S65536x128x1_0_1 : S65536x128.BroadcastsInDim S65536x128x1 (![0, 1] : Fin 2 → Fin S65536x128x1.rank)
  shapeCasts_S65536x128x2_S65536x256 : S65536x128x2.ShapeCasts S65536x256
  shapeCasts_S65536x256_S4096x4096 : S65536x256.ShapeCasts S4096x4096
  shapeCasts_S4096x4096_S4096x2048x2x1 : S4096x4096.ShapeCasts S4096x2048x2x1
  slices_S4096x2048x2x1_S4096x2048x1x1_0_0_0_0 : S4096x2048x2x1.Slices ![0, 0, 0, 0] S4096x2048x1x1
  shapeCasts_S4096x2048x1x1_S4096x2048x1 : S4096x2048x1x1.ShapeCasts S4096x2048x1
  slices_S4096x2048x2x1_S4096x2048x1x1_0_0_1_0 : S4096x2048x2x1.Slices ![0, 0, 1, 0] S4096x2048x1x1
  bcast_S4096x2048x1_S4096x2048x1x1_0_1_3 : S4096x2048x1.BroadcastsInDim S4096x2048x1x1 (![0, 1, 3] : Fin 3 → Fin S4096x2048x1x1.rank)
  concatenates_S4096x2048x1x1_S4096x2048x1x1_S4096x2048x2x1_d2 : Shape.Concatenates [S4096x2048x1x1, S4096x2048x1x1] S4096x2048x2x1 2
  shapeCasts_S4096x2048x2x1_S4096x4096 : S4096x2048x2x1.ShapeCasts S4096x4096
  shapeCasts_S4096x4096_S4096x1024x2x2 : S4096x4096.ShapeCasts S4096x1024x2x2
  slices_S4096x1024x2x2_S4096x1024x1x2_0_0_0_0 : S4096x1024x2x2.Slices ![0, 0, 0, 0] S4096x1024x1x2
  shapeCasts_S4096x1024x1x2_S4096x1024x2 : S4096x1024x1x2.ShapeCasts S4096x1024x2
  slices_S4096x1024x2x2_S4096x1024x1x2_0_0_1_0 : S4096x1024x2x2.Slices ![0, 0, 1, 0] S4096x1024x1x2
  bcast_S4096x1024x2_S4096x1024x1x2_0_1_3 : S4096x1024x2.BroadcastsInDim S4096x1024x1x2 (![0, 1, 3] : Fin 3 → Fin S4096x1024x1x2.rank)
  concatenates_S4096x1024x1x2_S4096x1024x1x2_S4096x1024x2x2_d2 : Shape.Concatenates [S4096x1024x1x2, S4096x1024x1x2] S4096x1024x2x2 2
  shapeCasts_S4096x1024x2x2_S4096x4096 : S4096x1024x2x2.ShapeCasts S4096x4096
  shapeCasts_S4096x4096_S4096x512x2x4 : S4096x4096.ShapeCasts S4096x512x2x4
  slices_S4096x512x2x4_S4096x512x1x4_0_0_0_0 : S4096x512x2x4.Slices ![0, 0, 0, 0] S4096x512x1x4
  shapeCasts_S4096x512x1x4_S4096x512x4 : S4096x512x1x4.ShapeCasts S4096x512x4
  slices_S4096x512x2x4_S4096x512x1x4_0_0_1_0 : S4096x512x2x4.Slices ![0, 0, 1, 0] S4096x512x1x4
  bcast_S4096x512x4_S4096x512x1x4_0_1_3 : S4096x512x4.BroadcastsInDim S4096x512x1x4 (![0, 1, 3] : Fin 3 → Fin S4096x512x1x4.rank)
  concatenates_S4096x512x1x4_S4096x512x1x4_S4096x512x2x4_d2 : Shape.Concatenates [S4096x512x1x4, S4096x512x1x4] S4096x512x2x4 2
  shapeCasts_S4096x512x2x4_S4096x4096 : S4096x512x2x4.ShapeCasts S4096x4096
  shapeCasts_S4096x4096_S4096x256x2x8 : S4096x4096.ShapeCasts S4096x256x2x8
  slices_S4096x256x2x8_S4096x256x1x8_0_0_0_0 : S4096x256x2x8.Slices ![0, 0, 0, 0] S4096x256x1x8
  shapeCasts_S4096x256x1x8_S4096x256x8 : S4096x256x1x8.ShapeCasts S4096x256x8
  slices_S4096x256x2x8_S4096x256x1x8_0_0_1_0 : S4096x256x2x8.Slices ![0, 0, 1, 0] S4096x256x1x8
  bcast_S4096x256x8_S4096x256x1x8_0_1_3 : S4096x256x8.BroadcastsInDim S4096x256x1x8 (![0, 1, 3] : Fin 3 → Fin S4096x256x1x8.rank)
  concatenates_S4096x256x1x8_S4096x256x1x8_S4096x256x2x8_d2 : Shape.Concatenates [S4096x256x1x8, S4096x256x1x8] S4096x256x2x8 2
  shapeCasts_S4096x256x2x8_S4096x4096 : S4096x256x2x8.ShapeCasts S4096x4096
  shapeCasts_S4096x4096_S4096x128x2x16 : S4096x4096.ShapeCasts S4096x128x2x16
  slices_S4096x128x2x16_S4096x128x1x16_0_0_0_0 : S4096x128x2x16.Slices ![0, 0, 0, 0] S4096x128x1x16
  shapeCasts_S4096x128x1x16_S4096x128x16 : S4096x128x1x16.ShapeCasts S4096x128x16
  slices_S4096x128x2x16_S4096x128x1x16_0_0_1_0 : S4096x128x2x16.Slices ![0, 0, 1, 0] S4096x128x1x16
  bcast_S4096x128x16_S4096x128x1x16_0_1_3 : S4096x128x16.BroadcastsInDim S4096x128x1x16 (![0, 1, 3] : Fin 3 → Fin S4096x128x1x16.rank)
  concatenates_S4096x128x1x16_S4096x128x1x16_S4096x128x2x16_d2 : Shape.Concatenates [S4096x128x1x16, S4096x128x1x16] S4096x128x2x16 2
  shapeCasts_S4096x128x2x16_S4096x4096 : S4096x128x2x16.ShapeCasts S4096x4096
  shapeCasts_S4096x4096_S4096x64x2x32 : S4096x4096.ShapeCasts S4096x64x2x32
  slices_S4096x64x2x32_S4096x64x1x32_0_0_0_0 : S4096x64x2x32.Slices ![0, 0, 0, 0] S4096x64x1x32
  shapeCasts_S4096x64x1x32_S4096x64x32 : S4096x64x1x32.ShapeCasts S4096x64x32
  slices_S4096x64x2x32_S4096x64x1x32_0_0_1_0 : S4096x64x2x32.Slices ![0, 0, 1, 0] S4096x64x1x32
  bcast_S4096x64x32_S4096x64x1x32_0_1_3 : S4096x64x32.BroadcastsInDim S4096x64x1x32 (![0, 1, 3] : Fin 3 → Fin S4096x64x1x32.rank)
  concatenates_S4096x64x1x32_S4096x64x1x32_S4096x64x2x32_d2 : Shape.Concatenates [S4096x64x1x32, S4096x64x1x32] S4096x64x2x32 2
  shapeCasts_S4096x64x2x32_S4096x4096 : S4096x64x2x32.ShapeCasts S4096x4096
  shapeCasts_S4096x4096_S4096x32x2x64 : S4096x4096.ShapeCasts S4096x32x2x64
  slices_S4096x32x2x64_S4096x32x1x64_0_0_0_0 : S4096x32x2x64.Slices ![0, 0, 0, 0] S4096x32x1x64
  shapeCasts_S4096x32x1x64_S4096x32x64 : S4096x32x1x64.ShapeCasts S4096x32x64
  slices_S4096x32x2x64_S4096x32x1x64_0_0_1_0 : S4096x32x2x64.Slices ![0, 0, 1, 0] S4096x32x1x64
  bcast_S4096x32x64_S4096x32x1x64_0_1_3 : S4096x32x64.BroadcastsInDim S4096x32x1x64 (![0, 1, 3] : Fin 3 → Fin S4096x32x1x64.rank)
  concatenates_S4096x32x1x64_S4096x32x1x64_S4096x32x2x64_d2 : Shape.Concatenates [S4096x32x1x64, S4096x32x1x64] S4096x32x2x64 2
  shapeCasts_S4096x32x2x64_S4096x4096 : S4096x32x2x64.ShapeCasts S4096x4096
  shapeCasts_S4096x4096_S4096x16x2x128 : S4096x4096.ShapeCasts S4096x16x2x128
  slices_S4096x16x2x128_S4096x16x1x128_0_0_0_0 : S4096x16x2x128.Slices ![0, 0, 0, 0] S4096x16x1x128
  shapeCasts_S4096x16x1x128_S4096x16x128 : S4096x16x1x128.ShapeCasts S4096x16x128
  slices_S4096x16x2x128_S4096x16x1x128_0_0_1_0 : S4096x16x2x128.Slices ![0, 0, 1, 0] S4096x16x1x128
  bcast_S4096x16x128_S4096x16x1x128_0_1_3 : S4096x16x128.BroadcastsInDim S4096x16x1x128 (![0, 1, 3] : Fin 3 → Fin S4096x16x1x128.rank)
  concatenates_S4096x16x1x128_S4096x16x1x128_S4096x16x2x128_d2 : Shape.Concatenates [S4096x16x1x128, S4096x16x1x128] S4096x16x2x128 2
  shapeCasts_S4096x16x2x128_S4096x4096 : S4096x16x2x128.ShapeCasts S4096x4096
  shapeCasts_S4096x4096_S4096x8x2x256 : S4096x4096.ShapeCasts S4096x8x2x256
  slices_S4096x8x2x256_S4096x8x1x256_0_0_0_0 : S4096x8x2x256.Slices ![0, 0, 0, 0] S4096x8x1x256
  shapeCasts_S4096x8x1x256_S4096x8x256 : S4096x8x1x256.ShapeCasts S4096x8x256
  slices_S4096x8x2x256_S4096x8x1x256_0_0_1_0 : S4096x8x2x256.Slices ![0, 0, 1, 0] S4096x8x1x256
  bcast_S4096x8x256_S4096x8x1x256_0_1_3 : S4096x8x256.BroadcastsInDim S4096x8x1x256 (![0, 1, 3] : Fin 3 → Fin S4096x8x1x256.rank)
  concatenates_S4096x8x1x256_S4096x8x1x256_S4096x8x2x256_d2 : Shape.Concatenates [S4096x8x1x256, S4096x8x1x256] S4096x8x2x256 2
  shapeCasts_S4096x8x2x256_S4096x4096 : S4096x8x2x256.ShapeCasts S4096x4096
  shapeCasts_S4096x4096_S4096x4x2x512 : S4096x4096.ShapeCasts S4096x4x2x512
  slices_S4096x4x2x512_S4096x4x1x512_0_0_0_0 : S4096x4x2x512.Slices ![0, 0, 0, 0] S4096x4x1x512
  shapeCasts_S4096x4x1x512_S4096x4x512 : S4096x4x1x512.ShapeCasts S4096x4x512
  slices_S4096x4x2x512_S4096x4x1x512_0_0_1_0 : S4096x4x2x512.Slices ![0, 0, 1, 0] S4096x4x1x512
  bcast_S4096x4x512_S4096x4x1x512_0_1_3 : S4096x4x512.BroadcastsInDim S4096x4x1x512 (![0, 1, 3] : Fin 3 → Fin S4096x4x1x512.rank)
  concatenates_S4096x4x1x512_S4096x4x1x512_S4096x4x2x512_d2 : Shape.Concatenates [S4096x4x1x512, S4096x4x1x512] S4096x4x2x512 2
  shapeCasts_S4096x4x2x512_S4096x4096 : S4096x4x2x512.ShapeCasts S4096x4096
  shapeCasts_S4096x4096_S4096x2x2x1024 : S4096x4096.ShapeCasts S4096x2x2x1024
  slices_S4096x2x2x1024_S4096x2x1x1024_0_0_0_0 : S4096x2x2x1024.Slices ![0, 0, 0, 0] S4096x2x1x1024
  shapeCasts_S4096x2x1x1024_S4096x2x1024 : S4096x2x1x1024.ShapeCasts S4096x2x1024
  slices_S4096x2x2x1024_S4096x2x1x1024_0_0_1_0 : S4096x2x2x1024.Slices ![0, 0, 1, 0] S4096x2x1x1024
  bcast_S4096x2x1024_S4096x2x1x1024_0_1_3 : S4096x2x1024.BroadcastsInDim S4096x2x1x1024 (![0, 1, 3] : Fin 3 → Fin S4096x2x1x1024.rank)
  concatenates_S4096x2x1x1024_S4096x2x1x1024_S4096x2x2x1024_d2 : Shape.Concatenates [S4096x2x1x1024, S4096x2x1x1024] S4096x2x2x1024 2
  shapeCasts_S4096x2x2x1024_S4096x4096 : S4096x2x2x1024.ShapeCasts S4096x4096
  shapeCasts_S4096x4096_S4096x1x2x2048 : S4096x4096.ShapeCasts S4096x1x2x2048
  slices_S4096x1x2x2048_S4096x1x1x2048_0_0_0_0 : S4096x1x2x2048.Slices ![0, 0, 0, 0] S4096x1x1x2048
  shapeCasts_S4096x1x1x2048_S4096x1x2048 : S4096x1x1x2048.ShapeCasts S4096x1x2048
  slices_S4096x1x2x2048_S4096x1x1x2048_0_0_1_0 : S4096x1x2x2048.Slices ![0, 0, 1, 0] S4096x1x1x2048
  bcast_S4096x1x2048_S4096x1x1x2048_0_1_3 : S4096x1x2048.BroadcastsInDim S4096x1x1x2048 (![0, 1, 3] : Fin 3 → Fin S4096x1x1x2048.rank)
  concatenates_S4096x1x1x2048_S4096x1x1x2048_S4096x1x2x2048_d2 : Shape.Concatenates [S4096x1x1x2048, S4096x1x1x2048] S4096x1x2x2048 2
  shapeCasts_S4096x1x2x2048_S4096x4096 : S4096x1x2x2048.ShapeCasts S4096x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  shapeCasts_S4096x4096_S65536x256 : S4096x4096.ShapeCasts S65536x256
  bcast_S65536x1_S65536x256_0_1 : S65536x1.BroadcastsInDim S65536x256 (![0, 1] : Fin 2 → Fin S65536x256.rank)
  shapeCasts_S4x1024x4096_S4096x4096 : S4x1024x4096.ShapeCasts S4096x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S4096x4096_S4x1024x4096 : S4096x4096.ShapeCasts S4x1024x4096
  gather_S65536x32_S128x1_S65536x128_0_1_n_n_1_1_655361_wf : GatherDims.WF S65536x32 S128x1 S65536x128 [0] [1] [] [1] [] 1 ![65536, 1]
  gather_S1024x2_S65536x128x1_S65536x128x2_2_0_n_n_0_2_12_wf : GatherDims.WF S1024x2 S65536x128x1 S65536x128x2 [2] [0] [] [0] [] 2 ![1, 2]
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)

variable [Facts₀]

def gather_S65536x32_S128x1_S65536x128_0_1_n_n_1_1_655361 : GatherDims S65536x32 S128x1 S65536x128 where
  offsetDims := [0]
  collapsedSliceDims := [1]
  operandBatchingDims := []
  startIndicesBatchingDims := []
  startIndexMap := [1]
  indexVectorDim := 1
  sliceSizes := ![65536, 1]
  wf := gather_S65536x32_S128x1_S65536x128_0_1_n_n_1_1_655361_wf
def gather_S1024x2_S65536x128x1_S65536x128x2_2_0_n_n_0_2_12 : GatherDims S1024x2 S65536x128x1 S65536x128x2 where
  offsetDims := [2]
  collapsedSliceDims := [0]
  operandBatchingDims := []
  startIndicesBatchingDims := []
  startIndexMap := [0]
  indexVectorDim := 2
  sliceSizes := ![1, 2]
  wf := gather_S1024x2_S65536x128x1_S65536x128x2_2_0_n_n_0_2_12_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v324) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v325) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v326) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1024x4096 : Shape := ⟨3, ![4, 1024, 4096]⟩
abbrev S4096 : Shape := ⟨1, ![4096]⟩
abbrev S65536x1 : Shape := ⟨2, ![65536, 1]⟩
abbrev S1024x2 : Shape := ⟨2, ![1024, 2]⟩
abbrev S65536x32 : Shape := ⟨2, ![65536, 32]⟩
abbrev S128 : Shape := ⟨1, ![128]⟩
abbrev S_ : Shape := ⟨0, ![]⟩
abbrev S128x1 : Shape := ⟨2, ![128, 1]⟩
abbrev S65536x128 : Shape := ⟨2, ![65536, 128]⟩
abbrev S1x128 : Shape := ⟨2, ![1, 128]⟩
abbrev S65536x128x1 : Shape := ⟨3, ![65536, 128, 1]⟩
abbrev S65536x128x2 : Shape := ⟨3, ![65536, 128, 2]⟩
abbrev S65536x256 : Shape := ⟨2, ![65536, 256]⟩
abbrev S4096x4096 : Shape := ⟨2, ![4096, 4096]⟩
abbrev S4096x2048x2x1 : Shape := ⟨4, ![4096, 2048, 2, 1]⟩
abbrev S4096x2048x1x1 : Shape := ⟨4, ![4096, 2048, 1, 1]⟩
abbrev S4096x2048x1 : Shape := ⟨3, ![4096, 2048, 1]⟩
abbrev S4096x1024x2x2 : Shape := ⟨4, ![4096, 1024, 2, 2]⟩
abbrev S4096x1024x1x2 : Shape := ⟨4, ![4096, 1024, 1, 2]⟩
abbrev S4096x1024x2 : Shape := ⟨3, ![4096, 1024, 2]⟩
abbrev S4096x512x2x4 : Shape := ⟨4, ![4096, 512, 2, 4]⟩
abbrev S4096x512x1x4 : Shape := ⟨4, ![4096, 512, 1, 4]⟩
abbrev S4096x512x4 : Shape := ⟨3, ![4096, 512, 4]⟩
abbrev S4096x256x2x8 : Shape := ⟨4, ![4096, 256, 2, 8]⟩
abbrev S4096x256x1x8 : Shape := ⟨4, ![4096, 256, 1, 8]⟩
abbrev S4096x256x8 : Shape := ⟨3, ![4096, 256, 8]⟩
abbrev S4096x128x2x16 : Shape := ⟨4, ![4096, 128, 2, 16]⟩
abbrev S4096x128x1x16 : Shape := ⟨4, ![4096, 128, 1, 16]⟩
abbrev S4096x128x16 : Shape := ⟨3, ![4096, 128, 16]⟩
abbrev S4096x64x2x32 : Shape := ⟨4, ![4096, 64, 2, 32]⟩
abbrev S4096x64x1x32 : Shape := ⟨4, ![4096, 64, 1, 32]⟩
abbrev S4096x64x32 : Shape := ⟨3, ![4096, 64, 32]⟩
abbrev S4096x32x2x64 : Shape := ⟨4, ![4096, 32, 2, 64]⟩
abbrev S4096x32x1x64 : Shape := ⟨4, ![4096, 32, 1, 64]⟩
abbrev S4096x32x64 : Shape := ⟨3, ![4096, 32, 64]⟩
abbrev S4096x16x2x128 : Shape := ⟨4, ![4096, 16, 2, 128]⟩
abbrev S4096x16x1x128 : Shape := ⟨4, ![4096, 16, 1, 128]⟩
abbrev S4096x16x128 : Shape := ⟨3, ![4096, 16, 128]⟩
abbrev S4096x8x2x256 : Shape := ⟨4, ![4096, 8, 2, 256]⟩
abbrev S4096x8x1x256 : Shape := ⟨4, ![4096, 8, 1, 256]⟩
abbrev S4096x8x256 : Shape := ⟨3, ![4096, 8, 256]⟩
abbrev S4096x4x2x512 : Shape := ⟨4, ![4096, 4, 2, 512]⟩
abbrev S4096x4x1x512 : Shape := ⟨4, ![4096, 4, 1, 512]⟩
abbrev S4096x4x512 : Shape := ⟨3, ![4096, 4, 512]⟩
abbrev S4096x2x2x1024 : Shape := ⟨4, ![4096, 2, 2, 1024]⟩
abbrev S4096x2x1x1024 : Shape := ⟨4, ![4096, 2, 1, 1024]⟩
abbrev S4096x2x1024 : Shape := ⟨3, ![4096, 2, 1024]⟩
abbrev S4096x1x2x2048 : Shape := ⟨4, ![4096, 1, 2, 2048]⟩
abbrev S4096x1x1x2048 : Shape := ⟨4, ![4096, 1, 1, 2048]⟩
abbrev S4096x1x2048 : Shape := ⟨3, ![4096, 1, 2048]⟩
abbrev S1x4096 : Shape := ⟨2, ![1, 4096]⟩
abbrev S4096x1 : Shape := ⟨2, ![4096, 1]⟩

abbrev nBuf : Space → Nat
  | .hbm => 403
  | .vmem => 0
  | .smem => 0
  | _ => 0

abbrev hbmTy0_0 (i : Nat) : BufTy := match i % 128 with
  | 0 => ⟨S4x1024x4096, .f32⟩
  | 1 => ⟨S4096, .f32⟩
  | 2 => ⟨S4096, .f32⟩
  | 3 => ⟨S65536x1, .f32⟩
  | 4 => ⟨S1024x2, .f32⟩
  | 5 => ⟨S65536x32, .i32⟩
  | 6 => ⟨S128, .i32⟩
  | 7 => ⟨S_, .i32⟩
  | 8 => ⟨S_, .i32⟩
  | 9 => ⟨S128, .i32⟩
  | 10 => ⟨S128, .i32⟩
  | 11 => ⟨S128, .i32⟩
  | 12 => ⟨S_, .i32⟩
  | 13 => ⟨S128, .i32⟩
  | 14 => ⟨S128, .i1⟩
  | 15 => ⟨S128, .i32⟩
  | 16 => ⟨S128, .i32⟩
  | 17 => ⟨S_, .i32⟩
  | 18 => ⟨S128, .i32⟩
  | 19 => ⟨S128, .i1⟩
  | 20 => ⟨S128, .i1⟩
  | 21 => ⟨S_, .i32⟩
  | 22 => ⟨S128, .i32⟩
  | 23 => ⟨S128, .i32⟩
  | 24 => ⟨S128, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S128, .i32⟩
  | 32 => ⟨S128, .i32⟩
  | 33 => ⟨S_, .i32⟩
  | 34 => ⟨S128, .i32⟩
  | 35 => ⟨S128, .i1⟩
  | 36 => ⟨S_, .i32⟩
  | 37 => ⟨S128, .i32⟩
  | 38 => ⟨S128, .i1⟩
  | 39 => ⟨S_, .i32⟩
  | 40 => ⟨S_, .i1⟩
  | 41 => ⟨S128, .i1⟩
  | 42 => ⟨S128, .i1⟩
  | 43 => ⟨S128, .i1⟩
  | 44 => ⟨S128, .i32⟩
  | 45 => ⟨S128, .i32⟩
  | 46 => ⟨S128, .i32⟩
  | 47 => ⟨S_, .i32⟩
  | 48 => ⟨S128, .i32⟩
  | 49 => ⟨S128, .i32⟩
  | 50 => ⟨S_, .i32⟩
  | 51 => ⟨S128, .i32⟩
  | 52 => ⟨S128, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S128, .i32⟩
  | 60 => ⟨S128, .i32⟩
  | 61 => ⟨S_, .i32⟩
  | 62 => ⟨S128, .i32⟩
  | 63 => ⟨S128, .i1⟩
  | 64 => ⟨S_, .i32⟩
  | 65 => ⟨S128, .i32⟩
  | 66 => ⟨S128, .i1⟩
  | 67 => ⟨S_, .i32⟩
  | 68 => ⟨S_, .i1⟩
  | 69 => ⟨S128, .i1⟩
  | 70 => ⟨S128, .i1⟩
  | 71 => ⟨S128, .i1⟩
  | 72 => ⟨S128, .i32⟩
  | 73 => ⟨S128, .i32⟩
  | 74 => ⟨S128, .i32⟩
  | 75 => ⟨S_, .i32⟩
  | 76 => ⟨S128, .i32⟩
  | 77 => ⟨S128, .i1⟩
  | 78 => ⟨S_, .i32⟩
  | 79 => ⟨S128, .i32⟩
  | 80 => ⟨S128, .i32⟩
  | 81 => ⟨S128, .i32⟩
  | 82 => ⟨S128x1, .i32⟩
  | 83 => ⟨S65536x128, .i32⟩
  | 84 => ⟨S1x128, .i32⟩
  | 85 => ⟨S65536x128, .i32⟩
  | 86 => ⟨S65536x128, .i32⟩
  | 87 => ⟨S_, .i32⟩
  | 88 => ⟨S128, .i32⟩
  | 89 => ⟨S128, .i1⟩
  | 90 => ⟨S_, .i32⟩
  | 91 => ⟨S128, .i32⟩
  | 92 => ⟨S128, .i32⟩
  | 93 => ⟨S128, .i32⟩
  | 94 => ⟨S128x1, .i32⟩
  | 95 => ⟨S65536x128, .i32⟩
  | 96 => ⟨S_, .i32⟩
  | 97 => ⟨S128, .i32⟩
  | 98 => ⟨S128, .i32⟩
  | 99 => ⟨S1x128, .i32⟩
  | 100 => ⟨S65536x128, .i32⟩
  | 101 => ⟨S65536x128, .i32⟩
  | 102 => ⟨S65536x128, .i32⟩
  | 103 => ⟨S_, .i32⟩
  | 104 => ⟨S65536x128, .i32⟩
  | 105 => ⟨S65536x128, .i32⟩
  | 106 => ⟨S_, .i32⟩
  | 107 => ⟨S65536x128, .i32⟩
  | 108 => ⟨S65536x128, .i32⟩
  | 109 => ⟨S_, .i32⟩
  | 110 => ⟨S65536x128, .i32⟩
  | 111 => ⟨S65536x128, .i1⟩
  | 112 => ⟨S_, .i32⟩
  | 113 => ⟨S65536x128, .i32⟩
  | 114 => ⟨S65536x128, .i32⟩
  | 115 => ⟨S65536x128, .i32⟩
  | 116 => ⟨S65536x128x1, .i32⟩
  | 117 => ⟨S65536x128x2, .f32⟩
  | 118 => ⟨S65536x256, .f32⟩
  | 119 => ⟨S4096x4096, .f32⟩
  | 120 => ⟨S4096x2048x2x1, .f32⟩
  | 121 => ⟨S4096x2048x1x1, .f32⟩
  | 122 => ⟨S4096x2048x1, .f32⟩
  | 123 => ⟨S4096x2048x1x1, .f32⟩
  | 124 => ⟨S4096x2048x1, .f32⟩
  | 125 => ⟨S4096x2048x1, .f32⟩
  | 126 => ⟨S4096x2048x1, .f32⟩
  | 127 => ⟨S4096x2048x1x1, .f32⟩
  | _ => ⟨S4x1024x4096, .f32⟩

abbrev hbmTy0_1 (i : Nat) : BufTy := match i % 128 with
  | 0 => ⟨S4096x2048x1x1, .f32⟩
  | 1 => ⟨S4096x2048x2x1, .f32⟩
  | 2 => ⟨S4096x4096, .f32⟩
  | 3 => ⟨S4096x1024x2x2, .f32⟩
  | 4 => ⟨S4096x1024x1x2, .f32⟩
  | 5 => ⟨S4096x1024x2, .f32⟩
  | 6 => ⟨S4096x1024x1x2, .f32⟩
  | 7 => ⟨S4096x1024x2, .f32⟩
  | 8 => ⟨S4096x1024x2, .f32⟩
  | 9 => ⟨S4096x1024x2, .f32⟩
  | 10 => ⟨S4096x1024x1x2, .f32⟩
  | 11 => ⟨S4096x1024x1x2, .f32⟩
  | 12 => ⟨S4096x1024x2x2, .f32⟩
  | 13 => ⟨S4096x4096, .f32⟩
  | 14 => ⟨S4096x512x2x4, .f32⟩
  | 15 => ⟨S4096x512x1x4, .f32⟩
  | 16 => ⟨S4096x512x4, .f32⟩
  | 17 => ⟨S4096x512x1x4, .f32⟩
  | 18 => ⟨S4096x512x4, .f32⟩
  | 19 => ⟨S4096x512x4, .f32⟩
  | 20 => ⟨S4096x512x4, .f32⟩
  | 21 => ⟨S4096x512x1x4, .f32⟩
  | 22 => ⟨S4096x512x1x4, .f32⟩
  | 23 => ⟨S4096x512x2x4, .f32⟩
  | 24 => ⟨S4096x4096, .f32⟩
  | 25 => ⟨S4096x256x2x8, .f32⟩
  | 26 => ⟨S4096x256x1x8, .f32⟩
  | 27 => ⟨S4096x256x8, .f32⟩
  | 28 => ⟨S4096x256x1x8, .f32⟩
  | 29 => ⟨S4096x256x8, .f32⟩
  | 30 => ⟨S4096x256x8, .f32⟩
  | 31 => ⟨S4096x256x8, .f32⟩
  | 32 => ⟨S4096x256x1x8, .f32⟩
  | 33 => ⟨S4096x256x1x8, .f32⟩
  | 34 => ⟨S4096x256x2x8, .f32⟩
  | 35 => ⟨S4096x4096, .f32⟩
  | 36 => ⟨S4096x128x2x16, .f32⟩
  | 37 => ⟨S4096x128x1x16, .f32⟩
  | 38 => ⟨S4096x128x16, .f32⟩
  | 39 => ⟨S4096x128x1x16, .f32⟩
  | 40 => ⟨S4096x128x16, .f32⟩
  | 41 => ⟨S4096x128x16, .f32⟩
  | 42 => ⟨S4096x128x16, .f32⟩
  | 43 => ⟨S4096x128x1x16, .f32⟩
  | 44 => ⟨S4096x128x1x16, .f32⟩
  | 45 => ⟨S4096x128x2x16, .f32⟩
  | 46 => ⟨S4096x4096, .f32⟩
  | 47 => ⟨S4096x64x2x32, .f32⟩
  | 48 => ⟨S4096x64x1x32, .f32⟩
  | 49 => ⟨S4096x64x32, .f32⟩
  | 50 => ⟨S4096x64x1x32, .f32⟩
  | 51 => ⟨S4096x64x32, .f32⟩
  | 52 => ⟨S4096x64x32, .f32⟩
  | 53 => ⟨S4096x64x32, .f32⟩
  | 54 => ⟨S4096x64x1x32, .f32⟩
  | 55 => ⟨S4096x64x1x32, .f32⟩
  | 56 => ⟨S4096x64x2x32, .f32⟩
  | 57 => ⟨S4096x4096, .f32⟩
  | 58 => ⟨S4096x32x2x64, .f32⟩
  | 59 => ⟨S4096x32x1x64, .f32⟩
  | 60 => ⟨S4096x32x64, .f32⟩
  | 61 => ⟨S4096x32x1x64, .f32⟩
  | 62 => ⟨S4096x32x64, .f32⟩
  | 63 => ⟨S4096x32x64, .f32⟩
  | 64 => ⟨S4096x32x64, .f32⟩
  | 65 => ⟨S4096x32x1x64, .f32⟩
  | 66 => ⟨S4096x32x1x64, .f32⟩
  | 67 => ⟨S4096x32x2x64, .f32⟩
  | 68 => ⟨S4096x4096, .f32⟩
  | 69 => ⟨S4096x16x2x128, .f32⟩
  | 70 => ⟨S4096x16x1x128, .f32⟩
  | 71 => ⟨S4096x16x128, .f32⟩
  | 72 => ⟨S4096x16x1x128, .f32⟩
  | 73 => ⟨S4096x16x128, .f32⟩
  | 74 => ⟨S4096x16x128, .f32⟩
  | 75 => ⟨S4096x16x128, .f32⟩
  | 76 => ⟨S4096x16x1x128, .f32⟩
  | 77 => ⟨S4096x16x1x128, .f32⟩
  | 78 => ⟨S4096x16x2x128, .f32⟩
  | 79 => ⟨S4096x4096, .f32⟩
  | 80 => ⟨S4096x8x2x256, .f32⟩
  | 81 => ⟨S4096x8x1x256, .f32⟩
  | 82 => ⟨S4096x8x256, .f32⟩
  | 83 => ⟨S4096x8x1x256, .f32⟩
  | 84 => ⟨S4096x8x256, .f32⟩
  | 85 => ⟨S4096x8x256, .f32⟩
  | 86 => ⟨S4096x8x256, .f32⟩
  | 87 => ⟨S4096x8x1x256, .f32⟩
  | 88 => ⟨S4096x8x1x256, .f32⟩
  | 89 => ⟨S4096x8x2x256, .f32⟩
  | 90 => ⟨S4096x4096, .f32⟩
  | 91 => ⟨S4096x4x2x512, .f32⟩
  | 92 => ⟨S4096x4x1x512, .f32⟩
  | 93 => ⟨S4096x4x512, .f32⟩
  | 94 => ⟨S4096x4x1x512, .f32⟩
  | 95 => ⟨S4096x4x512, .f32⟩
  | 96 => ⟨S4096x4x512, .f32⟩
  | 97 => ⟨S4096x4x512, .f32⟩
  | 98 => ⟨S4096x4x1x512, .f32⟩
  | 99 => ⟨S4096x4x1x512, .f32⟩
  | 100 => ⟨S4096x4x2x512, .f32⟩
  | 101 => ⟨S4096x4096, .f32⟩
  | 102 => ⟨S4096x2x2x1024, .f32⟩
  | 103 => ⟨S4096x2x1x1024, .f32⟩
  | 104 => ⟨S4096x2x1024, .f32⟩
  | 105 => ⟨S4096x2x1x1024, .f32⟩
  | 106 => ⟨S4096x2x1024, .f32⟩
  | 107 => ⟨S4096x2x1024, .f32⟩
  | 108 => ⟨S4096x2x1024, .f32⟩
  | 109 => ⟨S4096x2x1x1024, .f32⟩
  | 110 => ⟨S4096x2x1x1024, .f32⟩
  | 111 => ⟨S4096x2x2x1024, .f32⟩
  | 112 => ⟨S4096x4096, .f32⟩
  | 113 => ⟨S4096x1x2x2048, .f32⟩
  | 114 => ⟨S4096x1x1x2048, .f32⟩
  | 115 => ⟨S4096x1x2048, .f32⟩
  | 116 => ⟨S4096x1x1x2048, .f32⟩
  | 117 => ⟨S4096x1x2048, .f32⟩
  | 118 => ⟨S4096x1x2048, .f32⟩
  | 119 => ⟨S4096x1x2048, .f32⟩
  | 120 => ⟨S4096x1x1x2048, .f32⟩
  | 121 => ⟨S4096x1x1x2048, .f32⟩
  | 122 => ⟨S4096x1x2x2048, .f32⟩
  | 123 => ⟨S4096x4096, .f32⟩
  | 124 => ⟨S_, .f32⟩
  | 125 => ⟨S4096x4096, .f32⟩
  | 126 => ⟨S4096x4096, .f32⟩
  | 127 => ⟨S1x4096, .f32⟩
  | _ => ⟨S4x1024x4096, .f32⟩

abbrev hbmTy0_2 (i : Nat) : BufTy := match i % 128 with
  | 0 => ⟨S4096x4096, .f32⟩
  | 1 => ⟨S4096x4096, .f32⟩
  | 2 => ⟨S4096x4096, .f32⟩
  | 3 => ⟨S4096x2048x2x1, .f32⟩
  | 4 => ⟨S4096x2048x1x1, .f32⟩
  | 5 => ⟨S4096x2048x1, .f32⟩
  | 6 => ⟨S4096x2048x1x1, .f32⟩
  | 7 => ⟨S4096x2048x1, .f32⟩
  | 8 => ⟨S4096x2048x1, .f32⟩
  | 9 => ⟨S4096x2048x1, .f32⟩
  | 10 => ⟨S4096x2048x1x1, .f32⟩
  | 11 => ⟨S4096x2048x1x1, .f32⟩
  | 12 => ⟨S4096x2048x2x1, .f32⟩
  | 13 => ⟨S4096x4096, .f32⟩
  | 14 => ⟨S4096x1024x2x2, .f32⟩
  | 15 => ⟨S4096x1024x1x2, .f32⟩
  | 16 => ⟨S4096x1024x2, .f32⟩
  | 17 => ⟨S4096x1024x1x2, .f32⟩
  | 18 => ⟨S4096x1024x2, .f32⟩
  | 19 => ⟨S4096x1024x2, .f32⟩
  | 20 => ⟨S4096x1024x2, .f32⟩
  | 21 => ⟨S4096x1024x1x2, .f32⟩
  | 22 => ⟨S4096x1024x1x2, .f32⟩
  | 23 => ⟨S4096x1024x2x2, .f32⟩
  | 24 => ⟨S4096x4096, .f32⟩
  | 25 => ⟨S4096x512x2x4, .f32⟩
  | 26 => ⟨S4096x512x1x4, .f32⟩
  | 27 => ⟨S4096x512x4, .f32⟩
  | 28 => ⟨S4096x512x1x4, .f32⟩
  | 29 => ⟨S4096x512x4, .f32⟩
  | 30 => ⟨S4096x512x4, .f32⟩
  | 31 => ⟨S4096x512x4, .f32⟩
  | 32 => ⟨S4096x512x1x4, .f32⟩
  | 33 => ⟨S4096x512x1x4, .f32⟩
  | 34 => ⟨S4096x512x2x4, .f32⟩
  | 35 => ⟨S4096x4096, .f32⟩
  | 36 => ⟨S4096x256x2x8, .f32⟩
  | 37 => ⟨S4096x256x1x8, .f32⟩
  | 38 => ⟨S4096x256x8, .f32⟩
  | 39 => ⟨S4096x256x1x8, .f32⟩
  | 40 => ⟨S4096x256x8, .f32⟩
  | 41 => ⟨S4096x256x8, .f32⟩
  | 42 => ⟨S4096x256x8, .f32⟩
  | 43 => ⟨S4096x256x1x8, .f32⟩
  | 44 => ⟨S4096x256x1x8, .f32⟩
  | 45 => ⟨S4096x256x2x8, .f32⟩
  | 46 => ⟨S4096x4096, .f32⟩
  | 47 => ⟨S4096x128x2x16, .f32⟩
  | 48 => ⟨S4096x128x1x16, .f32⟩
  | 49 => ⟨S4096x128x16, .f32⟩
  | 50 => ⟨S4096x128x1x16, .f32⟩
  | 51 => ⟨S4096x128x16, .f32⟩
  | 52 => ⟨S4096x128x16, .f32⟩
  | 53 => ⟨S4096x128x16, .f32⟩
  | 54 => ⟨S4096x128x1x16, .f32⟩
  | 55 => ⟨S4096x128x1x16, .f32⟩
  | 56 => ⟨S4096x128x2x16, .f32⟩
  | 57 => ⟨S4096x4096, .f32⟩
  | 58 => ⟨S4096x64x2x32, .f32⟩
  | 59 => ⟨S4096x64x1x32, .f32⟩
  | 60 => ⟨S4096x64x32, .f32⟩
  | 61 => ⟨S4096x64x1x32, .f32⟩
  | 62 => ⟨S4096x64x32, .f32⟩
  | 63 => ⟨S4096x64x32, .f32⟩
  | 64 => ⟨S4096x64x32, .f32⟩
  | 65 => ⟨S4096x64x1x32, .f32⟩
  | 66 => ⟨S4096x64x1x32, .f32⟩
  | 67 => ⟨S4096x64x2x32, .f32⟩
  | 68 => ⟨S4096x4096, .f32⟩
  | 69 => ⟨S4096x32x2x64, .f32⟩
  | 70 => ⟨S4096x32x1x64, .f32⟩
  | 71 => ⟨S4096x32x64, .f32⟩
  | 72 => ⟨S4096x32x1x64, .f32⟩
  | 73 => ⟨S4096x32x64, .f32⟩
  | 74 => ⟨S4096x32x64, .f32⟩
  | 75 => ⟨S4096x32x64, .f32⟩
  | 76 => ⟨S4096x32x1x64, .f32⟩
  | 77 => ⟨S4096x32x1x64, .f32⟩
  | 78 => ⟨S4096x32x2x64, .f32⟩
  | 79 => ⟨S4096x4096, .f32⟩
  | 80 => ⟨S4096x16x2x128, .f32⟩
  | 81 => ⟨S4096x16x1x128, .f32⟩
  | 82 => ⟨S4096x16x128, .f32⟩
  | 83 => ⟨S4096x16x1x128, .f32⟩
  | 84 => ⟨S4096x16x128, .f32⟩
  | 85 => ⟨S4096x16x128, .f32⟩
  | 86 => ⟨S4096x16x128, .f32⟩
  | 87 => ⟨S4096x16x1x128, .f32⟩
  | 88 => ⟨S4096x16x1x128, .f32⟩
  | 89 => ⟨S4096x16x2x128, .f32⟩
  | 90 => ⟨S4096x4096, .f32⟩
  | 91 => ⟨S4096x8x2x256, .f32⟩
  | 92 => ⟨S4096x8x1x256, .f32⟩
  | 93 => ⟨S4096x8x256, .f32⟩
  | 94 => ⟨S4096x8x1x256, .f32⟩
  | 95 => ⟨S4096x8x256, .f32⟩
  | 96 => ⟨S4096x8x256, .f32⟩
  | 97 => ⟨S4096x8x256, .f32⟩
  | 98 => ⟨S4096x8x1x256, .f32⟩
  | 99 => ⟨S4096x8x1x256, .f32⟩
  | 100 => ⟨S4096x8x2x256, .f32⟩
  | 101 => ⟨S4096x4096, .f32⟩
  | 102 => ⟨S4096x4x2x512, .f32⟩
  | 103 => ⟨S4096x4x1x512, .f32⟩
  | 104 => ⟨S4096x4x512, .f32⟩
  | 105 => ⟨S4096x4x1x512, .f32⟩
  | 106 => ⟨S4096x4x512, .f32⟩
  | 107 => ⟨S4096x4x512, .f32⟩
  | 108 => ⟨S4096x4x512, .f32⟩
  | 109 => ⟨S4096x4x1x512, .f32⟩
  | 110 => ⟨S4096x4x1x512, .f32⟩
  | 111 => ⟨S4096x4x2x512, .f32⟩
  | 112 => ⟨S4096x4096, .f32⟩
  | 113 => ⟨S4096x2x2x1024, .f32⟩
  | 114 => ⟨S4096x2x1x1024, .f32⟩
  | 115 => ⟨S4096x2x1024, .f32⟩
  | 116 => ⟨S4096x2x1x1024, .f32⟩
  | 117 => ⟨S4096x2x1024, .f32⟩
  | 118 => ⟨S4096x2x1024, .f32⟩
  | 119 => ⟨S4096x2x1024, .f32⟩
  | 120 => ⟨S4096x2x1x1024, .f32⟩
  | 121 => ⟨S4096x2x1x1024, .f32⟩
  | 122 => ⟨S4096x2x2x1024, .f32⟩
  | 123 => ⟨S4096x4096, .f32⟩
  | 124 => ⟨S4096x1x2x2048, .f32⟩
  | 125 => ⟨S4096x1x1x2048, .f32⟩
  | 126 => ⟨S4096x1x2048, .f32⟩
  | 127 => ⟨S4096x1x1x2048, .f32⟩
  | _ => ⟨S4x1024x4096, .f32⟩

abbrev hbmTy0_3 (i : Nat) : BufTy := match i % 128 with
  | 0 => ⟨S4096x1x2048, .f32⟩
  | 1 => ⟨S4096x1x2048, .f32⟩
  | 2 => ⟨S4096x1x2048, .f32⟩
  | 3 => ⟨S4096x1x1x2048, .f32⟩
  | 4 => ⟨S4096x1x1x2048, .f32⟩
  | 5 => ⟨S4096x1x2x2048, .f32⟩
  | 6 => ⟨S4096x4096, .f32⟩
  | 7 => ⟨S_, .f32⟩
  | 8 => ⟨S4096x4096, .f32⟩
  | 9 => ⟨S4096x4096, .f32⟩
  | 10 => ⟨S4096x4096, .f32⟩
  | 11 => ⟨S4096x1, .f32⟩
  | 12 => ⟨S4096x4096, .f32⟩
  | 13 => ⟨S4096x4096, .f32⟩
  | 14 => ⟨S65536x256, .f32⟩
  | 15 => ⟨S65536x256, .f32⟩
  | 16 => ⟨S65536x256, .f32⟩
  | 17 => ⟨S4096x4096, .f32⟩
  | 18 => ⟨S4x1024x4096, .f32⟩
  | _ => ⟨S4x1024x4096, .f32⟩

abbrev hbmTy (i : Nat) : BufTy := match i / 128 with
  | 0 => hbmTy0_0 i
  | 1 => hbmTy0_1 i
  | 2 => hbmTy0_2 i
  | 3 => hbmTy0_3 i
  | _ => ⟨S4x1024x4096, .f32⟩

abbrev bufTy : (tb : Table) → Fin (tcTables nBuf tb) → BufTy
  | .hbm, ⟨i, _⟩ => hbmTy i
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v2 : Ref sig .tc := ⟨.hbm, 46, rfl⟩
abbrev main_c_1 : Ref sig .tc := ⟨.hbm, 47, rfl⟩
abbrev main_v3 : Ref sig .tc := ⟨.hbm, 48, rfl⟩
abbrev main_v4 : Ref sig .tc := ⟨.hbm, 49, rfl⟩
abbrev main_c_2 : Ref sig .tc := ⟨.hbm, 50, rfl⟩
abbrev main_v5 : Ref sig .tc := ⟨.hbm, 51, rfl⟩
abbrev main_v6 : Ref sig .tc := ⟨.hbm, 52, rfl⟩
abbrev main_c_3 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v7 : Ref sig .tc := ⟨.hbm, 74, rfl⟩
abbrev main_c_4 : Ref sig .tc := ⟨.hbm, 75, rfl⟩
abbrev main_v8 : Ref sig .tc := ⟨.hbm, 76, rfl⟩
abbrev main_v9 : Ref sig .tc := ⟨.hbm, 77, rfl⟩
abbrev main_c_5 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_c_6 : Ref sig .tc := ⟨.hbm, 87, rfl⟩
abbrev main_v18 : Ref sig .tc := ⟨.hbm, 88, rfl⟩
abbrev main_v19 : Ref sig .tc := ⟨.hbm, 89, rfl⟩
abbrev main_c_7 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_c_8 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_c_9 : Ref sig .tc := ⟨.hbm, 103, rfl⟩
abbrev main_v31 : Ref sig .tc := ⟨.hbm, 104, rfl⟩
abbrev main_v32 : Ref sig .tc := ⟨.hbm, 105, rfl⟩
abbrev main_c_10 : Ref sig .tc := ⟨.hbm, 106, rfl⟩
abbrev main_v33 : Ref sig .tc := ⟨.hbm, 107, rfl⟩
abbrev main_v34 : Ref sig .tc := ⟨.hbm, 108, rfl⟩
abbrev main_c_11 : Ref sig .tc := ⟨.hbm, 109, rfl⟩
abbrev main_v35 : Ref sig .tc := ⟨.hbm, 110, rfl⟩
abbrev main_v36 : Ref sig .tc := ⟨.hbm, 111, rfl⟩
abbrev main_c_12 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_cst : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_v293 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_v306 : Ref sig .tc := ⟨.hbm, 383, rfl⟩
abbrev main_v307 : Ref sig .tc := ⟨.hbm, 384, rfl⟩
abbrev main_v308 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_cst_13 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S65536x128_S65536x128x1_0_1 : S65536x128.BroadcastsInDim S65536x128x1 (![0, 1] : Fin 2 → Fin S65536x128x1.rank)
  shapeCasts_S65536x128x2_S65536x256 : S65536x128x2.ShapeCasts S65536x256
  shapeCasts_S65536x256_S4096x4096 : S65536x256.ShapeCasts S4096x4096
  shapeCasts_S4096x4096_S4096x2048x2x1 : S4096x4096.ShapeCasts S4096x2048x2x1
  slices_S4096x2048x2x1_S4096x2048x1x1_0_0_0_0 : S4096x2048x2x1.Slices ![0, 0, 0, 0] S4096x2048x1x1
  shapeCasts_S4096x2048x1x1_S4096x2048x1 : S4096x2048x1x1.ShapeCasts S4096x2048x1
  slices_S4096x2048x2x1_S4096x2048x1x1_0_0_1_0 : S4096x2048x2x1.Slices ![0, 0, 1, 0] S4096x2048x1x1
  bcast_S4096x2048x1_S4096x2048x1x1_0_1_3 : S4096x2048x1.BroadcastsInDim S4096x2048x1x1 (![0, 1, 3] : Fin 3 → Fin S4096x2048x1x1.rank)
  concatenates_S4096x2048x1x1_S4096x2048x1x1_S4096x2048x2x1_d2 : Shape.Concatenates [S4096x2048x1x1, S4096x2048x1x1] S4096x2048x2x1 2
  shapeCasts_S4096x2048x2x1_S4096x4096 : S4096x2048x2x1.ShapeCasts S4096x4096
  shapeCasts_S4096x4096_S4096x1024x2x2 : S4096x4096.ShapeCasts S4096x1024x2x2
  slices_S4096x1024x2x2_S4096x1024x1x2_0_0_0_0 : S4096x1024x2x2.Slices ![0, 0, 0, 0] S4096x1024x1x2
  shapeCasts_S4096x1024x1x2_S4096x1024x2 : S4096x1024x1x2.ShapeCasts S4096x1024x2
  slices_S4096x1024x2x2_S4096x1024x1x2_0_0_1_0 : S4096x1024x2x2.Slices ![0, 0, 1, 0] S4096x1024x1x2
  bcast_S4096x1024x2_S4096x1024x1x2_0_1_3 : S4096x1024x2.BroadcastsInDim S4096x1024x1x2 (![0, 1, 3] : Fin 3 → Fin S4096x1024x1x2.rank)
  concatenates_S4096x1024x1x2_S4096x1024x1x2_S4096x1024x2x2_d2 : Shape.Concatenates [S4096x1024x1x2, S4096x1024x1x2] S4096x1024x2x2 2
  shapeCasts_S4096x1024x2x2_S4096x4096 : S4096x1024x2x2.ShapeCasts S4096x4096
  shapeCasts_S4096x4096_S4096x512x2x4 : S4096x4096.ShapeCasts S4096x512x2x4
  slices_S4096x512x2x4_S4096x512x1x4_0_0_0_0 : S4096x512x2x4.Slices ![0, 0, 0, 0] S4096x512x1x4
  shapeCasts_S4096x512x1x4_S4096x512x4 : S4096x512x1x4.ShapeCasts S4096x512x4
  slices_S4096x512x2x4_S4096x512x1x4_0_0_1_0 : S4096x512x2x4.Slices ![0, 0, 1, 0] S4096x512x1x4
  bcast_S4096x512x4_S4096x512x1x4_0_1_3 : S4096x512x4.BroadcastsInDim S4096x512x1x4 (![0, 1, 3] : Fin 3 → Fin S4096x512x1x4.rank)
  concatenates_S4096x512x1x4_S4096x512x1x4_S4096x512x2x4_d2 : Shape.Concatenates [S4096x512x1x4, S4096x512x1x4] S4096x512x2x4 2
  shapeCasts_S4096x512x2x4_S4096x4096 : S4096x512x2x4.ShapeCasts S4096x4096
  shapeCasts_S4096x4096_S4096x256x2x8 : S4096x4096.ShapeCasts S4096x256x2x8
  slices_S4096x256x2x8_S4096x256x1x8_0_0_0_0 : S4096x256x2x8.Slices ![0, 0, 0, 0] S4096x256x1x8
  shapeCasts_S4096x256x1x8_S4096x256x8 : S4096x256x1x8.ShapeCasts S4096x256x8
  slices_S4096x256x2x8_S4096x256x1x8_0_0_1_0 : S4096x256x2x8.Slices ![0, 0, 1, 0] S4096x256x1x8
  bcast_S4096x256x8_S4096x256x1x8_0_1_3 : S4096x256x8.BroadcastsInDim S4096x256x1x8 (![0, 1, 3] : Fin 3 → Fin S4096x256x1x8.rank)
  concatenates_S4096x256x1x8_S4096x256x1x8_S4096x256x2x8_d2 : Shape.Concatenates [S4096x256x1x8, S4096x256x1x8] S4096x256x2x8 2
  shapeCasts_S4096x256x2x8_S4096x4096 : S4096x256x2x8.ShapeCasts S4096x4096
  shapeCasts_S4096x4096_S4096x128x2x16 : S4096x4096.ShapeCasts S4096x128x2x16
  slices_S4096x128x2x16_S4096x128x1x16_0_0_0_0 : S4096x128x2x16.Slices ![0, 0, 0, 0] S4096x128x1x16
  shapeCasts_S4096x128x1x16_S4096x128x16 : S4096x128x1x16.ShapeCasts S4096x128x16
  slices_S4096x128x2x16_S4096x128x1x16_0_0_1_0 : S4096x128x2x16.Slices ![0, 0, 1, 0] S4096x128x1x16
  bcast_S4096x128x16_S4096x128x1x16_0_1_3 : S4096x128x16.BroadcastsInDim S4096x128x1x16 (![0, 1, 3] : Fin 3 → Fin S4096x128x1x16.rank)
  concatenates_S4096x128x1x16_S4096x128x1x16_S4096x128x2x16_d2 : Shape.Concatenates [S4096x128x1x16, S4096x128x1x16] S4096x128x2x16 2
  shapeCasts_S4096x128x2x16_S4096x4096 : S4096x128x2x16.ShapeCasts S4096x4096
  shapeCasts_S4096x4096_S4096x64x2x32 : S4096x4096.ShapeCasts S4096x64x2x32
  slices_S4096x64x2x32_S4096x64x1x32_0_0_0_0 : S4096x64x2x32.Slices ![0, 0, 0, 0] S4096x64x1x32
  shapeCasts_S4096x64x1x32_S4096x64x32 : S4096x64x1x32.ShapeCasts S4096x64x32
  slices_S4096x64x2x32_S4096x64x1x32_0_0_1_0 : S4096x64x2x32.Slices ![0, 0, 1, 0] S4096x64x1x32
  bcast_S4096x64x32_S4096x64x1x32_0_1_3 : S4096x64x32.BroadcastsInDim S4096x64x1x32 (![0, 1, 3] : Fin 3 → Fin S4096x64x1x32.rank)
  concatenates_S4096x64x1x32_S4096x64x1x32_S4096x64x2x32_d2 : Shape.Concatenates [S4096x64x1x32, S4096x64x1x32] S4096x64x2x32 2
  shapeCasts_S4096x64x2x32_S4096x4096 : S4096x64x2x32.ShapeCasts S4096x4096
  shapeCasts_S4096x4096_S4096x32x2x64 : S4096x4096.ShapeCasts S4096x32x2x64
  slices_S4096x32x2x64_S4096x32x1x64_0_0_0_0 : S4096x32x2x64.Slices ![0, 0, 0, 0] S4096x32x1x64
  shapeCasts_S4096x32x1x64_S4096x32x64 : S4096x32x1x64.ShapeCasts S4096x32x64
  slices_S4096x32x2x64_S4096x32x1x64_0_0_1_0 : S4096x32x2x64.Slices ![0, 0, 1, 0] S4096x32x1x64
  bcast_S4096x32x64_S4096x32x1x64_0_1_3 : S4096x32x64.BroadcastsInDim S4096x32x1x64 (![0, 1, 3] : Fin 3 → Fin S4096x32x1x64.rank)
  concatenates_S4096x32x1x64_S4096x32x1x64_S4096x32x2x64_d2 : Shape.Concatenates [S4096x32x1x64, S4096x32x1x64] S4096x32x2x64 2
  shapeCasts_S4096x32x2x64_S4096x4096 : S4096x32x2x64.ShapeCasts S4096x4096
  shapeCasts_S4096x4096_S4096x16x2x128 : S4096x4096.ShapeCasts S4096x16x2x128
  slices_S4096x16x2x128_S4096x16x1x128_0_0_0_0 : S4096x16x2x128.Slices ![0, 0, 0, 0] S4096x16x1x128
  shapeCasts_S4096x16x1x128_S4096x16x128 : S4096x16x1x128.ShapeCasts S4096x16x128
  slices_S4096x16x2x128_S4096x16x1x128_0_0_1_0 : S4096x16x2x128.Slices ![0, 0, 1, 0] S4096x16x1x128
  bcast_S4096x16x128_S4096x16x1x128_0_1_3 : S4096x16x128.BroadcastsInDim S4096x16x1x128 (![0, 1, 3] : Fin 3 → Fin S4096x16x1x128.rank)
  concatenates_S4096x16x1x128_S4096x16x1x128_S4096x16x2x128_d2 : Shape.Concatenates [S4096x16x1x128, S4096x16x1x128] S4096x16x2x128 2
  shapeCasts_S4096x16x2x128_S4096x4096 : S4096x16x2x128.ShapeCasts S4096x4096
  shapeCasts_S4096x4096_S4096x8x2x256 : S4096x4096.ShapeCasts S4096x8x2x256
  slices_S4096x8x2x256_S4096x8x1x256_0_0_0_0 : S4096x8x2x256.Slices ![0, 0, 0, 0] S4096x8x1x256
  shapeCasts_S4096x8x1x256_S4096x8x256 : S4096x8x1x256.ShapeCasts S4096x8x256
  slices_S4096x8x2x256_S4096x8x1x256_0_0_1_0 : S4096x8x2x256.Slices ![0, 0, 1, 0] S4096x8x1x256
  bcast_S4096x8x256_S4096x8x1x256_0_1_3 : S4096x8x256.BroadcastsInDim S4096x8x1x256 (![0, 1, 3] : Fin 3 → Fin S4096x8x1x256.rank)
  concatenates_S4096x8x1x256_S4096x8x1x256_S4096x8x2x256_d2 : Shape.Concatenates [S4096x8x1x256, S4096x8x1x256] S4096x8x2x256 2
  shapeCasts_S4096x8x2x256_S4096x4096 : S4096x8x2x256.ShapeCasts S4096x4096
  shapeCasts_S4096x4096_S4096x4x2x512 : S4096x4096.ShapeCasts S4096x4x2x512
  slices_S4096x4x2x512_S4096x4x1x512_0_0_0_0 : S4096x4x2x512.Slices ![0, 0, 0, 0] S4096x4x1x512
  shapeCasts_S4096x4x1x512_S4096x4x512 : S4096x4x1x512.ShapeCasts S4096x4x512
  slices_S4096x4x2x512_S4096x4x1x512_0_0_1_0 : S4096x4x2x512.Slices ![0, 0, 1, 0] S4096x4x1x512
  bcast_S4096x4x512_S4096x4x1x512_0_1_3 : S4096x4x512.BroadcastsInDim S4096x4x1x512 (![0, 1, 3] : Fin 3 → Fin S4096x4x1x512.rank)
  concatenates_S4096x4x1x512_S4096x4x1x512_S4096x4x2x512_d2 : Shape.Concatenates [S4096x4x1x512, S4096x4x1x512] S4096x4x2x512 2
  shapeCasts_S4096x4x2x512_S4096x4096 : S4096x4x2x512.ShapeCasts S4096x4096
  shapeCasts_S4096x4096_S4096x2x2x1024 : S4096x4096.ShapeCasts S4096x2x2x1024
  slices_S4096x2x2x1024_S4096x2x1x1024_0_0_0_0 : S4096x2x2x1024.Slices ![0, 0, 0, 0] S4096x2x1x1024
  shapeCasts_S4096x2x1x1024_S4096x2x1024 : S4096x2x1x1024.ShapeCasts S4096x2x1024
  slices_S4096x2x2x1024_S4096x2x1x1024_0_0_1_0 : S4096x2x2x1024.Slices ![0, 0, 1, 0] S4096x2x1x1024
  bcast_S4096x2x1024_S4096x2x1x1024_0_1_3 : S4096x2x1024.BroadcastsInDim S4096x2x1x1024 (![0, 1, 3] : Fin 3 → Fin S4096x2x1x1024.rank)
  concatenates_S4096x2x1x1024_S4096x2x1x1024_S4096x2x2x1024_d2 : Shape.Concatenates [S4096x2x1x1024, S4096x2x1x1024] S4096x2x2x1024 2
  shapeCasts_S4096x2x2x1024_S4096x4096 : S4096x2x2x1024.ShapeCasts S4096x4096
  shapeCasts_S4096x4096_S4096x1x2x2048 : S4096x4096.ShapeCasts S4096x1x2x2048
  slices_S4096x1x2x2048_S4096x1x1x2048_0_0_0_0 : S4096x1x2x2048.Slices ![0, 0, 0, 0] S4096x1x1x2048
  shapeCasts_S4096x1x1x2048_S4096x1x2048 : S4096x1x1x2048.ShapeCasts S4096x1x2048
  slices_S4096x1x2x2048_S4096x1x1x2048_0_0_1_0 : S4096x1x2x2048.Slices ![0, 0, 1, 0] S4096x1x1x2048
  bcast_S4096x1x2048_S4096x1x1x2048_0_1_3 : S4096x1x2048.BroadcastsInDim S4096x1x1x2048 (![0, 1, 3] : Fin 3 → Fin S4096x1x1x2048.rank)
  concatenates_S4096x1x1x2048_S4096x1x1x2048_S4096x1x2x2048_d2 : Shape.Concatenates [S4096x1x1x2048, S4096x1x1x2048] S4096x1x2x2048 2
  shapeCasts_S4096x1x2x2048_S4096x4096 : S4096x1x2x2048.ShapeCasts S4096x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  shapeCasts_S4096x4096_S65536x256 : S4096x4096.ShapeCasts S65536x256
  bcast_S65536x1_S65536x256_0_1 : S65536x1.BroadcastsInDim S65536x256 (![0, 1] : Fin 2 → Fin S65536x256.rank)
  gather_S65536x32_S128x1_S65536x128_0_1_n_n_1_1_655361_wf : GatherDims.WF S65536x32 S128x1 S65536x128 [0] [1] [] [1] [] 1 ![65536, 1]
  gather_S1024x2_S65536x128x1_S65536x128x2_2_0_n_n_0_2_12_wf : GatherDims.WF S1024x2 S65536x128x1 S65536x128x2 [2] [0] [] [0] [] 2 ![1, 2]
  dot_S4x1024x4096_S4096x4096_S4x1024x4096_2_1_01_0_n_n_wf : DotDims.WF S4x1024x4096 S4096x4096 S4x1024x4096 [2] [1] [0, 1] [0] [] []

variable [Facts₀]

def gather_S65536x32_S128x1_S65536x128_0_1_n_n_1_1_655361 : GatherDims S65536x32 S128x1 S65536x128 where
  offsetDims := [0]
  collapsedSliceDims := [1]
  operandBatchingDims := []
  startIndicesBatchingDims := []
  startIndexMap := [1]
  indexVectorDim := 1
  sliceSizes := ![65536, 1]
  wf := gather_S65536x32_S128x1_S65536x128_0_1_n_n_1_1_655361_wf
def gather_S1024x2_S65536x128x1_S65536x128x2_2_0_n_n_0_2_12 : GatherDims S1024x2 S65536x128x1 S65536x128x2 where
  offsetDims := [2]
  collapsedSliceDims := [0]
  operandBatchingDims := []
  startIndicesBatchingDims := []
  startIndexMap := [0]
  indexVectorDim := 2
  sliceSizes := ![1, 2]
  wf := gather_S1024x2_S65536x128x1_S65536x128x2_2_0_n_n_0_2_12_wf
def dot_S4x1024x4096_S4096x4096_S4x1024x4096_2_1_01_0_n_n : DotDims S4x1024x4096 S4096x4096 S4x1024x4096 where
  lhsContracting := [2]
  rhsContracting := [1]
  lhsNonContracting := [0, 1]
  rhsNonContracting := [0]
  lhsBatch := []
  rhsBatch := []
  wf := dot_S4x1024x4096_S4096x4096_S4x1024x4096_2_1_01_0_n_n_wf

class Facts : Prop extends Facts₀ where

variable [Facts]
-- ==== Proof.Spec.lean ====
/-
  The linear layer both programs compute, as one function of the activations and the weight matrix:
  y[b, s, o] = Σ_d x[b, s, d] · w[o, d], over the extended reals, index by index.
-/
import Idealize.ShloMosaic.PureOps.Ideal
import Idealize.ShloMosaic.Lib.ValueIdx

noncomputable section

open scoped BigOperators

namespace Cert.Linear

open Idealize.ShloMosaic Idealize.ShloMosaic.ValueIdx

/-- The activations' and the result's shape, [4, 1024, 4096]. -/
abbrev SX : Shape := ⟨3, ![4, 1024, 4096]⟩
/-- The weight matrix's shape, [4096, 4096] (row `o` holds output feature `o`'s weights). -/
abbrev SW : Shape := ⟨2, ![4096, 4096]⟩

/-- `y[b, s, o] = Σ_d x[b, s, d] · w[o, d]`. -/
def linear (x : SX.Idx → EReal) (w : SW.Idx → EReal) : SX.Idx → EReal :=
  fun i => ∑ d : Fin 4096, x (ix3 (i 0 : Fin 4) (i 1 : Fin 1024) d) * w (ix2 (i 2 : Fin 4096) d)

end Cert.Linear

end
-- ==== Proof.KernelAcc.lean ====
/-
  What the kernel's output block holds at a grid point that writes it back. The grid is 8 × 8 × 4 with the
  contracted axis innermost; the accumulator is reset at the first of each run of four points and carried through
  the run, so at the last point of a run (position ≡ 3 mod 4) the block is the reset value updated by the four
  points' block products in order.
-/
import proofs.«430907_j20306605375936_1_alg».proof.Proof.Gen.KernelIdeal.Frame
import Idealize.ShloMosaic.Lib.Pipeline.Value

noncomputable section

namespace Cert.KernelIdeal.KAcc

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The offset of a whole-block access is zero on both axes. -/
theorem hz : (![0, 0] : Fin 2 → Nat) = fun _ => 0 := funext fun a => by fin_cases a <;> rfl

/-- The first point of a run leaves in the accumulator the reset value updated by the point's blocks: the reset store, read back, then
    the covering store of the update. -/
theorem sout_A (c : Dev nD) (i : grid0.Coords) (a3 : Memref sig .tc .vmem S512x1024 .f32) (h3 : a3.IsWhole)
    (a4 : Memref sig .tc .vmem S1024x512 .f32) (h4 : a4.IsWhole) (a5 : Memref sig .tc .vmem S512x512 .f32) (h5 : a5.IsWhole)
    (a6 : Memref sig .tc .vmem S512x512 .f32) (h6 : a6.IsWhole) (hc0 : cond0_0 i)
    (x0 : Vec F S512x1024 .f32) (x1 : Vec F S1024x512 .f32) :
    sout0_A_0 c i a3 h3 a4 h4 a5 h5 a6 h6 hc0 x0 x1 = k0_pay2 x0 x1 (k0_pay1 (F := F)) := by
  unfold sout0_A_0
  rw [View.read_writes_eq_canon _ _ _ (scover0_A_0 c i a3 h3 a4 h4 a5 h5 a6 h6 hc0 x0 x1)]
  unfold kernelRun0_A
  dsimp only
  sl_unfold_words
  rw [View.canon_cons_unit_zero (S := S512x512) hz, View.readCov_unit_zero (S := S512x512) _ hz]
  simp only [View.readAt_eq_ld, h3.read_unread, h4.read_unread, View.ld_unit_zero (S := S512x1024) hz,
    View.ld_unit_zero (S := S1024x512) hz]

/-- and the output block, a copy of the accumulator read back after the update, holds the same. -/
theorem out_A (c : Dev nD) (i : grid0.Coords) (a3 : Memref sig .tc .vmem S512x1024 .f32) (h3 : a3.IsWhole)
    (a4 : Memref sig .tc .vmem S1024x512 .f32) (h4 : a4.IsWhole) (a5 : Memref sig .tc .vmem S512x512 .f32) (h5 : a5.IsWhole)
    (a6 : Memref sig .tc .vmem S512x512 .f32) (h6 : a6.IsWhole) (hc0 : cond0_0 i)
    (x0 : Vec F S512x1024 .f32) (x1 : Vec F S1024x512 .f32) :
    out0_A_2 c i a3 h3 a4 h4 a5 h5 a6 h6 hc0 x0 x1 = k0_pay2 x0 x1 (k0_pay1 (F := F)) := by
  unfold out0_A_2
  rw [View.read_writes_eq_canon _ _ _ (cover0_A_2 c i a3 h3 a4 h4 a5 h5 a6 h6 hc0 x0 x1)]
  unfold kernelRun0_A
  dsimp only
  sl_unfold_words
  rw [View.canon_unit_zero (S := S512x512) hz, View.readCov_cons_toLoadRect, View.readCov_unit_zero (S := S512x512) _ hz]
  simp only [View.readAt_eq_ld, h3.read_unread, h4.read_unread, View.ld_unit_zero (S := S512x1024) hz,
    View.ld_unit_zero (S := S1024x512) hz]

/-- A later point of a run leaves in the accumulator what the point before left, updated by the point's blocks: one covering store. -/
theorem sout_B (c : Dev nD) (i : grid0.Coords) (a3 : Memref sig .tc .vmem S512x1024 .f32) (h3 : a3.IsWhole)
    (a4 : Memref sig .tc .vmem S1024x512 .f32) (h4 : a4.IsWhole) (a5 : Memref sig .tc .vmem S512x512 .f32) (h5 : a5.IsWhole)
    (a6 : Memref sig .tc .vmem S512x512 .f32) (h6 : a6.IsWhole) (hc0 : ¬cond0_0 i)
    (x0 : Vec F S512x1024 .f32) (x1 : Vec F S1024x512 .f32) (xs0 : Vec F S512x512 .f32) :
    sout0_B_0 c i a3 h3 a4 h4 a5 h5 a6 h6 hc0 x0 x1 xs0 = k0_pay2 x0 x1 xs0 := by
  unfold sout0_B_0
  rw [View.read_writes_eq_canon _ _ _ (scover0_B_0 c i a3 h3 a4 h4 a5 h5 a6 h6 hc0 x0 x1 xs0)]
  unfold kernelRun0_B
  dsimp only
  sl_unfold_words
  rw [View.canon_unit_zero (S := S512x512) hz]
  simp only [View.readAt_eq_ld, h3.read_unread, h4.read_unread, h6.read_unread, View.ld_unit_zero (S := S512x1024) hz,
    View.ld_unit_zero (S := S1024x512) hz, View.ld_unit_zero (S := S512x512) hz]

/-- and the output block, a copy of the accumulator read back after the update, holds the same. -/
theorem out_B (c : Dev nD) (i : grid0.Coords) (a3 : Memref sig .tc .vmem S512x1024 .f32) (h3 : a3.IsWhole)
    (a4 : Memref sig .tc .vmem S1024x512 .f32) (h4 : a4.IsWhole) (a5 : Memref sig .tc .vmem S512x512 .f32) (h5 : a5.IsWhole)
    (a6 : Memref sig .tc .vmem S512x512 .f32) (h6 : a6.IsWhole) (hc0 : ¬cond0_0 i)
    (x0 : Vec F S512x1024 .f32) (x1 : Vec F S1024x512 .f32) (xs0 : Vec F S512x512 .f32) :
    out0_B_2 c i a3 h3 a4 h4 a5 h5 a6 h6 hc0 x0 x1 xs0 = k0_pay2 x0 x1 xs0 := by
  unfold out0_B_2
  rw [View.read_writes_eq_canon _ _ _ (cover0_B_2 c i a3 h3 a4 h4 a5 h5 a6 h6 hc0 x0 x1 xs0)]
  unfold kernelRun0_B
  dsimp only
  sl_unfold_words
  rw [View.canon_unit_zero (S := S512x512) hz, View.readCov_unit_zero (S := S512x512) _ hz]
  simp only [View.readAt_eq_ld, h3.read_unread, h4.read_unread, h6.read_unread, View.ld_unit_zero (S := S512x1024) hz,
    View.ld_unit_zero (S := S1024x512) hz, View.ld_unit_zero (S := S512x512) hz]

/-- The grid position `k` places before `t`. -/
abbrev back (t : Fin cfg0.N) (k : ℕ) : Fin cfg0.N := ⟨t.val - k, Nat.lt_of_le_of_lt (Nat.sub_le _ _) t.isLt⟩

/-- One point's update of the accumulator from the point's two input blocks. -/
abbrev upd (c : Dev nD) (t : Fin cfg0.N) (acc : Vec F S512x512 .f32) : Vec F S512x512 .f32 :=
  k0_pay2 (iblk m c 0 t) (iblk m c 1 t) acc

/-- The accumulator after the first point of a run: the reset value, updated by that point. -/
theorem scr_first (c : Dev nD) (n : ℕ) (hn : n < cfg0.N) (h : n % 4 = 0) :
    (outsAt0 m c n hn).2 = upd m c ⟨n, hn⟩ (k0_pay1 (F := F)) := by
  rw [outsAt0_A m c ⟨n, hn⟩ h]
  dsimp only
  exact sout_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h) (iblk m c 0 ⟨n, hn⟩) (iblk m c 1 ⟨n, hn⟩)

/-- The accumulator after a later point of a run: what the point before left, updated by this point. -/
theorem scr_next (c : Dev nD) (n : ℕ) (hn : n + 1 < cfg0.N) (h : ¬(n + 1) % 4 = 0) :
    (outsAt0 m c (n + 1) hn).2 = upd m c ⟨n + 1, hn⟩ (outsAt0 m c n (Nat.lt_of_succ_lt hn)).2 := by
  rw [outsAt0_B m c ⟨n + 1, hn⟩ h]
  dsimp only
  exact sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h' => h ((hcond0_0 ⟨n + 1, hn⟩).mp h')) (iblk m c 0 ⟨n + 1, hn⟩) (iblk m c 1 ⟨n + 1, hn⟩)
    (outsAt0 m c n (Nat.lt_of_succ_lt hn)).2

/-- The output block after a later point of a run: the same value as the accumulator. -/
theorem out_next (c : Dev nD) (n : ℕ) (hn : n + 1 < cfg0.N) (h : ¬(n + 1) % 4 = 0) :
    (outsAt0 m c (n + 1) hn).1 = upd m c ⟨n + 1, hn⟩ (outsAt0 m c n (Nat.lt_of_succ_lt hn)).2 := by
  rw [outsAt0_B m c ⟨n + 1, hn⟩ h]
  dsimp only
  exact out_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h' => h ((hcond0_0 ⟨n + 1, hn⟩).mp h')) (iblk m c 0 ⟨n + 1, hn⟩) (iblk m c 1 ⟨n + 1, hn⟩)
    (outsAt0 m c n (Nat.lt_of_succ_lt hn)).2

/-- At the last point of a run of four the output block is the reset value updated four times. -/
theorem outs_at_flush (c : Dev nD) (t : Fin cfg0.N) (h : t.val % 4 = 3) :
    (outsAt0 m c t.val t.isLt).1
      = upd m c t (upd m c (back t 1) (upd m c (back t 2) (upd m c (back t 3) (k0_pay1 (F := F))))) := by
  obtain ⟨tv, ht⟩ := t
  dsimp only at h
  obtain ⟨k, rfl⟩ : ∃ k, tv = k + 3 := ⟨tv - 3, by omega⟩
  have hk : k % 4 = 0 := by omega
  have h2 : k + 2 < cfg0.N := Nat.lt_of_succ_lt ht
  have h1 : k + 1 < cfg0.N := Nat.lt_of_succ_lt h2
  have h0 : k < cfg0.N := Nat.lt_of_succ_lt h1
  show (outsAt0 m c (k + 3) ht).1
      = upd m c ⟨k + 3, ht⟩ (upd m c ⟨k + 2, h2⟩ (upd m c ⟨k + 1, h1⟩ (upd m c ⟨k, h0⟩ (k0_pay1 (F := F)))))
  rw [out_next m c (k + 2) ht (by omega), scr_next m c (k + 1) h2 (by omega), scr_next m c k h1 (by omega),
    scr_first m c k h0 hk]

end Cert.KernelIdeal.KAcc

end
-- ==== Proof.KernelEntry.lean ====
/-
  What the kernel's two operands hold when the kernel is entered: %324 is the activations reshaped from
  [4, 1024, 4096] to [4096, 4096] (row b·1024 + s is row s of batch b), and %325 is the weight matrix %323 transposed.
-/
import proofs.«430907_j20306605375936_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.KEntry

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-! ## The last two host operations, split off the fold -/

/-- Folding over a concatenation is folding over the second list from where the first one ends. -/
theorem after_append {τ' : Topo} {sig' : RefSig} {Val : EltTy → Type} (l₁ l₂ : List (HloOp τ' sig' Val))
    (W : Valuation τ' sig' Val) :
    StableHlo.after (l₁ ++ l₂) W = StableHlo.after l₂ (StableHlo.after l₁ W) := by
  induction l₁ generalizing W with
  | nil => rfl
  | cons op l ih => rw [List.cons_append, StableHlo.after_cons, StableHlo.after_cons, ih]

/-- Seven lists laid end to end are the first six, then the last one cut in two at any position. -/
theorem flatten7_split {α : Type} (a b c d e f g : List α) (n : Nat) :
    List.flatten [a, b, c, d, e, f, g] = (List.flatten [a, b, c, d, e, f] ++ g.take n) ++ g.drop n := by
  rw [List.append_assoc, List.take_append_drop]
  simp only [List.flatten_cons, List.flatten_nil, List.append_nil, List.append_assoc]

/-- %324 = reshape %arg0. -/
abbrev opA : HloOp τ sig (Elt F) :=
  StableHlo.reshape main_arg0 main_v324 rfl shapeCasts_S4x1024x4096_S4096x4096
/-- %325 = transpose %323. -/
abbrev opB : HloOp τ sig (Elt F) :=
  StableHlo.unary main_v323 main_v325 ((transpose S4096x4096 [1, 0] · transposes_S4096x4096_S4096x4096_1_0) : (⟨S4096x4096, .f32⟩ : BufTy).Contents (Elt F) → (⟨S4096x4096, .f32⟩ : BufTy).Contents (Elt F))

/-- Every host operation before the last two. -/
def pre : List (HloOp τ sig (Elt F)) :=
  List.flatten [hostOps0, hostOps0_1, hostOps0_2, hostOps0_3, hostOps0_4, hostOps0_5] ++ (hostOps0_6 (F := F)).take 327

set_option maxRecDepth 16384 in
/-- The last stretch ends in the reshape of the activations and the transpose of the weights. -/
theorem drop_eq : (hostOps0_6 (F := F)).drop 327 = [opA, opB] := rfl

/-- The host operations before the kernel: everything before the last two, then the last two. -/
theorem ops_split :
    List.flatten [hostOps0, hostOps0_1, hostOps0_2, hostOps0_3, hostOps0_4, hostOps0_5, hostOps0_6 (F := F)]
      = pre ++ [opA, opB] := by
  rw [flatten7_split _ _ _ _ _ _ _ 327, drop_eq]; rfl

/-- The fold, cut before its last two operations. -/
theorem V_eq (c : Dev nD) (b : Ref sig .tc) :
    V m c b = StableHlo.after [opA, opB] (StableHlo.after pre (fun b => m (c, b))) (Proc.devRef .tc b) := by
  show StableHlo.after (List.flatten [hostOps0, hostOps0_1, hostOps0_2, hostOps0_3, hostOps0_4, hostOps0_5, hostOps0_6 (F := F)]) (fun b => m (c, b)) (Proc.devRef .tc b) = _
  rw [ops_split, after_append]

/-! ## What the last two operations leave, from any contents -/

/-- %325 ends as the transpose of what %323 held before the last two operations. -/
theorem tail_v325 (W : Valuation τ sig (Elt F)) :
    StableHlo.after [opA, opB] W (Proc.devRef .tc main_v325)
      = transpose S4096x4096 [1, 0] (W (Proc.devRef .tc main_v323)) transposes_S4096x4096_S4096x4096_1_0 := by
  rw [StableHlo.after_cons, StableHlo.after_cons, StableHlo.after_nil, StableHlo.unary_result,
    StableHlo.reshape_result_ne (r := main_v323)]
  decide

/-- The last two operations leave %323 as it was. -/
theorem tail_v323 (W : Valuation τ sig (Elt F)) :
    StableHlo.after [opA, opB] W (Proc.devRef .tc main_v323) = W (Proc.devRef .tc main_v323) := by
  rw [StableHlo.after_cons, StableHlo.after_cons, StableHlo.after_nil, StableHlo.unary_result_ne (r := main_v323),
    StableHlo.reshape_result_ne (r := main_v323)]
  all_goals decide

/-- The last two operations leave the activations as they were. -/
theorem tail_arg0 (W : Valuation τ sig (Elt F)) :
    StableHlo.after [opA, opB] W (Proc.devRef .tc main_arg0) = W (Proc.devRef .tc main_arg0) := by
  rw [StableHlo.after_cons, StableHlo.after_cons, StableHlo.after_nil, StableHlo.unary_result_ne (r := main_arg0),
    StableHlo.reshape_result_ne (r := main_arg0)]
  all_goals decide

/-- %324 ends as the activations in row-major order at shape [4096, 4096]. -/
theorem tail_v324 (W : Valuation τ sig (Elt F)) :
    StableHlo.after [opA, opB] W (Proc.devRef .tc main_v324)
      = shapeCast S4096x4096 (W (Proc.devRef .tc main_arg0)) shapeCasts_S4x1024x4096_S4096x4096 := by
  rw [StableHlo.after_cons, StableHlo.after_cons, StableHlo.after_nil, StableHlo.unary_result_ne (r := main_v324),
    StableHlo.reshape_result]
  · rfl
  · decide

/-! ## The two operands -/

/-- The first operand at (b·1024 + s, d) is the activations at (b, s, d). -/
theorem V_v324 (c : Dev nD) (b : Fin 4) (s : Fin 1024) (d : Fin 4096) :
    (V m c main_v324 : S4096x4096.Idx → Elt F .f32) (ix2 (⟨b.val * 1024 + s.val, by omega⟩ : Fin 4096) d)
      = (m ((c : Thread nD τ).loc main_arg0) : S4x1024x4096.Idx → Elt F .f32) (ix3 b s d) := by
  have h0 : StableHlo.after pre (fun b => m (c, b)) (Proc.devRef .tc main_arg0) = m ((c : Thread nD τ).loc main_arg0) := by
    rw [← tail_arg0 (StableHlo.after pre (fun b => m (c, b))), ← V_eq]; exact V_main_arg0 m c
  rw [V_eq, tail_v324, h0]
  refine shapeCast_apply _ _ _ (ix3 b s d) ?_
  rw [Shape.rowMajor_val_two, Shape.rowMajor_val_three]
  rfl

/-- The second operand at (d, o) is the weight matrix %323 at (o, d). -/
theorem V_v325 (c : Dev nD) (d o : Fin 4096) :
    (V m c main_v325 : S4096x4096.Idx → Elt F .f32) (ix2 d o)
      = (V m c main_v323 : S4096x4096.Idx → Elt F .f32) (ix2 o d) := by
  rw [V_eq, V_eq, tail_v325, tail_v323]
  exact transpose_apply _ _ _ _ (ix2 o d) fun a => match a with | ⟨0, _⟩ => rfl | ⟨1, _⟩ => rfl

end Cert.KernelIdeal.KEntry

end
-- ==== Proof.MatmulAlgebra.lean ====
/-
  The arithmetic of the kernel body at an index, over the extended reals: one grid point adds to the accumulator the
  product of its two blocks over the 1024 contracted positions of the block; the first point starts from zero; and
  four consecutive blocks of 1024 make the whole contraction over 4096.
-/
import proofs.«430907_j20306605375936_1_alg».proof.Proof.Gen.KernelIdeal.Skeleton
import proofs.«430907_j20306605375936_1_alg».proof.Proof.Spec
import Idealize.ShloMosaic.Lib.ValueIdx
import Idealize.ShloMosaic.Lib.Pipeline.Value
import Idealize.ShloMosaic.PureOps.Ideal.Laws
import Mathlib.Algebra.BigOperators.Fin

noncomputable section

open scoped BigOperators

namespace Cert.KernelIdeal.MMAlg

open Idealize.ShloMosaic Idealize.ShloMosaic.ValueIdx Cert.KernelIdeal Cert.KernelIdeal.Gen

/-- The accumulator's reset value is zero everywhere. -/
theorem pay1_apply (p q : Fin 512) : (k0_pay1 (F := Ideal) : S512x512.Idx → EReal) (ix2 p q) = 0 := by
  unfold k0_pay1
  rw [shapeCast_self]
  exact Ideal.ofBits_zero_f32

/-! ### The block product's operand indices

The block product contracts the left block's axis 1 with the right block's axis 0; the result's axis 0 is the left
block's axis 0 and its axis 1 is the right block's axis 1. -/

/-- The dimension numbers of the block product. -/
abbrev DD : DotDims S512x1024 S1024x512 S512x512 := dot_S512x1024_S1024x512_S512x512_1_0_0_1_n_n

/-- Coordinates at equal positions of one index agree. -/
private theorem coord_val_congr {s : Shape} (j : s.Idx) (a b : Nat) (ha : a < s.rank) (hb : b < s.rank) (h : a = b) :
    (j ⟨a, ha⟩).val = (j ⟨b, hb⟩).val := by subst h; rfl

/-- The left operand's row is the result's row. -/
private theorem lhs_axis0 (j : S512x512.Idx) (k : DD.contr.Idx) : (DD.lhsIdx j k 0).val = (j 0).val := by
  unfold DotDims.lhsIdx
  rw [dif_neg (show ¬ (0 : Fin S512x1024.rank) ∈ DD.lhsBatch by decide),
    dif_pos (show (0 : Fin S512x1024.rank) ∈ DD.lhsNonContracting by decide)]
  simp only [Fin.val_cast]
  exact coord_val_congr j _ _ _ _ (by decide)

/-- The left operand's column is the contraction position. -/
private theorem lhs_axis1 (j : S512x512.Idx) (k : DD.contr.Idx) :
    (DD.lhsIdx j k 1).val = (k ⟨0, by decide⟩).val :=
  DD.lhsIdx_val_of_single (cl := 1) rfl j k

/-- The right operand's row is the contraction position. -/
private theorem rhs_axis0 (j : S512x512.Idx) (k : DD.contr.Idx) :
    (DD.rhsIdx j k 0).val = (k ⟨0, by decide⟩).val :=
  DD.rhsIdx_val_of_single (cr := 0) rfl j k

/-- The right operand's column is the result's column. -/
private theorem rhs_axis1 (j : S512x512.Idx) (k : DD.contr.Idx) : (DD.rhsIdx j k 1).val = (j 1).val := by
  unfold DotDims.rhsIdx
  rw [dif_neg (show ¬ (1 : Fin S1024x512.rank) ∈ DD.rhsBatch by decide),
    dif_pos (show (1 : Fin S1024x512.rank) ∈ DD.rhsNonContracting by decide)]
  simp only [Fin.val_cast]
  exact coord_val_congr j _ _ _ _ (by decide)

/-- The contraction index set is `Fin 1024`. -/
abbrev contrE : DD.contr.Idx ≃ Fin 1024 := contrEquiv1 DD 1024 rfl rfl

/-- The left operand's index at result `(p, q)` and contraction position `k` is `(p, k)`. -/
private theorem lhsIdx_eq (p q : Fin 512) (k : Fin 1024) : DD.lhsIdx (ix2 p q) (contrE.symm k) = ix2 p k := by
  funext a
  match a with
  | ⟨0, _⟩ => exact Fin.ext (lhs_axis0 _ _)
  | ⟨1, _⟩ => exact Fin.ext ((lhs_axis1 _ _).trans (contrEquiv1_symm_val DD 1024 rfl rfl k))

/-- The right operand's index at result `(p, q)` and contraction position `k` is `(k, q)`. -/
private theorem rhsIdx_eq (p q : Fin 512) (k : Fin 1024) : DD.rhsIdx (ix2 p q) (contrE.symm k) = ix2 k q := by
  funext a
  match a with
  | ⟨0, _⟩ => exact Fin.ext ((rhs_axis0 _ _).trans (contrEquiv1_symm_val DD 1024 rfl rfl k))
  | ⟨1, _⟩ => exact Fin.ext (rhs_axis1 _ _)

/-- One grid point's update at an index: the accumulator plus the blocks' product over the block's 1024 contracted positions. -/
theorem pay2_apply (x0 : Vec Ideal S512x1024 .f32) (x1 : Vec Ideal S1024x512 .f32) (acc : Vec Ideal S512x512 .f32) (p q : Fin 512) :
    (k0_pay2 (F := Ideal) x0 x1 acc : S512x512.Idx → EReal) (ix2 p q)
      = (acc : S512x512.Idx → EReal) (ix2 p q) + ∑ k : Fin 1024, (x0 : S512x1024.Idx → EReal) (ix2 p k) * (x1 : S1024x512.Idx → EReal) (ix2 k q) := by
  unfold k0_pay2
  simp only [shapeCast_self]
  rw [addf_apply]
  refine congrArg (acc (ix2 p q) + ·) ?_
  refine (Ideal.matmul_constant_zero_apply DD none _ _ (ix2 p q)).trans ?_
  refine (Equiv.sum_comp contrE.symm _).symm.trans ?_
  refine Finset.sum_congr rfl fun k _ => ?_
  rw [lhsIdx_eq, rhsIdx_eq]
  rfl

/-- A sum over `a + b` positions is the sum over the first `a` plus the sum over the last `b`. -/
private theorem sum_fin_split {n : ℕ} (a b : ℕ) (h : a + b = n) (f : Fin n → EReal) :
    ∑ d : Fin n, f d = ∑ k : Fin a, f ⟨k.val, by omega⟩ + ∑ k : Fin b, f ⟨a + k.val, by omega⟩ := by
  subst h
  rw [Fin.sum_univ_add]
  rfl

/-- Four consecutive blocks of 1024 positions, added up from zero in order, are the whole sum over 4096 positions. -/
theorem sum_four_blocks (f : Fin 4096 → EReal) :
    (((0 + ∑ k : Fin 1024, f ⟨k.val, by omega⟩) + ∑ k : Fin 1024, f ⟨1024 + k.val, by omega⟩)
        + ∑ k : Fin 1024, f ⟨2048 + k.val, by omega⟩) + ∑ k : Fin 1024, f ⟨3072 + k.val, by omega⟩
      = ∑ d : Fin 4096, f d := by
  have h1 := sum_fin_split 3072 1024 (by norm_num) f
  have h2 := sum_fin_split 2048 1024 (by norm_num) (fun k : Fin 3072 => f ⟨k.val, by omega⟩)
  have h3 := sum_fin_split 1024 1024 (by norm_num) (fun k : Fin 2048 => f ⟨k.val, by omega⟩)
  rw [h1, h2, h3, zero_add]

end Cert.KernelIdeal.MMAlg

end
-- ==== Proof.KernelValue.lean ====
/-
  The kernel program's run, read as a value: the tiled matrix product accumulated over the four blocks of the
  contracted axis, written back at the last of them, then reshaped, is `Cert.Linear.linear` of the activations and
  the weight matrix %323 the host operations before the kernel built.
-/
import proofs.«430907_j20306605375936_1_alg».proof.Proof.Gen.KernelIdeal.Frame
import proofs.«430907_j20306605375936_1_alg».proof.Proof.Spec
import proofs.«430907_j20306605375936_1_alg».proof.Proof.KernelAcc
import proofs.«430907_j20306605375936_1_alg».proof.Proof.KernelEntry
import proofs.«430907_j20306605375936_1_alg».proof.Proof.MatmulAlgebra
import Idealize.ShloMosaic.Lib.Pipeline.Value
import Idealize.ShloMosaic.PureOps.Ideal.Laws

noncomputable section

open scoped BigOperators

namespace Cert.KernelIdeal.KValue

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The printed index maps over the grid: point t = (i·8 + j)·4 + k reads block (i, k) of the first operand, block (k, j)
    of the second, and writes block (i, j) of the result. -/
theorem idx_facts : ∀ t : Fin cfg0.N,
    win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = t.val / 32 ∧ win0_2.index t (1 : Fin 2) = t.val / 4 % 8 :=
  (by decide +kernel : ∀ t : Fin grid0.N, _)

/-- The first operand (the activations as a 4096 × 4096 matrix) and the second (the transposed weight matrix), as the
    kernel finds them. -/
abbrev lhs (c : Dev nD) : Vec Ideal S4096x4096 .f32 := V m c main_v324
abbrev rhs (c : Dev nD) : Vec Ideal S4096x4096 .f32 := V m c main_v325

/-- The two input blocks of a grid point, at their literal types. -/
abbrev lblk (c : Dev nD) (t : Fin cfg0.N) : Vec Ideal S512x1024 .f32 := iblk m c 0 t
abbrev rblk (c : Dev nD) (t : Fin cfg0.N) : Vec Ideal S1024x512 .f32 := iblk m c 1 t

/-- Entry (p, k) of the first operand's block at point t is entry (⌊t/32⌋·512 + p, (t mod 4)·1024 + k) of the operand. -/
theorem lblk_apply (c : Dev nD) (t : Fin cfg0.N) (p : Fin 512) (k : Fin 1024) (r d : Fin 4096)
    (hr : r.val = t.val / 32 * 512 + p.val) (hd : d.val = t.val % 4 * 1024 + k.val) :
    (lblk m c t : S512x1024.Idx → EReal) (ix2 p k) = (lhs m c : S4096x4096.Idx → EReal) (ix2 r d) := by
  obtain ⟨e0, e1, -⟩ := idx_facts t
  unfold lblk iblk
  rw [View.read_apply]
  show V m c main_v324 _ = V m c main_v324 _
  refine congrArg (V m c main_v324) (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * k.val = d.val; rw [e1, hd]; omega

/-- Entry (k, q) of the second operand's block at point t is entry ((t mod 4)·1024 + k, (⌊t/4⌋ mod 8)·512 + q) of the operand. -/
theorem rblk_apply (c : Dev nD) (t : Fin cfg0.N) (k : Fin 1024) (q : Fin 512) (d o : Fin 4096)
    (hd : d.val = t.val % 4 * 1024 + k.val) (ho : o.val = t.val / 4 % 8 * 512 + q.val) :
    (rblk m c t : S1024x512.Idx → EReal) (ix2 k q) = (rhs m c : S4096x4096.Idx → EReal) (ix2 d o) := by
  obtain ⟨-, -, e0, e1, -⟩ := idx_facts t
  unfold rblk iblk
  rw [View.read_apply]
  show V m c main_v325 _ = V m c main_v325 _
  refine congrArg (V m c main_v325) (funext fun a => Fin.ext ?_)
  match a with
  | ⟨0, _⟩ => show win0_1.index t (0 : Fin 2) * 1024 + 1 * k.val = d.val; rw [e0, hd]; omega
  | ⟨1, _⟩ => show win0_1.index t (1 : Fin 2) * 512 + 1 * q.val = o.val; rw [e1, ho]; omega

/-- The whole product, entry by entry: the sum over the 4096 contracted positions. -/
def prod (c : Dev nD) : S4096x4096.Idx → EReal :=
  fun i => ∑ d : Fin 4096, (lhs m c : S4096x4096.Idx → EReal) (ix2 (i 0 : Fin 4096) d) * (rhs m c : S4096x4096.Idx → EReal) (ix2 d (i 1 : Fin 4096))

/-- Four updates from the reset value, at an entry: zero plus the four block products in order. -/
theorem four_updates (x0 x1 x2 x3 : Vec Ideal S512x1024 .f32) (w0 w1 w2 w3 : Vec Ideal S1024x512 .f32) (p q : Fin 512) :
    (k0_pay2 (F := Ideal) x3 w3 (k0_pay2 (F := Ideal) x2 w2 (k0_pay2 (F := Ideal) x1 w1 (k0_pay2 (F := Ideal) x0 w0 (k0_pay1 (F := Ideal))))) : S512x512.Idx → EReal) (ix2 p q)
      = (((0 + ∑ k : Fin 1024, (x0 : S512x1024.Idx → EReal) (ix2 p k) * (w0 : S1024x512.Idx → EReal) (ix2 k q))
          + ∑ k : Fin 1024, (x1 : S512x1024.Idx → EReal) (ix2 p k) * (w1 : S1024x512.Idx → EReal) (ix2 k q))
          + ∑ k : Fin 1024, (x2 : S512x1024.Idx → EReal) (ix2 p k) * (w2 : S1024x512.Idx → EReal) (ix2 k q))
          + ∑ k : Fin 1024, (x3 : S512x1024.Idx → EReal) (ix2 p k) * (w3 : S1024x512.Idx → EReal) (ix2 k q) := by
  rw [MMAlg.pay2_apply, MMAlg.pay2_apply, MMAlg.pay2_apply, MMAlg.pay2_apply, MMAlg.pay1_apply]

/-- What a point that writes the result back writes: its block of the whole product. -/
theorem flushed_eq (c : Dev nD) (t : Fin cfg0.N) (hf : (cfg0.win 2).flush t = true) :
    (dats m 0 c).flushed 2 t = ((cfg0.win 2).blk t).view.read (Elt Ideal) (prod m c) := by
  have h3 : t.val % 4 = 3 := (flush0_2 t).mp hf
  have hN : t.val < 256 := lt_of_lt_of_eq t.isLt (show cfg0.N = 256 from N_0)
  obtain ⟨-, -, -, -, e0, e1⟩ := idx_facts t
  show (cfg0.win 2).cut (grid0.coords t) ((dats m 0 c).after 2 t) = _
  rw [after0_2, KAcc.outs_at_flush m c t h3]
  refine funext fun (y : S512x512.Idx) => ?_
  obtain ⟨p, q, rfl⟩ : ∃ (p q : Fin 512), y = ix2 p q := ⟨y 0, y 1, eq_ix2 y⟩
  have hp : p.val < 512 := p.isLt
  have hq : q.val < 512 := q.isLt
  -- the entry's row and column in the whole product
  obtain ⟨r, hr⟩ : ∃ r : Fin 4096, r.val = t.val / 32 * 512 + p.val := ⟨⟨_, by omega⟩, rfl⟩
  obtain ⟨o, ho⟩ : ∃ o : Fin 4096, o.val = t.val / 4 % 8 * 512 + q.val := ⟨⟨_, by omega⟩, rfl⟩
  have hemb : ((cfg0.win 2).blk t).view.emb (ix2 p q) = (ix2 r o : S4096x4096.Idx) := by
    funext a; apply Fin.ext
    match a with
    | ⟨0, _⟩ => show win0_2.index t (0 : Fin 2) * 512 + 1 * p.val = r.val; rw [e0, hr]; omega
    | ⟨1, _⟩ => show win0_2.index t (1 : Fin 2) * 512 + 1 * q.val = o.val; rw [e1, ho]; omega
  rw [View.read_apply]
  show _ = prod m c (((cfg0.win 2).blk t).view.emb (ix2 p q))
  rw [hemb]
  refine (four_updates (lblk m c (KAcc.back t 3)) (lblk m c (KAcc.back t 2)) (lblk m c (KAcc.back t 1)) (lblk m c t)
    (rblk m c (KAcc.back t 3)) (rblk m c (KAcc.back t 2)) (rblk m c (KAcc.back t 1)) (rblk m c t) p q).trans ?_
  refine Eq.trans ?_ (MMAlg.sum_four_blocks fun d => (lhs m c : S4096x4096.Idx → EReal) (ix2 r d) * (rhs m c : S4096x4096.Idx → EReal) (ix2 d o))
  refine congrArg₂ (· + ·) (congrArg₂ (· + ·) (congrArg₂ (· + ·) (congrArg₂ (· + ·) rfl ?_) ?_) ?_) ?_
  · refine Finset.sum_congr rfl fun k _ => ?_
    have hk : k.val < 1024 := k.isLt
    exact congrArg₂ (· * ·)
      (lblk_apply m c (KAcc.back t 3) p k r ⟨k.val, by omega⟩ (by show r.val = (t.val - 3) / 32 * 512 + p.val; omega)
        (by show k.val = (t.val - 3) % 4 * 1024 + k.val; omega))
      (rblk_apply m c (KAcc.back t 3) k q ⟨k.val, by omega⟩ o (by show k.val = (t.val - 3) % 4 * 1024 + k.val; omega)
        (by show o.val = (t.val - 3) / 4 % 8 * 512 + q.val; omega))
  · refine Finset.sum_congr rfl fun k _ => ?_
    have hk : k.val < 1024 := k.isLt
    exact congrArg₂ (· * ·)
      (lblk_apply m c (KAcc.back t 2) p k r ⟨1024 + k.val, by omega⟩ (by show r.val = (t.val - 2) / 32 * 512 + p.val; omega)
        (by show 1024 + k.val = (t.val - 2) % 4 * 1024 + k.val; omega))
      (rblk_apply m c (KAcc.back t 2) k q ⟨1024 + k.val, by omega⟩ o (by show 1024 + k.val = (t.val - 2) % 4 * 1024 + k.val; omega)
        (by show o.val = (t.val - 2) / 4 % 8 * 512 + q.val; omega))
  · refine Finset.sum_congr rfl fun k _ => ?_
    have hk : k.val < 1024 := k.isLt
    exact congrArg₂ (· * ·)
      (lblk_apply m c (KAcc.back t 1) p k r ⟨2048 + k.val, by omega⟩ (by show r.val = (t.val - 1) / 32 * 512 + p.val; omega)
        (by show 2048 + k.val = (t.val - 1) % 4 * 1024 + k.val; omega))
      (rblk_apply m c (KAcc.back t 1) k q ⟨2048 + k.val, by omega⟩ o (by show 2048 + k.val = (t.val - 1) % 4 * 1024 + k.val; omega)
        (by show o.val = (t.val - 1) / 4 % 8 * 512 + q.val; omega))
  · refine Finset.sum_congr rfl fun k _ => ?_
    have hk : k.val < 1024 := k.isLt
    exact congrArg₂ (· * ·)
      (lblk_apply m c t p k r ⟨3072 + k.val, by omega⟩ (by omega) (by show 3072 + k.val = t.val % 4 * 1024 + k.val; omega))
      (rblk_apply m c t k q ⟨3072 + k.val, by omega⟩ o (by show 3072 + k.val = t.val % 4 * 1024 + k.val; omega) (by omega))

/-- Every entry of the result lies in a block that is written back: entry (r, o) in the block of the last point of the
    run of four with i = ⌊r/512⌋ and j = ⌊o/512⌋. -/
theorem cover (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 256 := N_0
  obtain ⟨t, ht⟩ : ∃ t : Fin cfg0.N, t.val = ((i 0).val / 512 * 8 + (i 1).val / 512) * 4 + 3 :=
    ⟨⟨_, by rw [hN]; omega⟩, rfl⟩
  obtain ⟨-, -, -, -, e0, e1⟩ := idx_facts t
  refine ⟨t, (flush0_2 t).mpr (by omega), ?_⟩
  show i ∈ ((View.whole main_v326).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    rw [e0]; omega
  | ⟨1, _⟩ =>
    show win0_2.index t (1 : Fin 2) * 512 ≤ (i 1).val ∧ (i 1).val < win0_2.index t (1 : Fin 2) * 512 + 512
    rw [e1]; omega

/-- So the result array ends holding the whole product. -/
theorem final (c : Dev nD) : (dats m 0 c).arrAt 2 cfg0.N = prod m c :=
  (dats m 0 c).arrAt_eq_of_cover 2 (prod m c) (flushed_eq m c) cover

/-- The reshape after the kernel: the program's result is the product read through the reshape. -/
theorem tail_eq (c : Dev nD) :
    Pipeline.afterTail₀ cfgs (dats m) 0 (V0 m) [hostOps1] c main_v327
      = shapeCast S4x1024x4096 (prod m c) shapeCasts_S4096x4096_S4x1024x4096 := by
  have e := (Pipeline.withArrays_arr spec0 launch0.win.arr_inj c (V0 m c) (fun w => (dats m 0 c).arrAt w cfg0.N) 2).trans (final m c)
  unfold Pipeline.afterTail₀
  show StableHlo.after hostOps1 _ (Proc.devRef .tc main_v327) = _
  after_results
  exact congrArg (fun x => shapeCast S4x1024x4096 x shapeCasts_S4096x4096_S4x1024x4096) e

/-- The product read through the reshape is the linear layer: row b·1024 + s of the product is row s of batch b, and
    the transposed weight matrix at (d, o) is the weight matrix at (o, d). -/
theorem reshaped_eq (c : Dev nD) :
    shapeCast S4x1024x4096 (prod m c) shapeCasts_S4096x4096_S4x1024x4096
      = Cert.Linear.linear (m ((c : Thread nD τ).loc main_arg0)) (V m c main_v323) := by
  funext i
  obtain ⟨b, s, o, rfl⟩ : ∃ (b : Fin 4) (s : Fin 1024) (o : Fin 4096), i = ix3 b s o := ⟨i 0, i 1, i 2, eq_ix3 i⟩
  have hb : b.val < 4 := b.isLt
  have hs : s.val < 1024 := s.isLt
  refine (shapeCast_apply (prod m c) shapeCasts_S4096x4096_S4x1024x4096 (ix3 b s o)
    (ix2 (⟨b.val * 1024 + s.val, by omega⟩ : Fin 4096) o) ?_).trans ?_
  · rw [Shape.rowMajor_val_two, Shape.rowMajor_val_three]
    rfl
  · unfold prod Cert.Linear.linear
    refine Finset.sum_congr rfl fun d _ => ?_
    exact congrArg₂ (· * ·) (KEntry.V_v324 m c b s d) (KEntry.V_v325 m c d o)

/-- Every weakly fair execution of the kernel's program terminates with its result at `linear x W`, `W` the contents of
    %323 when the kernel is entered, and its arguments unchanged. -/
theorem run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v327) = Cert.Linear.linear (m ((c.tc : Thread Cert.KernelIdeal.nD Cert.KernelIdeal.τ).loc Cert.KernelIdeal.main_arg0)) (Cert.KernelIdeal.Gen.V m c Cert.KernelIdeal.main_v323)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono (fun _ h c =>
    ⟨(((h c).2 main_v327 (Pipeline.mem_restRefs_of main_v327 (by decide) (by decide))).trans (tail_eq m c)).trans (reshaped_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.RefOps.lean ====
import proofs.«430907_j20306605375936_1_alg».proof.ReferenceIdeal
import proofs.«430907_j20306605375936_1_alg».proof.Proof.Gen.ReferenceIdeal
import Idealize.ShloMosaic.Lib.StableHlo.Run

set_option maxRecDepth 4796

noncomputable section

namespace Cert.ReferenceIdeal.RValue

open Idealize.ShloMosaic Idealize.ShloMosaic.TcCoe Idealize.SL.Sem Cert.ReferenceIdeal.Gen

variable {F : FTy → Type} [FloatOps F]

/-- 2 host operations, in order. -/
abbrev ops0 : List (HloOp τ sig (Elt F)) :=
  [ StableHlo.nullary main_v0 (iotaInDim S128 32 0),
    StableHlo.nullary main_c (constantI S_ 32 4#32) ]

/-- 17 host operations, in order. -/
abbrev ops1 : List (HloOp τ sig (Elt F)) :=
  [ StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S128, .i32⟩) (broadcastInDim S128 ![] bcast_S_S128),
    StableHlo.TRef.binary (.of main_v0 : StableHlo.TRef sig ⟨S128, .i32⟩) (.of main_call0_v1 : StableHlo.TRef sig ⟨S128, .i32⟩) (.of main_call0_v2 : StableHlo.TRef sig ⟨S128, .i32⟩) Host.divsi,
    StableHlo.TRef.unary (.of main_v0 : StableHlo.TRef sig ⟨S128, .i32⟩) (.of main_call0_v3 : StableHlo.TRef sig ⟨S128, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S128, .i32⟩) (broadcastInDim S128 ![] bcast_S_S128),
    StableHlo.TRef.binary (.of main_call0_v3 : StableHlo.TRef sig ⟨S128, .i32⟩) (.of main_call0_v5 : StableHlo.TRef sig ⟨S128, .i32⟩) (.of main_call0_v6 : StableHlo.TRef sig ⟨S128, .i1⟩) (cmpi .ne),
    StableHlo.TRef.unary (.of main_call0_v0 : StableHlo.TRef sig ⟨S_, .i32⟩) (.of main_call0_v7 : StableHlo.TRef sig ⟨S128, .i32⟩) (broadcastInDim S128 ![] bcast_S_S128),
    StableHlo.TRef.binary (.of main_v0 : StableHlo.TRef sig ⟨S128, .i32⟩) (.of main_call0_v7 : StableHlo.TRef sig ⟨S128, .i32⟩) (.of main_call0_v8 : StableHlo.TRef sig ⟨S128, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S128, .i32⟩) (broadcastInDim S128 ![] bcast_S_S128),
    StableHlo.TRef.binary (.of main_call0_v8 : StableHlo.TRef sig ⟨S128, .i32⟩) (.of main_call0_v9 : StableHlo.TRef sig ⟨S128, .i32⟩) (.of main_call0_v10 : StableHlo.TRef sig ⟨S128, .i1⟩) (cmpi .ne),
    StableHlo.TRef.binary (.of main_call0_v6 : StableHlo.TRef sig ⟨S128, .i1⟩) (.of main_call0_v10 : StableHlo.TRef sig ⟨S128, .i1⟩) (.of main_call0_v11 : StableHlo.TRef sig ⟨S128, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S128, .i32⟩) (broadcastInDim S128 ![] bcast_S_S128),
    StableHlo.TRef.binary (.of main_call0_v2 : StableHlo.TRef sig ⟨S128, .i32⟩) (.of main_call0_v12 : StableHlo.TRef sig ⟨S128, .i32⟩) (.of main_call0_v13 : StableHlo.TRef sig ⟨S128, .i32⟩) subi,
    StableHlo.TRef.ternary (.of main_call0_v11 : StableHlo.TRef sig ⟨S128, .i1⟩) (.of main_call0_v13 : StableHlo.TRef sig ⟨S128, .i32⟩) (.of main_call0_v2 : StableHlo.TRef sig ⟨S128, .i32⟩) (.of main_v1 : StableHlo.TRef sig ⟨S128, .i32⟩) select ]

/-- 1 host operations, in order. -/
abbrev ops2 : List (HloOp τ sig (Elt F)) :=
  [ StableHlo.nullary main_c_0 (constantI S_ 32 4#32) ]

/-- 21 host operations, in order. -/
abbrev ops3 : List (HloOp τ sig (Elt F)) :=
  [ StableHlo.TRef.unary (.of main_c_0 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S128, .i32⟩) (broadcastInDim S128 ![] bcast_S_S128),
    StableHlo.TRef.binary (.of main_v0 : StableHlo.TRef sig ⟨S128, .i32⟩) (.of main_call1_v3 : StableHlo.TRef sig ⟨S128, .i32⟩) (.of main_call1_v4 : StableHlo.TRef sig ⟨S128, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S128, .i32⟩) (broadcastInDim S128 ![] bcast_S_S128),
    StableHlo.TRef.binary (.of main_call1_v4 : StableHlo.TRef sig ⟨S128, .i32⟩) (.of main_call1_v5 : StableHlo.TRef sig ⟨S128, .i32⟩) (.of main_call1_v6 : StableHlo.TRef sig ⟨S128, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S128, .i32⟩) (broadcastInDim S128 ![] bcast_S_S128),
    StableHlo.TRef.binary (.of main_call1_v4 : StableHlo.TRef sig ⟨S128, .i32⟩) (.of main_call1_v7 : StableHlo.TRef sig ⟨S128, .i32⟩) (.of main_call1_v8 : StableHlo.TRef sig ⟨S128, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S128, .i1⟩) (broadcastInDim S128 ![] bcast_S_S128),
    StableHlo.TRef.binary (.of main_call1_v8 : StableHlo.TRef sig ⟨S128, .i1⟩) (.of main_call1_v10 : StableHlo.TRef sig ⟨S128, .i1⟩) (.of main_call1_v11 : StableHlo.TRef sig ⟨S128, .i1⟩) (cmpi .ne),
    StableHlo.TRef.binary (.of main_call1_v11 : StableHlo.TRef sig ⟨S128, .i1⟩) (.of main_call1_v6 : StableHlo.TRef sig ⟨S128, .i1⟩) (.of main_call1_v12 : StableHlo.TRef sig ⟨S128, .i1⟩) andi,
    StableHlo.TRef.unary main_call1_call0.v0 (.of main_call1_v13 : StableHlo.TRef sig ⟨S128, .i32⟩) (broadcastInDim S128 ![] bcast_S_S128),
    StableHlo.TRef.binary (.of main_call1_v4 : StableHlo.TRef sig ⟨S128, .i32⟩) (.of main_call1_v13 : StableHlo.TRef sig ⟨S128, .i32⟩) (.of main_call1_v14 : StableHlo.TRef sig ⟨S128, .i32⟩) addi,
    StableHlo.TRef.ternary (.of main_call1_v12 : StableHlo.TRef sig ⟨S128, .i1⟩) (.of main_call1_v14 : StableHlo.TRef sig ⟨S128, .i32⟩) (.of main_call1_v4 : StableHlo.TRef sig ⟨S128, .i32⟩) (.of main_v2 : StableHlo.TRef sig ⟨S128, .i32⟩) select ]

/-- 7 host operations, in order. -/
abbrev ops4 : List (HloOp τ sig (Elt F)) :=
  [ StableHlo.nullary main_c_1 (constantI S_ 32 4#32),
    StableHlo.unary main_c_1 main_v3 (broadcastInDim S128 ![] bcast_S_S128 : (⟨S_, .i32⟩ : BufTy).Contents (Elt F) → (⟨S128, .i32⟩ : BufTy).Contents (Elt F)),
    StableHlo.binary main_v2 main_v3 main_v4 (muli : (⟨S128, .i32⟩ : BufTy).Contents (Elt F) → (⟨S128, .i32⟩ : BufTy).Contents (Elt F) → (⟨S128, .i32⟩ : BufTy).Contents (Elt F)),
    StableHlo.nullary main_c_2 (constantI S_ 32 1#32),
    StableHlo.unary main_c_2 main_v5 (broadcastInDim S128 ![] bcast_S_S128 : (⟨S_, .i32⟩ : BufTy).Contents (Elt F) → (⟨S128, .i32⟩ : BufTy).Contents (Elt F)),
    StableHlo.binary main_v1 main_v5 main_v6 (addi : (⟨S128, .i32⟩ : BufTy).Contents (Elt F) → (⟨S128, .i32⟩ : BufTy).Contents (Elt F) → (⟨S128, .i32⟩ : BufTy).Contents (Elt F)),
    StableHlo.nullary main_c_3 (constantI S_ 32 32#32) ]

/-- 21 host operations, in order. -/
abbrev ops5 : List (HloOp τ sig (Elt F)) :=
  [ StableHlo.TRef.unary (.of main_c_3 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary main_call2_call0.v0 (.of main_call2_v3 : StableHlo.TRef sig ⟨S128, .i32⟩) (broadcastInDim S128 ![] bcast_S_S128),
    StableHlo.TRef.binary (.of main_v6 : StableHlo.TRef sig ⟨S128, .i32⟩) (.of main_call2_v3 : StableHlo.TRef sig ⟨S128, .i32⟩) (.of main_call2_v4 : StableHlo.TRef sig ⟨S128, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S128, .i32⟩) (broadcastInDim S128 ![] bcast_S_S128),
    StableHlo.TRef.binary (.of main_call2_v4 : StableHlo.TRef sig ⟨S128, .i32⟩) (.of main_call2_v5 : StableHlo.TRef sig ⟨S128, .i32⟩) (.of main_call2_v6 : StableHlo.TRef sig ⟨S128, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S128, .i32⟩) (broadcastInDim S128 ![] bcast_S_S128),
    StableHlo.TRef.binary (.of main_call2_v4 : StableHlo.TRef sig ⟨S128, .i32⟩) (.of main_call2_v7 : StableHlo.TRef sig ⟨S128, .i32⟩) (.of main_call2_v8 : StableHlo.TRef sig ⟨S128, .i1⟩) (cmpi .slt),
    StableHlo.TRef.nullary (.of main_call2_c_3 : StableHlo.TRef sig ⟨S_, .i32⟩) (constantI S_ 32 0#32),
    StableHlo.TRef.binary main_call2_call0.v0 (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S128, .i1⟩) (broadcastInDim S128 ![] bcast_S_S128),
    StableHlo.TRef.binary (.of main_call2_v8 : StableHlo.TRef sig ⟨S128, .i1⟩) (.of main_call2_v10 : StableHlo.TRef sig ⟨S128, .i1⟩) (.of main_call2_v11 : StableHlo.TRef sig ⟨S128, .i1⟩) (cmpi .ne),
    StableHlo.TRef.binary (.of main_call2_v11 : StableHlo.TRef sig ⟨S128, .i1⟩) (.of main_call2_v6 : StableHlo.TRef sig ⟨S128, .i1⟩) (.of main_call2_v12 : StableHlo.TRef sig ⟨S128, .i1⟩) andi,
    StableHlo.TRef.unary main_call2_call0.v0 (.of main_call2_v13 : StableHlo.TRef sig ⟨S128, .i32⟩) (broadcastInDim S128 ![] bcast_S_S128),
    StableHlo.TRef.binary (.of main_call2_v4 : StableHlo.TRef sig ⟨S128, .i32⟩) (.of main_call2_v13 : StableHlo.TRef sig ⟨S128, .i32⟩) (.of main_call2_v14 : StableHlo.TRef sig ⟨S128, .i32⟩) addi,
    StableHlo.TRef.ternary (.of main_call2_v12 : StableHlo.TRef sig ⟨S128, .i1⟩) (.of main_call2_v14 : StableHlo.TRef sig ⟨S128, .i32⟩) (.of main_call2_v4 : StableHlo.TRef sig ⟨S128, .i32⟩) (.of main_v7 : StableHlo.TRef sig ⟨S128, .i32⟩) select ]

/-- 327 host operations, in order. -/
abbrev ops6 : List (HloOp τ sig (Elt F)) :=
  ( StableHlo.nullary main_c_4 (constantI S_ 32 0#32)
  :: StableHlo.unary main_c_4 main_v8 (broadcastInDim S128 ![] bcast_S_S128 : (⟨S_, .i32⟩ : BufTy).Contents (Elt F) → (⟨S128, .i32⟩ : BufTy).Contents (Elt F))
  :: StableHlo.binary main_v1 main_v8 main_v9 (cmpi .slt : (⟨S128, .i32⟩ : BufTy).Contents (Elt F) → (⟨S128, .i32⟩ : BufTy).Contents (Elt F) → (⟨S128, .i1⟩ : BufTy).Contents (Elt F))
  :: StableHlo.nullary main_c_5 (constantI S_ 32 32#32)
  :: StableHlo.unary main_c_5 main_v10 (broadcastInDim S128 ![] bcast_S_S128 : (⟨S_, .i32⟩ : BufTy).Contents (Elt F) → (⟨S128, .i32⟩ : BufTy).Contents (Elt F))
  :: StableHlo.binary main_v1 main_v10 main_v11 (addi : (⟨S128, .i32⟩ : BufTy).Contents (Elt F) → (⟨S128, .i32⟩ : BufTy).Contents (Elt F) → (⟨S128, .i32⟩ : BufTy).Contents (Elt F))
  :: StableHlo.ternary main_v9 main_v11 main_v1 main_v12 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v12 main_v13 (broadcastInDim S128x1 ![0] bcast_S128_S128x1_0 : (⟨S128, .i32⟩ : BufTy).Contents (Elt F) → (⟨S128x1, .i32⟩ : BufTy).Contents (Elt F))
  :: StableHlo.binary main_arg5 main_v13 main_v14 ((fun x i => Host.gather gather_S65536x32_S128x1_S65536x128_0_1_n_n_1_1_655361 x i) : (⟨S65536x32, .i32⟩ : BufTy).Contents (Elt F) → (⟨S128x1, .i32⟩ : BufTy).Contents (Elt F) → (⟨S65536x128, .i32⟩ : BufTy).Contents (Elt F))
  :: StableHlo.unary main_v4 main_v15 (broadcastInDim S1x128 ![1] bcast_S128_S1x128_1 : (⟨S128, .i32⟩ : BufTy).Contents (Elt F) → (⟨S1x128, .i32⟩ : BufTy).Contents (Elt F))
  :: StableHlo.unary main_v15 main_v16 (broadcastInDim S65536x128 ![0, 1] bcast_S1x128_S65536x128_0_1 : (⟨S1x128, .i32⟩ : BufTy).Contents (Elt F) → (⟨S65536x128, .i32⟩ : BufTy).Contents (Elt F))
  :: StableHlo.binary main_v14 main_v16 main_v17 (Host.shli : (⟨S65536x128, .i32⟩ : BufTy).Contents (Elt F) → (⟨S65536x128, .i32⟩ : BufTy).Contents (Elt F) → (⟨S65536x128, .i32⟩ : BufTy).Contents (Elt F))
  :: StableHlo.nullary main_c_6 (constantI S_ 32 0#32)
  :: StableHlo.unary main_c_6 main_v18 (broadcastInDim S128 ![] bcast_S_S128 : (⟨S_, .i32⟩ : BufTy).Contents (Elt F) → (⟨S128, .i32⟩ : BufTy).Contents (Elt F))
  :: StableHlo.binary main_v7 main_v18 main_v19 (cmpi .slt : (⟨S128, .i32⟩ : BufTy).Contents (Elt F) → (⟨S128, .i32⟩ : BufTy).Contents (Elt F) → (⟨S128, .i1⟩ : BufTy).Contents (Elt F))
  :: StableHlo.nullary main_c_7 (constantI S_ 32 32#32)
  :: StableHlo.unary main_c_7 main_v20 (broadcastInDim S128 ![] bcast_S_S128 : (⟨S_, .i32⟩ : BufTy).Contents (Elt F) → (⟨S128, .i32⟩ : BufTy).Contents (Elt F))
  :: StableHlo.binary main_v7 main_v20 main_v21 (addi : (⟨S128, .i32⟩ : BufTy).Contents (Elt F) → (⟨S128, .i32⟩ : BufTy).Contents (Elt F) → (⟨S128, .i32⟩ : BufTy).Contents (Elt F))
  :: StableHlo.ternary main_v19 main_v21 main_v7 main_v22 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v22 main_v23 (broadcastInDim S128x1 ![0] bcast_S128_S128x1_0 : (⟨S128, .i32⟩ : BufTy).Contents (Elt F) → (⟨S128x1, .i32⟩ : BufTy).Contents (Elt F))
  :: StableHlo.binary main_arg5 main_v23 main_v24 ((fun x i => Host.gather gather_S65536x32_S128x1_S65536x128_0_1_n_n_1_1_655361 x i) : (⟨S65536x32, .i32⟩ : BufTy).Contents (Elt F) → (⟨S128x1, .i32⟩ : BufTy).Contents (Elt F) → (⟨S65536x128, .i32⟩ : BufTy).Contents (Elt F))
  :: StableHlo.nullary main_c_8 (constantI S_ 32 16#32)
  :: StableHlo.unary main_c_8 main_v25 (broadcastInDim S128 ![] bcast_S_S128 : (⟨S_, .i32⟩ : BufTy).Contents (Elt F) → (⟨S128, .i32⟩ : BufTy).Contents (Elt F))
  :: StableHlo.binary main_v25 main_v4 main_v26 (subi : (⟨S128, .i32⟩ : BufTy).Contents (Elt F) → (⟨S128, .i32⟩ : BufTy).Contents (Elt F) → (⟨S128, .i32⟩ : BufTy).Contents (Elt F))
  :: StableHlo.unary main_v26 main_v27 (broadcastInDim S1x128 ![1] bcast_S128_S1x128_1 : (⟨S128, .i32⟩ : BufTy).Contents (Elt F) → (⟨S1x128, .i32⟩ : BufTy).Contents (Elt F))
  :: StableHlo.unary main_v27 main_v28 (broadcastInDim S65536x128 ![0, 1] bcast_S1x128_S65536x128_0_1 : (⟨S1x128, .i32⟩ : BufTy).Contents (Elt F) → (⟨S65536x128, .i32⟩ : BufTy).Contents (Elt F))
  :: StableHlo.binary main_v24 main_v28 main_v29 (Host.shrsi : (⟨S65536x128, .i32⟩ : BufTy).Contents (Elt F) → (⟨S65536x128, .i32⟩ : BufTy).Contents (Elt F) → (⟨S65536x128, .i32⟩ : BufTy).Contents (Elt F))
  :: StableHlo.binary main_v17 main_v29 main_v30 (ori : (⟨S65536x128, .i32⟩ : BufTy).Contents (Elt F) → (⟨S65536x128, .i32⟩ : BufTy).Contents (Elt F) → (⟨S65536x128, .i32⟩ : BufTy).Contents (Elt F))
  :: StableHlo.nullary main_c_9 (constantI S_ 32 65535#32)
  :: StableHlo.unary main_c_9 main_v31 (broadcastInDim S65536x128 ![] bcast_S_S65536x128 : (⟨S_, .i32⟩ : BufTy).Contents (Elt F) → (⟨S65536x128, .i32⟩ : BufTy).Contents (Elt F))
  :: StableHlo.binary main_v30 main_v31 main_v32 (andi : (⟨S65536x128, .i32⟩ : BufTy).Contents (Elt F) → (⟨S65536x128, .i32⟩ : BufTy).Contents (Elt F) → (⟨S65536x128, .i32⟩ : BufTy).Contents (Elt F))
  :: StableHlo.nullary main_c_10 (constantI S_ 32 1023#32)
  :: StableHlo.unary main_c_10 main_v33 (broadcastInDim S65536x128 ![] bcast_S_S65536x128 : (⟨S_, .i32⟩ : BufTy).Contents (Elt F) → (⟨S65536x128, .i32⟩ : BufTy).Contents (Elt F))
  :: StableHlo.binary main_v32 main_v33 main_v34 (andi : (⟨S65536x128, .i32⟩ : BufTy).Contents (Elt F) → (⟨S65536x128, .i32⟩ : BufTy).Contents (Elt F) → (⟨S65536x128, .i32⟩ : BufTy).Contents (Elt F))
  :: StableHlo.nullary main_c_11 (constantI S_ 32 0#32)
  :: StableHlo.unary main_c_11 main_v35 (broadcastInDim S65536x128 ![] bcast_S_S65536x128 : (⟨S_, .i32⟩ : BufTy).Contents (Elt F) → (⟨S65536x128, .i32⟩ : BufTy).Contents (Elt F))
  :: StableHlo.binary main_v34 main_v35 main_v36 (cmpi .slt : (⟨S65536x128, .i32⟩ : BufTy).Contents (Elt F) → (⟨S65536x128, .i32⟩ : BufTy).Contents (Elt F) → (⟨S65536x128, .i1⟩ : BufTy).Contents (Elt F))
  :: StableHlo.nullary main_c_12 (constantI S_ 32 1024#32)
  :: StableHlo.unary main_c_12 main_v37 (broadcastInDim S65536x128 ![] bcast_S_S65536x128 : (⟨S_, .i32⟩ : BufTy).Contents (Elt F) → (⟨S65536x128, .i32⟩ : BufTy).Contents (Elt F))
  :: StableHlo.binary main_v34 main_v37 main_v38 (addi : (⟨S65536x128, .i32⟩ : BufTy).Contents (Elt F) → (⟨S65536x128, .i32⟩ : BufTy).Contents (Elt F) → (⟨S65536x128, .i32⟩ : BufTy).Contents (Elt F))
  :: StableHlo.ternary main_v36 main_v38 main_v34 main_v39 (select : (⟨S65536x128, .i1⟩ : BufTy).Contents (Elt F) → (⟨S65536x128, .i32⟩ : BufTy).Contents (Elt F) → (⟨S65536x128, .i32⟩ : BufTy).Contents (Elt F) → (⟨S65536x128, .i32⟩ : BufTy).Contents (Elt F))
  :: StableHlo.unary main_v39 main_v40 (broadcastInDim S65536x128x1 ![0, 1] bcast_S65536x128_S65536x128x1_0_1 : (⟨S65536x128, .i32⟩ : BufTy).Contents (Elt F) → (⟨S65536x128x1, .i32⟩ : BufTy).Contents (Elt F))
  :: StableHlo.binary main_arg4 main_v40 main_v41 ((fun x i => Host.gather gather_S1024x2_S65536x128x1_S65536x128x2_2_0_n_n_0_2_12 x i) : (⟨S1024x2, .f32⟩ : BufTy).Contents (Elt F) → (⟨S65536x128x1, .i32⟩ : BufTy).Contents (Elt F) → (⟨S65536x128x2, .f32⟩ : BufTy).Contents (Elt F))
  :: StableHlo.reshape main_v41 main_v42 rfl shapeCasts_S65536x128x2_S65536x256
  :: StableHlo.reshape main_v42 main_v43 rfl shapeCasts_S65536x256_S4096x4096
  :: StableHlo.reshape main_v43 main_v44 rfl shapeCasts_S4096x4096_S4096x2048x2x1
  :: StableHlo.unary main_v44 main_v45 ((extractStridedSlice S4096x2048x1x1 ![0, 0, 0, 0] · slices_S4096x2048x2x1_S4096x2048x1x1_0_0_0_0) : (⟨S4096x2048x2x1, .f32⟩ : BufTy).Contents (Elt F) → (⟨S4096x2048x1x1, .f32⟩ : BufTy).Contents (Elt F))
  :: StableHlo.reshape main_v45 main_v46 rfl shapeCasts_S4096x2048x1x1_S4096x2048x1
  :: StableHlo.unary main_v44 main_v47 ((extractStridedSlice S4096x2048x1x1 ![0, 0, 1, 0] · slices_S4096x2048x2x1_S4096x2048x1x1_0_0_1_0) : (⟨S4096x2048x2x1, .f32⟩ : BufTy).Contents (Elt F) → (⟨S4096x2048x1x1, .f32⟩ : BufTy).Contents (Elt F))
  :: StableHlo.reshape main_v47 main_v48 rfl shapeCasts_S4096x2048x1x1_S4096x2048x1
  :: StableHlo.binary main_v46 main_v48 main_v49 (addf : (⟨S4096x2048x1, .f32⟩ : BufTy).Contents (Elt F) → (⟨S4096x2048x1, .f32⟩ : BufTy).Contents (Elt F) → (⟨S4096x2048x1, .f32⟩ : BufTy).Contents (Elt F))
  :: StableHlo.binary main_v46 main_v48 main_v50 (subf : (⟨S4096x2048x1, .f32⟩ : BufTy).Contents (Elt F) → (⟨S4096x2048x1, .f32⟩ : BufTy).Contents (Elt F) → (⟨S4096x2048x1, .f32⟩ : BufTy).Contents (Elt F))
  :: StableHlo.unary main_v49 main_v51 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.unary main_v50 main_v52 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.binary main_v51 main_v52 main_v53 ((fun a b => concatenate S4096x2048x2x1 2 [⟨S4096x2048x1x1, a⟩, ⟨S4096x2048x1x1, b⟩] concatenates_S4096x2048x1x1_S4096x2048x1x1_S4096x2048x2x1_d2) : (⟨S4096x2048x1x1, .f32⟩ : BufTy).Contents (Elt F) → (⟨S4096x2048x1x1, .f32⟩ : BufTy).Contents (Elt F) → (⟨S4096x2048x2x1, .f32⟩ : BufTy).Contents (Elt F))
  :: StableHlo.reshape main_v53 main_v54 rfl shapeCasts_S4096x2048x2x1_S4096x4096
  :: StableHlo.reshape main_v54 main_v55 rfl shapeCasts_S4096x4096_S4096x1024x2x2
  :: StableHlo.unary main_v55 main_v56 ((extractStridedSlice S4096x1024x1x2 ![0, 0, 0, 0] · slices_S4096x1024x2x2_S4096x1024x1x2_0_0_0_0) : (⟨S4096x1024x2x2, .f32⟩ : BufTy).Contents (Elt F) → (⟨S4096x1024x1x2, .f32⟩ : BufTy).Contents (Elt F))
  :: StableHlo.reshape main_v56 main_v57 rfl shapeCasts_S4096x1024x1x2_S4096x1024x2
  :: StableHlo.unary main_v55 main_v58 ((extractStridedSlice S4096x1024x1x2 ![0, 0, 1, 0] · slices_S4096x1024x2x2_S4096x1024x1x2_0_0_1_0) : (⟨S4096x1024x2x2, .f32⟩ : BufTy).Contents (Elt F) → (⟨S4096x1024x1x2, .f32⟩ : BufTy).Contents (Elt F))
  :: StableHlo.reshape main_v58 main_v59 rfl shapeCasts_S4096x1024x1x2_S4096x1024x2
  :: StableHlo.binary main_v57 main_v59 main_v60 (addf : (⟨S4096x1024x2, .f32⟩ : BufTy).Contents (Elt F) → (⟨S4096x1024x2, .f32⟩ : BufTy).Contents (Elt F) → (⟨S4096x1024x2, .f32⟩ : BufTy).Contents (Elt F))
  :: StableHlo.binary main_v57 main_v59 main_v61 (subf : (⟨S4096x1024x2, .f32⟩ : BufTy).Contents (Elt F) → (⟨S4096x1024x2, .f32⟩ : BufTy).Contents (Elt F) → (⟨S4096x1024x2, .f32⟩ : BufTy).Contents (Elt F))
  :: StableHlo.unary main_v60 main_v62 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.unary main_v61 main_v63 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.binary main_v62 main_v63 main_v64 ((fun a b => concatenate S4096x1024x2x2 2 [⟨S4096x1024x1x2, a⟩, ⟨S4096x1024x1x2, b⟩] concatenates_S4096x1024x1x2_S4096x1024x1x2_S4096x1024x2x2_d2) : (⟨S4096x1024x1x2, .f32⟩ : BufTy).Contents (Elt F) → (⟨S4096x1024x1x2, .f32⟩ : BufTy).Contents (Elt F) → (⟨S4096x1024x2x2, .f32⟩ : BufTy).Contents (Elt F))
  :: StableHlo.reshape main_v64 main_v65 rfl shapeCasts_S4096x1024x2x2_S4096x4096
  :: StableHlo.reshape main_v65 main_v66 rfl shapeCasts_S4096x4096_S4096x512x2x4
  :: StableHlo.unary main_v66 main_v67 ((extractStridedSlice S4096x512x1x4 ![0, 0, 0, 0] · slices_S4096x512x2x4_S4096x512x1x4_0_0_0_0) : (⟨S4096x512x2x4, .f32⟩ : BufTy).Contents (Elt F) → (⟨S4096x512x1x4, .f32⟩ : BufTy).Contents (Elt F))
  :: StableHlo.reshape main_v67 main_v68 rfl shapeCasts_S4096x512x1x4_S4096x512x4
  :: StableHlo.unary main_v66 main_v69 ((extractStridedSlice S4096x512x1x4 ![0, 0, 1, 0] · slices_S4096x512x2x4_S4096x512x1x4_0_0_1_0) : (⟨S4096x512x2x4, .f32⟩ : BufTy).Contents (Elt F) → (⟨S4096x512x1x4, .f32⟩ : BufTy).Contents (Elt F))
  :: StableHlo.reshape main_v69 main_v70 rfl shapeCasts_S4096x512x1x4_S4096x512x4
  :: StableHlo.binary main_v68 main_v70 main_v71 (addf : (⟨S4096x512x4, .f32⟩ : BufTy).Contents (Elt F) → (⟨S4096x512x4, .f32⟩ : BufTy).Contents (Elt F) → (⟨S4096x512x4, .f32⟩ : BufTy).Contents (Elt F))
  :: StableHlo.binary main_v68 main_v70 main_v72 (subf : (⟨S4096x512x4, .f32⟩ : BufTy).Contents (Elt F) → (⟨S4096x512x4, .f32⟩ : BufTy).Contents (Elt F) → (⟨S4096x512x4, .f32⟩ : BufTy).Contents (Elt F))
  :: StableHlo.unary main_v71 main_v73 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.unary main_v72 main_v74 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.binary main_v73 main_v74 main_v75 ((fun a b => concatenate S4096x512x2x4 2 [⟨S4096x512x1x4, a⟩, ⟨S4096x512x1x4, b⟩] concatenates_S4096x512x1x4_S4096x512x1x4_S4096x512x2x4_d2) : (⟨S4096x512x1x4, .f32⟩ : BufTy).Contents (Elt F) → (⟨S4096x512x1x4, .f32⟩ : BufTy).Contents (Elt F) → (⟨S4096x512x2x4, .f32⟩ : BufTy).Contents (Elt F))
  :: StableHlo.reshape main_v75 main_v76 rfl shapeCasts_S4096x512x2x4_S4096x4096
  :: StableHlo.reshape main_v76 main_v77 rfl shapeCasts_S4096x4096_S4096x256x2x8
  :: StableHlo.unary main_v77 main_v78 ((extractStridedSlice S4096x256x1x8 ![0, 0, 0, 0] · slices_S4096x256x2x8_S4096x256x1x8_0_0_0_0) : (⟨S4096x256x2x8, .f32⟩ : BufTy).Contents (Elt F) → (⟨S4096x256x1x8, .f32⟩ : BufTy).Contents (Elt F))
  :: StableHlo.reshape main_v78 main_v79 rfl shapeCasts_S4096x256x1x8_S4096x256x8
  :: StableHlo.unary main_v77 main_v80 ((extractStridedSlice S4096x256x1x8 ![0, 0, 1, 0] · slices_S4096x256x2x8_S4096x256x1x8_0_0_1_0) : (⟨S4096x256x2x8, .f32⟩ : BufTy).Contents (Elt F) → (⟨S4096x256x1x8, .f32⟩ : BufTy).Contents (Elt F))
  :: StableHlo.reshape main_v80 main_v81 rfl shapeCasts_S4096x256x1x8_S4096x256x8
  :: StableHlo.binary main_v79 main_v81 main_v82 (addf : (⟨S4096x256x8, .f32⟩ : BufTy).Contents (Elt F) → (⟨S4096x256x8, .f32⟩ : BufTy).Contents (Elt F) → (⟨S4096x256x8, .f32⟩ : BufTy).Contents (Elt F))
  :: StableHlo.binary main_v79 main_v81 main_v83 (subf : (⟨S4096x256x8, .f32⟩ : BufTy).Contents (Elt F) → (⟨S4096x256x8, .f32⟩ : BufTy).Contents (Elt F) → (⟨S4096x256x8, .f32⟩ : BufTy).Contents (Elt F))
  :: StableHlo.unary main_v82 main_v84 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.unary main_v83 main_v85 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.binary main_v84 main_v85 main_v86 ((fun a b => concatenate S4096x256x2x8 2 [⟨S4096x256x1x8, a⟩, ⟨S4096x256x1x8, b⟩] concatenates_S4096x256x1x8_S4096x256x1x8_S4096x256x2x8_d2) : (⟨S4096x256x1x8, .f32⟩ : BufTy).Contents (Elt F) → (⟨S4096x256x1x8, .f32⟩ : BufTy).Contents (Elt F) → (⟨S4096x256x2x8, .f32⟩ : BufTy).Contents (Elt F))
  :: StableHlo.reshape main_v86 main_v87 rfl shapeCasts_S4096x256x2x8_S4096x4096
  :: StableHlo.reshape main_v87 main_v88 rfl shapeCasts_S4096x4096_S4096x128x2x16
  :: StableHlo.unary main_v88 main_v89 ((extractStridedSlice S4096x128x1x16 ![0, 0, 0, 0] · slices_S4096x128x2x16_S4096x128x1x16_0_0_0_0) : (⟨S4096x128x2x16, .f32⟩ : BufTy).Contents (Elt F) → (⟨S4096x128x1x16, .f32⟩ : BufTy).Contents (Elt F))
  :: StableHlo.reshape main_v89 main_v90 rfl shapeCasts_S4096x128x1x16_S4096x128x16
  :: StableHlo.unary main_v88 main_v91 ((extractStridedSlice S4096x128x1x16 ![0, 0, 1, 0] · slices_S4096x128x2x16_S4096x128x1x16_0_0_1_0) : (⟨S4096x128x2x16, .f32⟩ : BufTy).Contents (Elt F) → (⟨S4096x128x1x16, .f32⟩ : BufTy).Contents (Elt F))
  :: StableHlo.reshape main_v91 main_v92 rfl shapeCasts_S4096x128x1x16_S4096x128x16
  :: StableHlo.binary main_v90 main_v92 main_v93 (addf : (⟨S4096x128x16, .f32⟩ : BufTy).Contents (Elt F) → (⟨S4096x128x16, .f32⟩ : BufTy).Contents (Elt F) → (⟨S4096x128x16, .f32⟩ : BufTy).Contents (Elt F))
  :: StableHlo.binary main_v90 main_v92 main_v94 (subf : (⟨S4096x128x16, .f32⟩ : BufTy).Contents (Elt F) → (⟨S4096x128x16, .f32⟩ : BufTy).Contents (Elt F) → (⟨S4096x128x16, .f32⟩ : BufTy).Contents (Elt F))
  :: StableHlo.unary main_v93 main_v95 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.unary main_v94 main_v96 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.binary main_v95 main_v96 main_v97 ((fun a b => concatenate S4096x128x2x16 2 [⟨S4096x128x1x16, a⟩, ⟨S4096x128x1x16, b⟩] concatenates_S4096x128x1x16_S4096x128x1x16_S4096x128x2x16_d2) : (⟨S4096x128x1x16, .f32⟩ : BufTy).Contents (Elt F) → (⟨S4096x128x1x16, .f32⟩ : BufTy).Contents (Elt F) → (⟨S4096x128x2x16, .f32⟩ : BufTy).Contents (Elt F))
  :: StableHlo.reshape main_v97 main_v98 rfl shapeCasts_S4096x128x2x16_S4096x4096
  :: StableHlo.reshape main_v98 main_v99 rfl shapeCasts_S4096x4096_S4096x64x2x32
  :: StableHlo.unary main_v99 main_v100 ((extractStridedSlice S4096x64x1x32 ![0, 0, 0, 0] · slices_S4096x64x2x32_S4096x64x1x32_0_0_0_0) : (⟨S4096x64x2x32, .f32⟩ : BufTy).Contents (Elt F) → (⟨S4096x64x1x32, .f32⟩ : BufTy).Contents (Elt F))
  :: StableHlo.reshape main_v100 main_v101 rfl shapeCasts_S4096x64x1x32_S4096x64x32
  :: StableHlo.unary main_v99 main_v102 ((extractStridedSlice S4096x64x1x32 ![0, 0, 1, 0] · slices_S4096x64x2x32_S4096x64x1x32_0_0_1_0) : (⟨S4096x64x2x32, .f32⟩ : BufTy).Contents (Elt F) → (⟨S4096x64x1x32, .f32⟩ : BufTy).Contents (Elt F))
  :: StableHlo.reshape main_v102 main_v103 rfl shapeCasts_S4096x64x1x32_S4096x64x32
  :: StableHlo.binary main_v101 main_v103 main_v104 (addf : (⟨S4096x64x32, .f32⟩ : BufTy).Contents (Elt F) → (⟨S4096x64x32, .f32⟩ : BufTy).Contents (Elt F) → (⟨S4096x64x32, .f32⟩ : BufTy).Contents (Elt F))
  :: StableHlo.binary main_v101 main_v103 main_v105 (subf : (⟨S4096x64x32, .f32⟩ : BufTy).Contents (Elt F) → (⟨S4096x64x32, .f32⟩ : BufTy).Contents (Elt F) → (⟨S4096x64x32, .f32⟩ : BufTy).Contents (Elt F))
  :: StableHlo.unary main_v104 main_v106 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.unary main_v105 main_v107 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.binary main_v106 main_v107 main_v108 ((fun a b => concatenate S4096x64x2x32 2 [⟨S4096x64x1x32, a⟩, ⟨S4096x64x1x32, b⟩] concatenates_S4096x64x1x32_S4096x64x1x32_S4096x64x2x32_d2) : (⟨S4096x64x1x32, .f32⟩ : BufTy).Contents (Elt F) → (⟨S4096x64x1x32, .f32⟩ : BufTy).Contents (Elt F) → (⟨S4096x64x2x32, .f32⟩ : BufTy).Contents (Elt F))
  :: StableHlo.reshape main_v108 main_v109 rfl shapeCasts_S4096x64x2x32_S4096x4096
  :: StableHlo.reshape main_v109 main_v110 rfl shapeCasts_S4096x4096_S4096x32x2x64
  :: StableHlo.unary main_v110 main_v111 ((extractStridedSlice S4096x32x1x64 ![0, 0, 0, 0] · slices_S4096x32x2x64_S4096x32x1x64_0_0_0_0) : (⟨S4096x32x2x64, .f32⟩ : BufTy).Contents (Elt F) → (⟨S4096x32x1x64, .f32⟩ : BufTy).Contents (Elt F))
  :: StableHlo.reshape main_v111 main_v112 rfl shapeCasts_S4096x32x1x64_S4096x32x64
  :: StableHlo.unary main_v110 main_v113 ((extractStridedSlice S4096x32x1x64 ![0, 0, 1, 0] · slices_S4096x32x2x64_S4096x32x1x64_0_0_1_0) : (⟨S4096x32x2x64, .f32⟩ : BufTy).Contents (Elt F) → (⟨S4096x32x1x64, .f32⟩ : BufTy).Contents (Elt F))
  :: StableHlo.reshape main_v113 main_v114 rfl shapeCasts_S4096x32x1x64_S4096x32x64
  :: StableHlo.binary main_v112 main_v114 main_v115 (addf : (⟨S4096x32x64, .f32⟩ : BufTy).Contents (Elt F) → (⟨S4096x32x64, .f32⟩ : BufTy).Contents (Elt F) → (⟨S4096x32x64, .f32⟩ : BufTy).Contents (Elt F))
  :: StableHlo.binary main_v112 main_v114 main_v116 (subf : (⟨S4096x32x64, .f32⟩ : BufTy).Contents (Elt F) → (⟨S4096x32x64, .f32⟩ : BufTy).Contents (Elt F) → (⟨S4096x32x64, .f32⟩ : BufTy).Contents (Elt F))
  :: StableHlo.unary main_v115 main_v117 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.unary main_v116 main_v118 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.binary main_v117 main_v118 main_v119 ((fun a b => concatenate S4096x32x2x64 2 [⟨S4096x32x1x64, a⟩, ⟨S4096x32x1x64, b⟩] concatenates_S4096x32x1x64_S4096x32x1x64_S4096x32x2x64_d2) : (⟨S4096x32x1x64, .f32⟩ : BufTy).Contents (Elt F) → (⟨S4096x32x1x64, .f32⟩ : BufTy).Contents (Elt F) → (⟨S4096x32x2x64, .f32⟩ : BufTy).Contents (Elt F))
  :: StableHlo.reshape main_v119 main_v120 rfl shapeCasts_S4096x32x2x64_S4096x4096
  :: StableHlo.reshape main_v120 main_v121 rfl shapeCasts_S4096x4096_S4096x16x2x128
  :: StableHlo.unary main_v121 main_v122 ((extractStridedSlice S4096x16x1x128 ![0, 0, 0, 0] · slices_S4096x16x2x128_S4096x16x1x128_0_0_0_0) : (⟨S4096x16x2x128, .f32⟩ : BufTy).Contents (Elt F) → (⟨S4096x16x1x128, .f32⟩ : BufTy).Contents (Elt F))
  :: StableHlo.reshape main_v122 main_v123 rfl shapeCasts_S4096x16x1x128_S4096x16x128
  :: StableHlo.unary main_v121 main_v124 ((extractStridedSlice S4096x16x1x128 ![0, 0, 1, 0] · slices_S4096x16x2x128_S4096x16x1x128_0_0_1_0) : (⟨S4096x16x2x128, .f32⟩ : BufTy).Contents (Elt F) → (⟨S4096x16x1x128, .f32⟩ : BufTy).Contents (Elt F))
  :: StableHlo.reshape main_v124 main_v125 rfl shapeCasts_S4096x16x1x128_S4096x16x128
  :: StableHlo.binary main_v123 main_v125 main_v126 (addf : (⟨S4096x16x128, .f32⟩ : BufTy).Contents (Elt F) → (⟨S4096x16x128, .f32⟩ : BufTy).Contents (Elt F) → (⟨S4096x16x128, .f32⟩ : BufTy).Contents (Elt F))
  :: StableHlo.binary main_v123 main_v125 main_v127 (subf : (⟨S4096x16x128, .f32⟩ : BufTy).Contents (Elt F) → (⟨S4096x16x128, .f32⟩ : BufTy).Contents (Elt F) → (⟨S4096x16x128, .f32⟩ : BufTy).Contents (Elt F))
  :: StableHlo.unary main_v126 main_v128 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.unary main_v127 main_v129 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.binary main_v128 main_v129 main_v130 ((fun a b => concatenate S4096x16x2x128 2 [⟨S4096x16x1x128, a⟩, ⟨S4096x16x1x128, b⟩] concatenates_S4096x16x1x128_S4096x16x1x128_S4096x16x2x128_d2) : (⟨S4096x16x1x128, .f32⟩ : BufTy).Contents (Elt F) → (⟨S4096x16x1x128, .f32⟩ : BufTy).Contents (Elt F) → (⟨S4096x16x2x128, .f32⟩ : BufTy).Contents (Elt F))
  :: StableHlo.reshape main_v130 main_v131 rfl shapeCasts_S4096x16x2x128_S4096x4096
  :: StableHlo.reshape main_v131 main_v132 rfl shapeCasts_S4096x4096_S4096x8x2x256
  :: StableHlo.unary main_v132 main_v133 ((extractStridedSlice S4096x8x1x256 ![0, 0, 0, 0] · slices_S4096x8x2x256_S4096x8x1x256_0_0_0_0) : (⟨S4096x8x2x256, .f32⟩ : BufTy).Contents (Elt F) → (⟨S4096x8x1x256, .f32⟩ : BufTy).Contents (Elt F))
  :: StableHlo.reshape main_v133 main_v134 rfl shapeCasts_S4096x8x1x256_S4096x8x256
  :: StableHlo.unary main_v132 main_v135 ((extractStridedSlice S4096x8x1x256 ![0, 0, 1, 0] · slices_S4096x8x2x256_S4096x8x1x256_0_0_1_0) : (⟨S4096x8x2x256, .f32⟩ : BufTy).Contents (Elt F) → (⟨S4096x8x1x256, .f32⟩ : BufTy).Contents (Elt F))
  :: StableHlo.reshape main_v135 main_v136 rfl shapeCasts_S4096x8x1x256_S4096x8x256
  :: StableHlo.binary main_v134 main_v136 main_v137 (addf : (⟨S4096x8x256, .f32⟩ : BufTy).Contents (Elt F) → (⟨S4096x8x256, .f32⟩ : BufTy).Contents (Elt F) → (⟨S4096x8x256, .f32⟩ : BufTy).Contents (Elt F))
  :: StableHlo.binary main_v134 main_v136 main_v138 (subf : (⟨S4096x8x256, .f32⟩ : BufTy).Contents (Elt F) → (⟨S4096x8x256, .f32⟩ : BufTy).Contents (Elt F) → (⟨S4096x8x256, .f32⟩ : BufTy).Contents (Elt F))
  :: StableHlo.unary main_v137 main_v139 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.unary main_v138 main_v140 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.binary main_v139 main_v140 main_v141 ((fun a b => concatenate S4096x8x2x256 2 [⟨S4096x8x1x256, a⟩, ⟨S4096x8x1x256, b⟩] concatenates_S4096x8x1x256_S4096x8x1x256_S4096x8x2x256_d2) : (⟨S4096x8x1x256, .f32⟩ : BufTy).Contents (Elt F) → (⟨S4096x8x1x256, .f32⟩ : BufTy).Contents (Elt F) → (⟨S4096x8x2x256, .f32⟩ : BufTy).Contents (Elt F))
  :: StableHlo.reshape main_v141 main_v142 rfl shapeCasts_S4096x8x2x256_S4096x4096
  :: StableHlo.reshape main_v142 main_v143 rfl shapeCasts_S4096x4096_S4096x4x2x512
  :: StableHlo.unary main_v143 main_v144 ((extractStridedSlice S4096x4x1x512 ![0, 0, 0, 0] · slices_S4096x4x2x512_S4096x4x1x512_0_0_0_0) : (⟨S4096x4x2x512, .f32⟩ : BufTy).Contents (Elt F) → (⟨S4096x4x1x512, .f32⟩ : BufTy).Contents (Elt F))
  :: StableHlo.reshape main_v144 main_v145 rfl shapeCasts_S4096x4x1x512_S4096x4x512
  :: StableHlo.unary main_v143 main_v146 ((extractStridedSlice S4096x4x1x512 ![0, 0, 1, 0] · slices_S4096x4x2x512_S4096x4x1x512_0_0_1_0) : (⟨S4096x4x2x512, .f32⟩ : BufTy).Contents (Elt F) → (⟨S4096x4x1x512, .f32⟩ : BufTy).Contents (Elt F))
  :: StableHlo.reshape main_v146 main_v147 rfl shapeCasts_S4096x4x1x512_S4096x4x512
  :: StableHlo.binary main_v145 main_v147 main_v148 (addf : (⟨S4096x4x512, .f32⟩ : BufTy).Contents (Elt F) → (⟨S4096x4x512, .f32⟩ : BufTy).Contents (Elt F) → (⟨S4096x4x512, .f32⟩ : BufTy).Contents (Elt F))
  :: StableHlo.binary main_v145 main_v147 main_v149 (subf : (⟨S4096x4x512, .f32⟩ : BufTy).Contents (Elt F) → (⟨S4096x4x512, .f32⟩ : BufTy).Contents (Elt F) → (⟨S4096x4x512, .f32⟩ : BufTy).Contents (Elt F))
  :: StableHlo.unary main_v148 main_v150 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.unary main_v149 main_v151 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.binary main_v150 main_v151 main_v152 ((fun a b => concatenate S4096x4x2x512 2 [⟨S4096x4x1x512, a⟩, ⟨S4096x4x1x512, b⟩] concatenates_S4096x4x1x512_S4096x4x1x512_S4096x4x2x512_d2) : (⟨S4096x4x1x512, .f32⟩ : BufTy).Contents (Elt F) → (⟨S4096x4x1x512, .f32⟩ : BufTy).Contents (Elt F) → (⟨S4096x4x2x512, .f32⟩ : BufTy).Contents (Elt F))
  :: StableHlo.reshape main_v152 main_v153 rfl shapeCasts_S4096x4x2x512_S4096x4096
  :: StableHlo.reshape main_v153 main_v154 rfl shapeCasts_S4096x4096_S4096x2x2x1024
  :: StableHlo.unary main_v154 main_v155 ((extractStridedSlice S4096x2x1x1024 ![0, 0, 0, 0] · slices_S4096x2x2x1024_S4096x2x1x1024_0_0_0_0) : (⟨S4096x2x2x1024, .f32⟩ : BufTy).Contents (Elt F) → (⟨S4096x2x1x1024, .f32⟩ : BufTy).Contents (Elt F))
  :: StableHlo.reshape main_v155 main_v156 rfl shapeCasts_S4096x2x1x1024_S4096x2x1024
  :: StableHlo.unary main_v154 main_v157 ((extractStridedSlice S4096x2x1x1024 ![0, 0, 1, 0] · slices_S4096x2x2x1024_S4096x2x1x1024_0_0_1_0) : (⟨S4096x2x2x1024, .f32⟩ : BufTy).Contents (Elt F) → (⟨S4096x2x1x1024, .f32⟩ : BufTy).Contents (Elt F))
  :: StableHlo.reshape main_v157 main_v158 rfl shapeCasts_S4096x2x1x1024_S4096x2x1024
  :: StableHlo.binary main_v156 main_v158 main_v159 (addf : (⟨S4096x2x1024, .f32⟩ : BufTy).Contents (Elt F) → (⟨S4096x2x1024, .f32⟩ : BufTy).Contents (Elt F) → (⟨S4096x2x1024, .f32⟩ : BufTy).Contents (Elt F))
  :: StableHlo.binary main_v156 main_v158 main_v160 (subf : (⟨S4096x2x1024, .f32⟩ : BufTy).Contents (Elt F) → (⟨S4096x2x1024, .f32⟩ : BufTy).Contents (Elt F) → (⟨S4096x2x1024, .f32⟩ : BufTy).Contents (Elt F))
  :: StableHlo.unary main_v159 main_v161 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.unary main_v160 main_v162 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.binary main_v161 main_v162 main_v163 ((fun a b => concatenate S4096x2x2x1024 2 [⟨S4096x2x1x1024, a⟩, ⟨S4096x2x1x1024, b⟩] concatenates_S4096x2x1x1024_S4096x2x1x1024_S4096x2x2x1024_d2) : (⟨S4096x2x1x1024, .f32⟩ : BufTy).Contents (Elt F) → (⟨S4096x2x1x1024, .f32⟩ : BufTy).Contents (Elt F) → (⟨S4096x2x2x1024, .f32⟩ : BufTy).Contents (Elt F))
  :: StableHlo.reshape main_v163 main_v164 rfl shapeCasts_S4096x2x2x1024_S4096x4096
  :: StableHlo.reshape main_v164 main_v165 rfl shapeCasts_S4096x4096_S4096x1x2x2048
  :: StableHlo.unary main_v165 main_v166 ((extractStridedSlice S4096x1x1x2048 ![0, 0, 0, 0] · slices_S4096x1x2x2048_S4096x1x1x2048_0_0_0_0) : (⟨S4096x1x2x2048, .f32⟩ : BufTy).Contents (Elt F) → (⟨S4096x1x1x2048, .f32⟩ : BufTy).Contents (Elt F))
  :: StableHlo.reshape main_v166 main_v167 rfl shapeCasts_S4096x1x1x2048_S4096x1x2048
  :: StableHlo.unary main_v165 main_v168 ((extractStridedSlice S4096x1x1x2048 ![0, 0, 1, 0] · slices_S4096x1x2x2048_S4096x1x1x2048_0_0_1_0) : (⟨S4096x1x2x2048, .f32⟩ : BufTy).Contents (Elt F) → (⟨S4096x1x1x2048, .f32⟩ : BufTy).Contents (Elt F))
  :: StableHlo.reshape main_v168 main_v169 rfl shapeCasts_S4096x1x1x2048_S4096x1x2048
  :: StableHlo.binary main_v167 main_v169 main_v170 (addf : (⟨S4096x1x2048, .f32⟩ : BufTy).Contents (Elt F) → (⟨S4096x1x2048, .f32⟩ : BufTy).Contents (Elt F) → (⟨S4096x1x2048, .f32⟩ : BufTy).Contents (Elt F))
  :: StableHlo.binary main_v167 main_v169 main_v171 (subf : (⟨S4096x1x2048, .f32⟩ : BufTy).Contents (Elt F) → (⟨S4096x1x2048, .f32⟩ : BufTy).Contents (Elt F) → (⟨S4096x1x2048, .f32⟩ : BufTy).Contents (Elt F))
  :: StableHlo.unary main_v170 main_v172 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.unary main_v171 main_v173 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.binary main_v172 main_v173 main_v174 ((fun a b => concatenate S4096x1x2x2048 2 [⟨S4096x1x1x2048, a⟩, ⟨S4096x1x1x2048, b⟩] concatenates_S4096x1x1x2048_S4096x1x1x2048_S4096x1x2x2048_d2) : (⟨S4096x1x1x2048, .f32⟩ : BufTy).Contents (Elt F) → (⟨S4096x1x1x2048, .f32⟩ : BufTy).Contents (Elt F) → (⟨S4096x1x2x2048, .f32⟩ : BufTy).Contents (Elt F))
  :: StableHlo.reshape main_v174 main_v175 rfl shapeCasts_S4096x1x2x2048_S4096x4096
  :: StableHlo.nullary main_cst (constant S_ .f32 0x3C800000#32)
  :: StableHlo.unary main_cst main_v176 (broadcastInDim S4096x4096 ![] bcast_S_S4096x4096 : (⟨S_, .f32⟩ : BufTy).Contents (Elt F) → (⟨S4096x4096, .f32⟩ : BufTy).Contents (Elt F))
  :: StableHlo.binary main_v175 main_v176 main_v177 (mulf : (⟨S4096x4096, .f32⟩ : BufTy).Contents (Elt F) → (⟨S4096x4096, .f32⟩ : BufTy).Contents (Elt F) → (⟨S4096x4096, .f32⟩ : BufTy).Contents (Elt F))
  :: StableHlo.unary main_arg1 main_v178 (broadcastInDim S1x4096 ![1] bcast_S4096_S1x4096_1 : (⟨S4096, .f32⟩ : BufTy).Contents (Elt F) → (⟨S1x4096, .f32⟩ : BufTy).Contents (Elt F))
  :: StableHlo.unary main_v178 main_v179 (broadcastInDim S4096x4096 ![0, 1] bcast_S1x4096_S4096x4096_0_1 : (⟨S1x4096, .f32⟩ : BufTy).Contents (Elt F) → (⟨S4096x4096, .f32⟩ : BufTy).Contents (Elt F))
  :: StableHlo.binary main_v177 main_v179 main_v180 (mulf : (⟨S4096x4096, .f32⟩ : BufTy).Contents (Elt F) → (⟨S4096x4096, .f32⟩ : BufTy).Contents (Elt F) → (⟨S4096x4096, .f32⟩ : BufTy).Contents (Elt F))
  :: StableHlo.unary main_v180 main_v181 ((transpose S4096x4096 [1, 0] · transposes_S4096x4096_S4096x4096_1_0) : (⟨S4096x4096, .f32⟩ : BufTy).Contents (Elt F) → (⟨S4096x4096, .f32⟩ : BufTy).Contents (Elt F))
  :: StableHlo.reshape main_v181 main_v182 rfl shapeCasts_S4096x4096_S4096x2048x2x1
  :: StableHlo.unary main_v182 main_v183 ((extractStridedSlice S4096x2048x1x1 ![0, 0, 0, 0] · slices_S4096x2048x2x1_S4096x2048x1x1_0_0_0_0) : (⟨S4096x2048x2x1, .f32⟩ : BufTy).Contents (Elt F) → (⟨S4096x2048x1x1, .f32⟩ : BufTy).Contents (Elt F))
  :: StableHlo.reshape main_v183 main_v184 rfl shapeCasts_S4096x2048x1x1_S4096x2048x1
  :: StableHlo.unary main_v182 main_v185 ((extractStridedSlice S4096x2048x1x1 ![0, 0, 1, 0] · slices_S4096x2048x2x1_S4096x2048x1x1_0_0_1_0) : (⟨S4096x2048x2x1, .f32⟩ : BufTy).Contents (Elt F) → (⟨S4096x2048x1x1, .f32⟩ : BufTy).Contents (Elt F))
  :: StableHlo.reshape main_v185 main_v186 rfl shapeCasts_S4096x2048x1x1_S4096x2048x1
  :: StableHlo.binary main_v184 main_v186 main_v187 (addf : (⟨S4096x2048x1, .f32⟩ : BufTy).Contents (Elt F) → (⟨S4096x2048x1, .f32⟩ : BufTy).Contents (Elt F) → (⟨S4096x2048x1, .f32⟩ : BufTy).Contents (Elt F))
  :: StableHlo.binary main_v184 main_v186 main_v188 (subf : (⟨S4096x2048x1, .f32⟩ : BufTy).Contents (Elt F) → (⟨S4096x2048x1, .f32⟩ : BufTy).Contents (Elt F) → (⟨S4096x2048x1, .f32⟩ : BufTy).Contents (Elt F))
  :: StableHlo.unary main_v187 main_v189 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.unary main_v188 main_v190 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.binary main_v189 main_v190 main_v191 ((fun a b => concatenate S4096x2048x2x1 2 [⟨S4096x2048x1x1, a⟩, ⟨S4096x2048x1x1, b⟩] concatenates_S4096x2048x1x1_S4096x2048x1x1_S4096x2048x2x1_d2) : (⟨S4096x2048x1x1, .f32⟩ : BufTy).Contents (Elt F) → (⟨S4096x2048x1x1, .f32⟩ : BufTy).Contents (Elt F) → (⟨S4096x2048x2x1, .f32⟩ : BufTy).Contents (Elt F))
  :: StableHlo.reshape main_v191 main_v192 rfl shapeCasts_S4096x2048x2x1_S4096x4096
  :: StableHlo.reshape main_v192 main_v193 rfl shapeCasts_S4096x4096_S4096x1024x2x2
  :: StableHlo.unary main_v193 main_v194 ((extractStridedSlice S4096x1024x1x2 ![0, 0, 0, 0] · slices_S4096x1024x2x2_S4096x1024x1x2_0_0_0_0) : (⟨S4096x1024x2x2, .f32⟩ : BufTy).Contents (Elt F) → (⟨S4096x1024x1x2, .f32⟩ : BufTy).Contents (Elt F))
  :: StableHlo.reshape main_v194 main_v195 rfl shapeCasts_S4096x1024x1x2_S4096x1024x2
  :: StableHlo.unary main_v193 main_v196 ((extractStridedSlice S4096x1024x1x2 ![0, 0, 1, 0] · slices_S4096x1024x2x2_S4096x1024x1x2_0_0_1_0) : (⟨S4096x1024x2x2, .f32⟩ : BufTy).Contents (Elt F) → (⟨S4096x1024x1x2, .f32⟩ : BufTy).Contents (Elt F))
  :: StableHlo.reshape main_v196 main_v197 rfl shapeCasts_S4096x1024x1x2_S4096x1024x2
  :: StableHlo.binary main_v195 main_v197 main_v198 (addf : (⟨S4096x1024x2, .f32⟩ : BufTy).Contents (Elt F) → (⟨S4096x1024x2, .f32⟩ : BufTy).Contents (Elt F) → (⟨S4096x1024x2, .f32⟩ : BufTy).Contents (Elt F))
  :: StableHlo.binary main_v195 main_v197 main_v199 (subf : (⟨S4096x1024x2, .f32⟩ : BufTy).Contents (Elt F) → (⟨S4096x1024x2, .f32⟩ : BufTy).Contents (Elt F) → (⟨S4096x1024x2, .f32⟩ : BufTy).Contents (Elt F))
  :: StableHlo.unary main_v198 main_v200 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.unary main_v199 main_v201 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.binary main_v200 main_v201 main_v202 ((fun a b => concatenate S4096x1024x2x2 2 [⟨S4096x1024x1x2, a⟩, ⟨S4096x1024x1x2, b⟩] concatenates_S4096x1024x1x2_S4096x1024x1x2_S4096x1024x2x2_d2) : (⟨S4096x1024x1x2, .f32⟩ : BufTy).Contents (Elt F) → (⟨S4096x1024x1x2, .f32⟩ : BufTy).Contents (Elt F) → (⟨S4096x1024x2x2, .f32⟩ : BufTy).Contents (Elt F))
  :: StableHlo.reshape main_v202 main_v203 rfl shapeCasts_S4096x1024x2x2_S4096x4096
  :: StableHlo.reshape main_v203 main_v204 rfl shapeCasts_S4096x4096_S4096x512x2x4
  :: StableHlo.unary main_v204 main_v205 ((extractStridedSlice S4096x512x1x4 ![0, 0, 0, 0] · slices_S4096x512x2x4_S4096x512x1x4_0_0_0_0) : (⟨S4096x512x2x4, .f32⟩ : BufTy).Contents (Elt F) → (⟨S4096x512x1x4, .f32⟩ : BufTy).Contents (Elt F))
  :: StableHlo.reshape main_v205 main_v206 rfl shapeCasts_S4096x512x1x4_S4096x512x4
  :: StableHlo.unary main_v204 main_v207 ((extractStridedSlice S4096x512x1x4 ![0, 0, 1, 0] · slices_S4096x512x2x4_S4096x512x1x4_0_0_1_0) : (⟨S4096x512x2x4, .f32⟩ : BufTy).Contents (Elt F) → (⟨S4096x512x1x4, .f32⟩ : BufTy).Contents (Elt F))
  :: StableHlo.reshape main_v207 main_v208 rfl shapeCasts_S4096x512x1x4_S4096x512x4
  :: StableHlo.binary main_v206 main_v208 main_v209 (addf : (⟨S4096x512x4, .f32⟩ : BufTy).Contents (Elt F) → (⟨S4096x512x4, .f32⟩ : BufTy).Contents (Elt F) → (⟨S4096x512x4, .f32⟩ : BufTy).Contents (Elt F))
  :: StableHlo.binary main_v206 main_v208 main_v210 (subf : (⟨S4096x512x4, .f32⟩ : BufTy).Contents (Elt F) → (⟨S4096x512x4, .f32⟩ : BufTy).Contents (Elt F) → (⟨S4096x512x4, .f32⟩ : BufTy).Contents (Elt F))
  :: StableHlo.unary main_v209 main_v211 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.unary main_v210 main_v212 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.binary main_v211 main_v212 main_v213 ((fun a b => concatenate S4096x512x2x4 2 [⟨S4096x512x1x4, a⟩, ⟨S4096x512x1x4, b⟩] concatenates_S4096x512x1x4_S4096x512x1x4_S4096x512x2x4_d2) : (⟨S4096x512x1x4, .f32⟩ : BufTy).Contents (Elt F) → (⟨S4096x512x1x4, .f32⟩ : BufTy).Contents (Elt F) → (⟨S4096x512x2x4, .f32⟩ : BufTy).Contents (Elt F))
  :: StableHlo.reshape main_v213 main_v214 rfl shapeCasts_S4096x512x2x4_S4096x4096
  :: StableHlo.reshape main_v214 main_v215 rfl shapeCasts_S4096x4096_S4096x256x2x8
  :: StableHlo.unary main_v215 main_v216 ((extractStridedSlice S4096x256x1x8 ![0, 0, 0, 0] · slices_S4096x256x2x8_S4096x256x1x8_0_0_0_0) : (⟨S4096x256x2x8, .f32⟩ : BufTy).Contents (Elt F) → (⟨S4096x256x1x8, .f32⟩ : BufTy).Contents (Elt F))
  :: StableHlo.reshape main_v216 main_v217 rfl shapeCasts_S4096x256x1x8_S4096x256x8
  :: StableHlo.unary main_v215 main_v218 ((extractStridedSlice S4096x256x1x8 ![0, 0, 1, 0] · slices_S4096x256x2x8_S4096x256x1x8_0_0_1_0) : (⟨S4096x256x2x8, .f32⟩ : BufTy).Contents (Elt F) → (⟨S4096x256x1x8, .f32⟩ : BufTy).Contents (Elt F))
  :: StableHlo.reshape main_v218 main_v219 rfl shapeCasts_S4096x256x1x8_S4096x256x8
  :: StableHlo.binary main_v217 main_v219 main_v220 (addf : (⟨S4096x256x8, .f32⟩ : BufTy).Contents (Elt F) → (⟨S4096x256x8, .f32⟩ : BufTy).Contents (Elt F) → (⟨S4096x256x8, .f32⟩ : BufTy).Contents (Elt F))
  :: StableHlo.binary main_v217 main_v219 main_v221 (subf : (⟨S4096x256x8, .f32⟩ : BufTy).Contents (Elt F) → (⟨S4096x256x8, .f32⟩ : BufTy).Contents (Elt F) → (⟨S4096x256x8, .f32⟩ : BufTy).Contents (Elt F))
  :: StableHlo.unary main_v220 main_v222 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.unary main_v221 main_v223 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.binary main_v222 main_v223 main_v224 ((fun a b => concatenate S4096x256x2x8 2 [⟨S4096x256x1x8, a⟩, ⟨S4096x256x1x8, b⟩] concatenates_S4096x256x1x8_S4096x256x1x8_S4096x256x2x8_d2) : (⟨S4096x256x1x8, .f32⟩ : BufTy).Contents (Elt F) → (⟨S4096x256x1x8, .f32⟩ : BufTy).Contents (Elt F) → (⟨S4096x256x2x8, .f32⟩ : BufTy).Contents (Elt F))
  :: StableHlo.reshape main_v224 main_v225 rfl shapeCasts_S4096x256x2x8_S4096x4096
  :: StableHlo.reshape main_v225 main_v226 rfl shapeCasts_S4096x4096_S4096x128x2x16
  :: StableHlo.unary main_v226 main_v227 ((extractStridedSlice S4096x128x1x16 ![0, 0, 0, 0] · slices_S4096x128x2x16_S4096x128x1x16_0_0_0_0) : (⟨S4096x128x2x16, .f32⟩ : BufTy).Contents (Elt F) → (⟨S4096x128x1x16, .f32⟩ : BufTy).Contents (Elt F))
  :: StableHlo.reshape main_v227 main_v228 rfl shapeCasts_S4096x128x1x16_S4096x128x16
  :: StableHlo.unary main_v226 main_v229 ((extractStridedSlice S4096x128x1x16 ![0, 0, 1, 0] · slices_S4096x128x2x16_S4096x128x1x16_0_0_1_0) : (⟨S4096x128x2x16, .f32⟩ : BufTy).Contents (Elt F) → (⟨S4096x128x1x16, .f32⟩ : BufTy).Contents (Elt F))
  :: StableHlo.reshape main_v229 main_v230 rfl shapeCasts_S4096x128x1x16_S4096x128x16
  :: StableHlo.binary main_v228 main_v230 main_v231 (addf : (⟨S4096x128x16, .f32⟩ : BufTy).Contents (Elt F) → (⟨S4096x128x16, .f32⟩ : BufTy).Contents (Elt F) → (⟨S4096x128x16, .f32⟩ : BufTy).Contents (Elt F))
  :: StableHlo.binary main_v228 main_v230 main_v232 (subf : (⟨S4096x128x16, .f32⟩ : BufTy).Contents (Elt F) → (⟨S4096x128x16, .f32⟩ : BufTy).Contents (Elt F) → (⟨S4096x128x16, .f32⟩ : BufTy).Contents (Elt F))
  :: StableHlo.unary main_v231 main_v233 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.unary main_v232 main_v234 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.binary main_v233 main_v234 main_v235 ((fun a b => concatenate S4096x128x2x16 2 [⟨S4096x128x1x16, a⟩, ⟨S4096x128x1x16, b⟩] concatenates_S4096x128x1x16_S4096x128x1x16_S4096x128x2x16_d2) : (⟨S4096x128x1x16, .f32⟩ : BufTy).Contents (Elt F) → (⟨S4096x128x1x16, .f32⟩ : BufTy).Contents (Elt F) → (⟨S4096x128x2x16, .f32⟩ : BufTy).Contents (Elt F))
  :: StableHlo.reshape main_v235 main_v236 rfl shapeCasts_S4096x128x2x16_S4096x4096
  :: StableHlo.reshape main_v236 main_v237 rfl shapeCasts_S4096x4096_S4096x64x2x32
  :: StableHlo.unary main_v237 main_v238 ((extractStridedSlice S4096x64x1x32 ![0, 0, 0, 0] · slices_S4096x64x2x32_S4096x64x1x32_0_0_0_0) : (⟨S4096x64x2x32, .f32⟩ : BufTy).Contents (Elt F) → (⟨S4096x64x1x32, .f32⟩ : BufTy).Contents (Elt F))
  :: StableHlo.reshape main_v238 main_v239 rfl shapeCasts_S4096x64x1x32_S4096x64x32
  :: StableHlo.unary main_v237 main_v240 ((extractStridedSlice S4096x64x1x32 ![0, 0, 1, 0] · slices_S4096x64x2x32_S4096x64x1x32_0_0_1_0) : (⟨S4096x64x2x32, .f32⟩ : BufTy).Contents (Elt F) → (⟨S4096x64x1x32, .f32⟩ : BufTy).Contents (Elt F))
  :: StableHlo.reshape main_v240 main_v241 rfl shapeCasts_S4096x64x1x32_S4096x64x32
  :: StableHlo.binary main_v239 main_v241 main_v242 (addf : (⟨S4096x64x32, .f32⟩ : BufTy).Contents (Elt F) → (⟨S4096x64x32, .f32⟩ : BufTy).Contents (Elt F) → (⟨S4096x64x32, .f32⟩ : BufTy).Contents (Elt F))
  :: StableHlo.binary main_v239 main_v241 main_v243 (subf : (⟨S4096x64x32, .f32⟩ : BufTy).Contents (Elt F) → (⟨S4096x64x32, .f32⟩ : BufTy).Contents (Elt F) → (⟨S4096x64x32, .f32⟩ : BufTy).Contents (Elt F))
  :: StableHlo.unary main_v242 main_v244 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.unary main_v243 main_v245 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.binary main_v244 main_v245 main_v246 ((fun a b => concatenate S4096x64x2x32 2 [⟨S4096x64x1x32, a⟩, ⟨S4096x64x1x32, b⟩] concatenates_S4096x64x1x32_S4096x64x1x32_S4096x64x2x32_d2) : (⟨S4096x64x1x32, .f32⟩ : BufTy).Contents (Elt F) → (⟨S4096x64x1x32, .f32⟩ : BufTy).Contents (Elt F) → (⟨S4096x64x2x32, .f32⟩ : BufTy).Contents (Elt F))
  :: StableHlo.reshape main_v246 main_v247 rfl shapeCasts_S4096x64x2x32_S4096x4096
  :: StableHlo.reshape main_v247 main_v248 rfl shapeCasts_S4096x4096_S4096x32x2x64
  :: StableHlo.unary main_v248 main_v249 ((extractStridedSlice S4096x32x1x64 ![0, 0, 0, 0] · slices_S4096x32x2x64_S4096x32x1x64_0_0_0_0) : (⟨S4096x32x2x64, .f32⟩ : BufTy).Contents (Elt F) → (⟨S4096x32x1x64, .f32⟩ : BufTy).Contents (Elt F))
  :: StableHlo.reshape main_v249 main_v250 rfl shapeCasts_S4096x32x1x64_S4096x32x64
  :: StableHlo.unary main_v248 main_v251 ((extractStridedSlice S4096x32x1x64 ![0, 0, 1, 0] · slices_S4096x32x2x64_S4096x32x1x64_0_0_1_0) : (⟨S4096x32x2x64, .f32⟩ : BufTy).Contents (Elt F) → (⟨S4096x32x1x64, .f32⟩ : BufTy).Contents (Elt F))
  :: StableHlo.reshape main_v251 main_v252 rfl shapeCasts_S4096x32x1x64_S4096x32x64
  :: StableHlo.binary main_v250 main_v252 main_v253 (addf : (⟨S4096x32x64, .f32⟩ : BufTy).Contents (Elt F) → (⟨S4096x32x64, .f32⟩ : BufTy).Contents (Elt F) → (⟨S4096x32x64, .f32⟩ : BufTy).Contents (Elt F))
  :: StableHlo.binary main_v250 main_v252 main_v254 (subf : (⟨S4096x32x64, .f32⟩ : BufTy).Contents (Elt F) → (⟨S4096x32x64, .f32⟩ : BufTy).Contents (Elt F) → (⟨S4096x32x64, .f32⟩ : BufTy).Contents (Elt F))
  :: StableHlo.unary main_v253 main_v255 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.unary main_v254 main_v256 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.binary main_v255 main_v256 main_v257 ((fun a b => concatenate S4096x32x2x64 2 [⟨S4096x32x1x64, a⟩, ⟨S4096x32x1x64, b⟩] concatenates_S4096x32x1x64_S4096x32x1x64_S4096x32x2x64_d2) : (⟨S4096x32x1x64, .f32⟩ : BufTy).Contents (Elt F) → (⟨S4096x32x1x64, .f32⟩ : BufTy).Contents (Elt F) → (⟨S4096x32x2x64, .f32⟩ : BufTy).Contents (Elt F))
  :: StableHlo.reshape main_v257 main_v258 rfl shapeCasts_S4096x32x2x64_S4096x4096
  :: StableHlo.reshape main_v258 main_v259 rfl shapeCasts_S4096x4096_S4096x16x2x128
  :: StableHlo.unary main_v259 main_v260 ((extractStridedSlice S4096x16x1x128 ![0, 0, 0, 0] · slices_S4096x16x2x128_S4096x16x1x128_0_0_0_0) : (⟨S4096x16x2x128, .f32⟩ : BufTy).Contents (Elt F) → (⟨S4096x16x1x128, .f32⟩ : BufTy).Contents (Elt F))
  :: StableHlo.reshape main_v260 main_v261 rfl shapeCasts_S4096x16x1x128_S4096x16x128
  :: StableHlo.unary main_v259 main_v262 ((extractStridedSlice S4096x16x1x128 ![0, 0, 1, 0] · slices_S4096x16x2x128_S4096x16x1x128_0_0_1_0) : (⟨S4096x16x2x128, .f32⟩ : BufTy).Contents (Elt F) → (⟨S4096x16x1x128, .f32⟩ : BufTy).Contents (Elt F))
  :: StableHlo.reshape main_v262 main_v263 rfl shapeCasts_S4096x16x1x128_S4096x16x128
  :: StableHlo.binary main_v261 main_v263 main_v264 (addf : (⟨S4096x16x128, .f32⟩ : BufTy).Contents (Elt F) → (⟨S4096x16x128, .f32⟩ : BufTy).Contents (Elt F) → (⟨S4096x16x128, .f32⟩ : BufTy).Contents (Elt F))
  :: StableHlo.binary main_v261 main_v263 main_v265 (subf : (⟨S4096x16x128, .f32⟩ : BufTy).Contents (Elt F) → (⟨S4096x16x128, .f32⟩ : BufTy).Contents (Elt F) → (⟨S4096x16x128, .f32⟩ : BufTy).Contents (Elt F))
  :: StableHlo.unary main_v264 main_v266 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.unary main_v265 main_v267 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.binary main_v266 main_v267 main_v268 ((fun a b => concatenate S4096x16x2x128 2 [⟨S4096x16x1x128, a⟩, ⟨S4096x16x1x128, b⟩] concatenates_S4096x16x1x128_S4096x16x1x128_S4096x16x2x128_d2) : (⟨S4096x16x1x128, .f32⟩ : BufTy).Contents (Elt F) → (⟨S4096x16x1x128, .f32⟩ : BufTy).Contents (Elt F) → (⟨S4096x16x2x128, .f32⟩ : BufTy).Contents (Elt F))
  :: StableHlo.reshape main_v268 main_v269 rfl shapeCasts_S4096x16x2x128_S4096x4096
  :: StableHlo.reshape main_v269 main_v270 rfl shapeCasts_S4096x4096_S4096x8x2x256
  :: StableHlo.unary main_v270 main_v271 ((extractStridedSlice S4096x8x1x256 ![0, 0, 0, 0] · slices_S4096x8x2x256_S4096x8x1x256_0_0_0_0) : (⟨S4096x8x2x256, .f32⟩ : BufTy).Contents (Elt F) → (⟨S4096x8x1x256, .f32⟩ : BufTy).Contents (Elt F))
  :: StableHlo.reshape main_v271 main_v272 rfl shapeCasts_S4096x8x1x256_S4096x8x256
  :: StableHlo.unary main_v270 main_v273 ((extractStridedSlice S4096x8x1x256 ![0, 0, 1, 0] · slices_S4096x8x2x256_S4096x8x1x256_0_0_1_0) : (⟨S4096x8x2x256, .f32⟩ : BufTy).Contents (Elt F) → (⟨S4096x8x1x256, .f32⟩ : BufTy).Contents (Elt F))
  :: StableHlo.reshape main_v273 main_v274 rfl shapeCasts_S4096x8x1x256_S4096x8x256
  :: StableHlo.binary main_v272 main_v274 main_v275 (addf : (⟨S4096x8x256, .f32⟩ : BufTy).Contents (Elt F) → (⟨S4096x8x256, .f32⟩ : BufTy).Contents (Elt F) → (⟨S4096x8x256, .f32⟩ : BufTy).Contents (Elt F))
  :: StableHlo.binary main_v272 main_v274 main_v276 (subf : (⟨S4096x8x256, .f32⟩ : BufTy).Contents (Elt F) → (⟨S4096x8x256, .f32⟩ : BufTy).Contents (Elt F) → (⟨S4096x8x256, .f32⟩ : BufTy).Contents (Elt F))
  :: StableHlo.unary main_v275 main_v277 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.unary main_v276 main_v278 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.binary main_v277 main_v278 main_v279 ((fun a b => concatenate S4096x8x2x256 2 [⟨S4096x8x1x256, a⟩, ⟨S4096x8x1x256, b⟩] concatenates_S4096x8x1x256_S4096x8x1x256_S4096x8x2x256_d2) : (⟨S4096x8x1x256, .f32⟩ : BufTy).Contents (Elt F) → (⟨S4096x8x1x256, .f32⟩ : BufTy).Contents (Elt F) → (⟨S4096x8x2x256, .f32⟩ : BufTy).Contents (Elt F))
  :: StableHlo.reshape main_v279 main_v280 rfl shapeCasts_S4096x8x2x256_S4096x4096
  :: StableHlo.reshape main_v280 main_v281 rfl shapeCasts_S4096x4096_S4096x4x2x512
  :: StableHlo.unary main_v281 main_v282 ((extractStridedSlice S4096x4x1x512 ![0, 0, 0, 0] · slices_S4096x4x2x512_S4096x4x1x512_0_0_0_0) : (⟨S4096x4x2x512, .f32⟩ : BufTy).Contents (Elt F) → (⟨S4096x4x1x512, .f32⟩ : BufTy).Contents (Elt F))
  :: StableHlo.reshape main_v282 main_v283 rfl shapeCasts_S4096x4x1x512_S4096x4x512
  :: StableHlo.unary main_v281 main_v284 ((extractStridedSlice S4096x4x1x512 ![0, 0, 1, 0] · slices_S4096x4x2x512_S4096x4x1x512_0_0_1_0) : (⟨S4096x4x2x512, .f32⟩ : BufTy).Contents (Elt F) → (⟨S4096x4x1x512, .f32⟩ : BufTy).Contents (Elt F))
  :: StableHlo.reshape main_v284 main_v285 rfl shapeCasts_S4096x4x1x512_S4096x4x512
  :: StableHlo.binary main_v283 main_v285 main_v286 (addf : (⟨S4096x4x512, .f32⟩ : BufTy).Contents (Elt F) → (⟨S4096x4x512, .f32⟩ : BufTy).Contents (Elt F) → (⟨S4096x4x512, .f32⟩ : BufTy).Contents (Elt F))
  :: StableHlo.binary main_v283 main_v285 main_v287 (subf : (⟨S4096x4x512, .f32⟩ : BufTy).Contents (Elt F) → (⟨S4096x4x512, .f32⟩ : BufTy).Contents (Elt F) → (⟨S4096x4x512, .f32⟩ : BufTy).Contents (Elt F))
  :: StableHlo.unary main_v286 main_v288 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.unary main_v287 main_v289 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.binary main_v288 main_v289 main_v290 ((fun a b => concatenate S4096x4x2x512 2 [⟨S4096x4x1x512, a⟩, ⟨S4096x4x1x512, b⟩] concatenates_S4096x4x1x512_S4096x4x1x512_S4096x4x2x512_d2) : (⟨S4096x4x1x512, .f32⟩ : BufTy).Contents (Elt F) → (⟨S4096x4x1x512, .f32⟩ : BufTy).Contents (Elt F) → (⟨S4096x4x2x512, .f32⟩ : BufTy).Contents (Elt F))
  :: StableHlo.reshape main_v290 main_v291 rfl shapeCasts_S4096x4x2x512_S4096x4096
  :: StableHlo.reshape main_v291 main_v292 rfl shapeCasts_S4096x4096_S4096x2x2x1024
  :: StableHlo.unary main_v292 main_v293 ((extractStridedSlice S4096x2x1x1024 ![0, 0, 0, 0] · slices_S4096x2x2x1024_S4096x2x1x1024_0_0_0_0) : (⟨S4096x2x2x1024, .f32⟩ : BufTy).Contents (Elt F) → (⟨S4096x2x1x1024, .f32⟩ : BufTy).Contents (Elt F))
  :: StableHlo.reshape main_v293 main_v294 rfl shapeCasts_S4096x2x1x1024_S4096x2x1024
  :: StableHlo.unary main_v292 main_v295 ((extractStridedSlice S4096x2x1x1024 ![0, 0, 1, 0] · slices_S4096x2x2x1024_S4096x2x1x1024_0_0_1_0) : (⟨S4096x2x2x1024, .f32⟩ : BufTy).Contents (Elt F) → (⟨S4096x2x1x1024, .f32⟩ : BufTy).Contents (Elt F))
  :: StableHlo.reshape main_v295 main_v296 rfl shapeCasts_S4096x2x1x1024_S4096x2x1024
  :: StableHlo.binary main_v294 main_v296 main_v297 (addf : (⟨S4096x2x1024, .f32⟩ : BufTy).Contents (Elt F) → (⟨S4096x2x1024, .f32⟩ : BufTy).Contents (Elt F) → (⟨S4096x2x1024, .f32⟩ : BufTy).Contents (Elt F))
  :: StableHlo.binary main_v294 main_v296 main_v298 (subf : (⟨S4096x2x1024, .f32⟩ : BufTy).Contents (Elt F) → (⟨S4096x2x1024, .f32⟩ : BufTy).Contents (Elt F) → (⟨S4096x2x1024, .f32⟩ : BufTy).Contents (Elt F))
  :: StableHlo.unary main_v297 main_v299 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.unary main_v298 main_v300 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.binary main_v299 main_v300 main_v301 ((fun a b => concatenate S4096x2x2x1024 2 [⟨S4096x2x1x1024, a⟩, ⟨S4096x2x1x1024, b⟩] concatenates_S4096x2x1x1024_S4096x2x1x1024_S4096x2x2x1024_d2) : (⟨S4096x2x1x1024, .f32⟩ : BufTy).Contents (Elt F) → (⟨S4096x2x1x1024, .f32⟩ : BufTy).Contents (Elt F) → (⟨S4096x2x2x1024, .f32⟩ : BufTy).Contents (Elt F))
  :: StableHlo.reshape main_v301 main_v302 rfl shapeCasts_S4096x2x2x1024_S4096x4096
  :: StableHlo.reshape main_v302 main_v303 rfl shapeCasts_S4096x4096_S4096x1x2x2048
  :: StableHlo.unary main_v303 main_v304 ((extractStridedSlice S4096x1x1x2048 ![0, 0, 0, 0] · slices_S4096x1x2x2048_S4096x1x1x2048_0_0_0_0) : (⟨S4096x1x2x2048, .f32⟩ : BufTy).Contents (Elt F) → (⟨S4096x1x1x2048, .f32⟩ : BufTy).Contents (Elt F))
  :: StableHlo.reshape main_v304 main_v305 rfl shapeCasts_S4096x1x1x2048_S4096x1x2048
  :: StableHlo.unary main_v303 main_v306 ((extractStridedSlice S4096x1x1x2048 ![0, 0, 1, 0] · slices_S4096x1x2x2048_S4096x1x1x2048_0_0_1_0) : (⟨S4096x1x2x2048, .f32⟩ : BufTy).Contents (Elt F) → (⟨S4096x1x1x2048, .f32⟩ : BufTy).Contents (Elt F))
  :: StableHlo.reshape main_v306 main_v307 rfl shapeCasts_S4096x1x1x2048_S4096x1x2048
  :: StableHlo.binary main_v305 main_v307 main_v308 (addf : (⟨S4096x1x2048, .f32⟩ : BufTy).Contents (Elt F) → (⟨S4096x1x2048, .f32⟩ : BufTy).Contents (Elt F) → (⟨S4096x1x2048, .f32⟩ : BufTy).Contents (Elt F))
  :: StableHlo.binary main_v305 main_v307 main_v309 (subf : (⟨S4096x1x2048, .f32⟩ : BufTy).Contents (Elt F) → (⟨S4096x1x2048, .f32⟩ : BufTy).Contents (Elt F) → (⟨S4096x1x2048, .f32⟩ : BufTy).Contents (Elt F))
  :: StableHlo.unary main_v308 main_v310 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.unary main_v309 main_v311 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.binary main_v310 main_v311 main_v312 ((fun a b => concatenate S4096x1x2x2048 2 [⟨S4096x1x1x2048, a⟩, ⟨S4096x1x1x2048, b⟩] concatenates_S4096x1x1x2048_S4096x1x1x2048_S4096x1x2x2048_d2) : (⟨S4096x1x1x2048, .f32⟩ : BufTy).Contents (Elt F) → (⟨S4096x1x1x2048, .f32⟩ : BufTy).Contents (Elt F) → (⟨S4096x1x2x2048, .f32⟩ : BufTy).Contents (Elt F))
  :: StableHlo.reshape main_v312 main_v313 rfl shapeCasts_S4096x1x2x2048_S4096x4096
  :: StableHlo.nullary main_cst_13 (constant S_ .f32 0x3C800000#32)
  :: StableHlo.unary main_cst_13 main_v314 (broadcastInDim S4096x4096 ![] bcast_S_S4096x4096 : (⟨S_, .f32⟩ : BufTy).Contents (Elt F) → (⟨S4096x4096, .f32⟩ : BufTy).Contents (Elt F))
  :: StableHlo.binary main_v313 main_v314 main_v315 (mulf : (⟨S4096x4096, .f32⟩ : BufTy).Contents (Elt F) → (⟨S4096x4096, .f32⟩ : BufTy).Contents (Elt F) → (⟨S4096x4096, .f32⟩ : BufTy).Contents (Elt F))
  :: StableHlo.unary main_v315 main_v316 ((transpose S4096x4096 [1, 0] · transposes_S4096x4096_S4096x4096_1_0) : (⟨S4096x4096, .f32⟩ : BufTy).Contents (Elt F) → (⟨S4096x4096, .f32⟩ : BufTy).Contents (Elt F))
  :: StableHlo.unary main_arg2 main_v317 (broadcastInDim S4096x1 ![0] bcast_S4096_S4096x1_0 : (⟨S4096, .f32⟩ : BufTy).Contents (Elt F) → (⟨S4096x1, .f32⟩ : BufTy).Contents (Elt F))
  :: StableHlo.unary main_v317 main_v318 (broadcastInDim S4096x4096 ![0, 1] bcast_S4096x1_S4096x4096_0_1 : (⟨S4096x1, .f32⟩ : BufTy).Contents (Elt F) → (⟨S4096x4096, .f32⟩ : BufTy).Contents (Elt F))
  :: StableHlo.binary main_v316 main_v318 main_v319 (mulf : (⟨S4096x4096, .f32⟩ : BufTy).Contents (Elt F) → (⟨S4096x4096, .f32⟩ : BufTy).Contents (Elt F) → (⟨S4096x4096, .f32⟩ : BufTy).Contents (Elt F))
  :: StableHlo.reshape main_v319 main_v320 rfl shapeCasts_S4096x4096_S65536x256
  :: StableHlo.unary main_arg3 main_v321 (broadcastInDim S65536x256 ![0, 1] bcast_S65536x1_S65536x256_0_1 : (⟨S65536x1, .f32⟩ : BufTy).Contents (Elt F) → (⟨S65536x256, .f32⟩ : BufTy).Contents (Elt F))
  :: StableHlo.binary main_v320 main_v321 main_v322 (mulf : (⟨S65536x256, .f32⟩ : BufTy).Contents (Elt F) → (⟨S65536x256, .f32⟩ : BufTy).Contents (Elt F) → (⟨S65536x256, .f32⟩ : BufTy).Contents (Elt F))
  :: StableHlo.reshape main_v322 main_v323 rfl shapeCasts_S65536x256_S4096x4096
  :: [] )

/-- The reference's last statement: the product %324 = dot_general %arg0, %323, contracting axis 2 with axis 1. -/
abbrev lastOp : HloOp τ sig (Elt F) :=
  StableHlo.binary main_arg0 main_v323 main_v324 ((fun l r => Host.dotGeneral dot_S4x1024x4096_S4096x4096_S4x1024x4096_2_1_01_0_n_n none l r) : (⟨S4x1024x4096, .f32⟩ : BufTy).Contents (Elt F) → (⟨S4096x4096, .f32⟩ : BufTy).Contents (Elt F) → (⟨S4x1024x4096, .f32⟩ : BufTy).Contents (Elt F))

end Cert.ReferenceIdeal.RValue

end
-- ==== Proof.RefWin.lean ====
import proofs.«430907_j20306605375936_1_alg».proof.ReferenceIdeal
import proofs.«430907_j20306605375936_1_alg».proof.Proof.Gen.ReferenceIdeal
import Idealize.ShloMosaic.Lib.StableHlo.Run

set_option maxRecDepth 4796

noncomputable section

namespace Cert.ReferenceIdeal.RValue

open Idealize.ShloMosaic Idealize.ShloMosaic.TcCoe Idealize.SL.Sem Cert.ReferenceIdeal.Gen

variable {F : FTy → Type} [FloatOps F]

/-- 47 host operations of window 0, in order. -/
abbrev win0 : List (HloOp τ sig (Elt F)) :=
  ( StableHlo.nullary main_c_4 (constantI S_ 32 0#32)
  :: StableHlo.unary main_c_4 main_v8 (broadcastInDim S128 ![] bcast_S_S128 : (⟨S_, .i32⟩ : BufTy).Contents (Elt F) → (⟨S128, .i32⟩ : BufTy).Contents (Elt F))
  :: StableHlo.binary main_v1 main_v8 main_v9 (cmpi .slt : (⟨S128, .i32⟩ : BufTy).Contents (Elt F) → (⟨S128, .i32⟩ : BufTy).Contents (Elt F) → (⟨S128, .i1⟩ : BufTy).Contents (Elt F))
  :: StableHlo.nullary main_c_5 (constantI S_ 32 32#32)
  :: StableHlo.unary main_c_5 main_v10 (broadcastInDim S128 ![] bcast_S_S128 : (⟨S_, .i32⟩ : BufTy).Contents (Elt F) → (⟨S128, .i32⟩ : BufTy).Contents (Elt F))
  :: StableHlo.binary main_v1 main_v10 main_v11 (addi : (⟨S128, .i32⟩ : BufTy).Contents (Elt F) → (⟨S128, .i32⟩ : BufTy).Contents (Elt F) → (⟨S128, .i32⟩ : BufTy).Contents (Elt F))
  :: StableHlo.ternary main_v9 main_v11 main_v1 main_v12 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v12 main_v13 (broadcastInDim S128x1 ![0] bcast_S128_S128x1_0 : (⟨S128, .i32⟩ : BufTy).Contents (Elt F) → (⟨S128x1, .i32⟩ : BufTy).Contents (Elt F))
  :: StableHlo.binary main_arg5 main_v13 main_v14 ((fun x i => Host.gather gather_S65536x32_S128x1_S65536x128_0_1_n_n_1_1_655361 x i) : (⟨S65536x32, .i32⟩ : BufTy).Contents (Elt F) → (⟨S128x1, .i32⟩ : BufTy).Contents (Elt F) → (⟨S65536x128, .i32⟩ : BufTy).Contents (Elt F))
  :: StableHlo.unary main_v4 main_v15 (broadcastInDim S1x128 ![1] bcast_S128_S1x128_1 : (⟨S128, .i32⟩ : BufTy).Contents (Elt F) → (⟨S1x128, .i32⟩ : BufTy).Contents (Elt F))
  :: StableHlo.unary main_v15 main_v16 (broadcastInDim S65536x128 ![0, 1] bcast_S1x128_S65536x128_0_1 : (⟨S1x128, .i32⟩ : BufTy).Contents (Elt F) → (⟨S65536x128, .i32⟩ : BufTy).Contents (Elt F))
  :: StableHlo.binary main_v14 main_v16 main_v17 (Host.shli : (⟨S65536x128, .i32⟩ : BufTy).Contents (Elt F) → (⟨S65536x128, .i32⟩ : BufTy).Contents (Elt F) → (⟨S65536x128, .i32⟩ : BufTy).Contents (Elt F))
  :: StableHlo.nullary main_c_6 (constantI S_ 32 0#32)
  :: StableHlo.unary main_c_6 main_v18 (broadcastInDim S128 ![] bcast_S_S128 : (⟨S_, .i32⟩ : BufTy).Contents (Elt F) → (⟨S128, .i32⟩ : BufTy).Contents (Elt F))
  :: StableHlo.binary main_v7 main_v18 main_v19 (cmpi .slt : (⟨S128, .i32⟩ : BufTy).Contents (Elt F) → (⟨S128, .i32⟩ : BufTy).Contents (Elt F) → (⟨S128, .i1⟩ : BufTy).Contents (Elt F))
  :: StableHlo.nullary main_c_7 (constantI S_ 32 32#32)
  :: StableHlo.unary main_c_7 main_v20 (broadcastInDim S128 ![] bcast_S_S128 : (⟨S_, .i32⟩ : BufTy).Contents (Elt F) → (⟨S128, .i32⟩ : BufTy).Contents (Elt F))
  :: StableHlo.binary main_v7 main_v20 main_v21 (addi : (⟨S128, .i32⟩ : BufTy).Contents (Elt F) → (⟨S128, .i32⟩ : BufTy).Contents (Elt F) → (⟨S128, .i32⟩ : BufTy).Contents (Elt F))
  :: StableHlo.ternary main_v19 main_v21 main_v7 main_v22 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v22 main_v23 (broadcastInDim S128x1 ![0] bcast_S128_S128x1_0 : (⟨S128, .i32⟩ : BufTy).Contents (Elt F) → (⟨S128x1, .i32⟩ : BufTy).Contents (Elt F))
  :: StableHlo.binary main_arg5 main_v23 main_v24 ((fun x i => Host.gather gather_S65536x32_S128x1_S65536x128_0_1_n_n_1_1_655361 x i) : (⟨S65536x32, .i32⟩ : BufTy).Contents (Elt F) → (⟨S128x1, .i32⟩ : BufTy).Contents (Elt F) → (⟨S65536x128, .i32⟩ : BufTy).Contents (Elt F))
  :: StableHlo.nullary main_c_8 (constantI S_ 32 16#32)
  :: StableHlo.unary main_c_8 main_v25 (broadcastInDim S128 ![] bcast_S_S128 : (⟨S_, .i32⟩ : BufTy).Contents (Elt F) → (⟨S128, .i32⟩ : BufTy).Contents (Elt F))
  :: StableHlo.binary main_v25 main_v4 main_v26 (subi : (⟨S128, .i32⟩ : BufTy).Contents (Elt F) → (⟨S128, .i32⟩ : BufTy).Contents (Elt F) → (⟨S128, .i32⟩ : BufTy).Contents (Elt F))
  :: StableHlo.unary main_v26 main_v27 (broadcastInDim S1x128 ![1] bcast_S128_S1x128_1 : (⟨S128, .i32⟩ : BufTy).Contents (Elt F) → (⟨S1x128, .i32⟩ : BufTy).Contents (Elt F))
  :: StableHlo.unary main_v27 main_v28 (broadcastInDim S65536x128 ![0, 1] bcast_S1x128_S65536x128_0_1 : (⟨S1x128, .i32⟩ : BufTy).Contents (Elt F) → (⟨S65536x128, .i32⟩ : BufTy).Contents (Elt F))
  :: StableHlo.binary main_v24 main_v28 main_v29 (Host.shrsi : (⟨S65536x128, .i32⟩ : BufTy).Contents (Elt F) → (⟨S65536x128, .i32⟩ : BufTy).Contents (Elt F) → (⟨S65536x128, .i32⟩ : BufTy).Contents (Elt F))
  :: StableHlo.binary main_v17 main_v29 main_v30 (ori : (⟨S65536x128, .i32⟩ : BufTy).Contents (Elt F) → (⟨S65536x128, .i32⟩ : BufTy).Contents (Elt F) → (⟨S65536x128, .i32⟩ : BufTy).Contents (Elt F))
  :: StableHlo.nullary main_c_9 (constantI S_ 32 65535#32)
  :: StableHlo.unary main_c_9 main_v31 (broadcastInDim S65536x128 ![] bcast_S_S65536x128 : (⟨S_, .i32⟩ : BufTy).Contents (Elt F) → (⟨S65536x128, .i32⟩ : BufTy).Contents (Elt F))
  :: StableHlo.binary main_v30 main_v31 main_v32 (andi : (⟨S65536x128, .i32⟩ : BufTy).Contents (Elt F) → (⟨S65536x128, .i32⟩ : BufTy).Contents (Elt F) → (⟨S65536x128, .i32⟩ : BufTy).Contents (Elt F))
  :: StableHlo.nullary main_c_10 (constantI S_ 32 1023#32)
  :: StableHlo.unary main_c_10 main_v33 (broadcastInDim S65536x128 ![] bcast_S_S65536x128 : (⟨S_, .i32⟩ : BufTy).Contents (Elt F) → (⟨S65536x128, .i32⟩ : BufTy).Contents (Elt F))
  :: StableHlo.binary main_v32 main_v33 main_v34 (andi : (⟨S65536x128, .i32⟩ : BufTy).Contents (Elt F) → (⟨S65536x128, .i32⟩ : BufTy).Contents (Elt F) → (⟨S65536x128, .i32⟩ : BufTy).Contents (Elt F))
  :: StableHlo.nullary main_c_11 (constantI S_ 32 0#32)
  :: StableHlo.unary main_c_11 main_v35 (broadcastInDim S65536x128 ![] bcast_S_S65536x128 : (⟨S_, .i32⟩ : BufTy).Contents (Elt F) → (⟨S65536x128, .i32⟩ : BufTy).Contents (Elt F))
  :: StableHlo.binary main_v34 main_v35 main_v36 (cmpi .slt : (⟨S65536x128, .i32⟩ : BufTy).Contents (Elt F) → (⟨S65536x128, .i32⟩ : BufTy).Contents (Elt F) → (⟨S65536x128, .i1⟩ : BufTy).Contents (Elt F))
  :: StableHlo.nullary main_c_12 (constantI S_ 32 1024#32)
  :: StableHlo.unary main_c_12 main_v37 (broadcastInDim S65536x128 ![] bcast_S_S65536x128 : (⟨S_, .i32⟩ : BufTy).Contents (Elt F) → (⟨S65536x128, .i32⟩ : BufTy).Contents (Elt F))
  :: StableHlo.binary main_v34 main_v37 main_v38 (addi : (⟨S65536x128, .i32⟩ : BufTy).Contents (Elt F) → (⟨S65536x128, .i32⟩ : BufTy).Contents (Elt F) → (⟨S65536x128, .i32⟩ : BufTy).Contents (Elt F))
  :: StableHlo.ternary main_v36 main_v38 main_v34 main_v39 (select : (⟨S65536x128, .i1⟩ : BufTy).Contents (Elt F) → (⟨S65536x128, .i32⟩ : BufTy).Contents (Elt F) → (⟨S65536x128, .i32⟩ : BufTy).Contents (Elt F) → (⟨S65536x128, .i32⟩ : BufTy).Contents (Elt F))
  :: StableHlo.unary main_v39 main_v40 (broadcastInDim S65536x128x1 ![0, 1] bcast_S65536x128_S65536x128x1_0_1 : (⟨S65536x128, .i32⟩ : BufTy).Contents (Elt F) → (⟨S65536x128x1, .i32⟩ : BufTy).Contents (Elt F))
  :: StableHlo.binary main_arg4 main_v40 main_v41 ((fun x i => Host.gather gather_S1024x2_S65536x128x1_S65536x128x2_2_0_n_n_0_2_12 x i) : (⟨S1024x2, .f32⟩ : BufTy).Contents (Elt F) → (⟨S65536x128x1, .i32⟩ : BufTy).Contents (Elt F) → (⟨S65536x128x2, .f32⟩ : BufTy).Contents (Elt F))
  :: StableHlo.reshape main_v41 main_v42 rfl shapeCasts_S65536x128x2_S65536x256
  :: StableHlo.reshape main_v42 main_v43 rfl shapeCasts_S65536x256_S4096x4096
  :: StableHlo.reshape main_v43 main_v44 rfl shapeCasts_S4096x4096_S4096x2048x2x1
  :: StableHlo.unary main_v44 main_v45 ((extractStridedSlice S4096x2048x1x1 ![0, 0, 0, 0] · slices_S4096x2048x2x1_S4096x2048x1x1_0_0_0_0) : (⟨S4096x2048x2x1, .f32⟩ : BufTy).Contents (Elt F) → (⟨S4096x2048x1x1, .f32⟩ : BufTy).Contents (Elt F))
  :: [] )

/-- 60 host operations of window 1, in order. -/
abbrev win1 : List (HloOp τ sig (Elt F)) :=
  ( StableHlo.reshape main_v45 main_v46 rfl shapeCasts_S4096x2048x1x1_S4096x2048x1
  :: StableHlo.unary main_v44 main_v47 ((extractStridedSlice S4096x2048x1x1 ![0, 0, 1, 0] · slices_S4096x2048x2x1_S4096x2048x1x1_0_0_1_0) : (⟨S4096x2048x2x1, .f32⟩ : BufTy).Contents (Elt F) → (⟨S4096x2048x1x1, .f32⟩ : BufTy).Contents (Elt F))
  :: StableHlo.reshape main_v47 main_v48 rfl shapeCasts_S4096x2048x1x1_S4096x2048x1
  :: StableHlo.binary main_v46 main_v48 main_v49 (addf : (⟨S4096x2048x1, .f32⟩ : BufTy).Contents (Elt F) → (⟨S4096x2048x1, .f32⟩ : BufTy).Contents (Elt F) → (⟨S4096x2048x1, .f32⟩ : BufTy).Contents (Elt F))
  :: StableHlo.binary main_v46 main_v48 main_v50 (subf : (⟨S4096x2048x1, .f32⟩ : BufTy).Contents (Elt F) → (⟨S4096x2048x1, .f32⟩ : BufTy).Contents (Elt F) → (⟨S4096x2048x1, .f32⟩ : BufTy).Contents (Elt F))
  :: StableHlo.unary main_v49 main_v51 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.unary main_v50 main_v52 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.binary main_v51 main_v52 main_v53 ((fun a b => concatenate S4096x2048x2x1 2 [⟨S4096x2048x1x1, a⟩, ⟨S4096x2048x1x1, b⟩] concatenates_S4096x2048x1x1_S4096x2048x1x1_S4096x2048x2x1_d2) : (⟨S4096x2048x1x1, .f32⟩ : BufTy).Contents (Elt F) → (⟨S4096x2048x1x1, .f32⟩ : BufTy).Contents (Elt F) → (⟨S4096x2048x2x1, .f32⟩ : BufTy).Contents (Elt F))
  :: StableHlo.reshape main_v53 main_v54 rfl shapeCasts_S4096x2048x2x1_S4096x4096
  :: StableHlo.reshape main_v54 main_v55 rfl shapeCasts_S4096x4096_S4096x1024x2x2
  :: StableHlo.unary main_v55 main_v56 ((extractStridedSlice S4096x1024x1x2 ![0, 0, 0, 0] · slices_S4096x1024x2x2_S4096x1024x1x2_0_0_0_0) : (⟨S4096x1024x2x2, .f32⟩ : BufTy).Contents (Elt F) → (⟨S4096x1024x1x2, .f32⟩ : BufTy).Contents (Elt F))
  :: StableHlo.reshape main_v56 main_v57 rfl shapeCasts_S4096x1024x1x2_S4096x1024x2
  :: StableHlo.unary main_v55 main_v58 ((extractStridedSlice S4096x1024x1x2 ![0, 0, 1, 0] · slices_S4096x1024x2x2_S4096x1024x1x2_0_0_1_0) : (⟨S4096x1024x2x2, .f32⟩ : BufTy).Contents (Elt F) → (⟨S4096x1024x1x2, .f32⟩ : BufTy).Contents (Elt F))
  :: StableHlo.reshape main_v58 main_v59 rfl shapeCasts_S4096x1024x1x2_S4096x1024x2
  :: StableHlo.binary main_v57 main_v59 main_v60 (addf : (⟨S4096x1024x2, .f32⟩ : BufTy).Contents (Elt F) → (⟨S4096x1024x2, .f32⟩ : BufTy).Contents (Elt F) → (⟨S4096x1024x2, .f32⟩ : BufTy).Contents (Elt F))
  :: StableHlo.binary main_v57 main_v59 main_v61 (subf : (⟨S4096x1024x2, .f32⟩ : BufTy).Contents (Elt F) → (⟨S4096x1024x2, .f32⟩ : BufTy).Contents (Elt F) → (⟨S4096x1024x2, .f32⟩ : BufTy).Contents (Elt F))
  :: StableHlo.unary main_v60 main_v62 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.unary main_v61 main_v63 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.binary main_v62 main_v63 main_v64 ((fun a b => concatenate S4096x1024x2x2 2 [⟨S4096x1024x1x2, a⟩, ⟨S4096x1024x1x2, b⟩] concatenates_S4096x1024x1x2_S4096x1024x1x2_S4096x1024x2x2_d2) : (⟨S4096x1024x1x2, .f32⟩ : BufTy).Contents (Elt F) → (⟨S4096x1024x1x2, .f32⟩ : BufTy).Contents (Elt F) → (⟨S4096x1024x2x2, .f32⟩ : BufTy).Contents (Elt F))
  :: StableHlo.reshape main_v64 main_v65 rfl shapeCasts_S4096x1024x2x2_S4096x4096
  :: StableHlo.reshape main_v65 main_v66 rfl shapeCasts_S4096x4096_S4096x512x2x4
  :: StableHlo.unary main_v66 main_v67 ((extractStridedSlice S4096x512x1x4 ![0, 0, 0, 0] · slices_S4096x512x2x4_S4096x512x1x4_0_0_0_0) : (⟨S4096x512x2x4, .f32⟩ : BufTy).Contents (Elt F) → (⟨S4096x512x1x4, .f32⟩ : BufTy).Contents (Elt F))
  :: StableHlo.reshape main_v67 main_v68 rfl shapeCasts_S4096x512x1x4_S4096x512x4
  :: StableHlo.unary main_v66 main_v69 ((extractStridedSlice S4096x512x1x4 ![0, 0, 1, 0] · slices_S4096x512x2x4_S4096x512x1x4_0_0_1_0) : (⟨S4096x512x2x4, .f32⟩ : BufTy).Contents (Elt F) → (⟨S4096x512x1x4, .f32⟩ : BufTy).Contents (Elt F))
  :: StableHlo.reshape main_v69 main_v70 rfl shapeCasts_S4096x512x1x4_S4096x512x4
  :: StableHlo.binary main_v68 main_v70 main_v71 (addf : (⟨S4096x512x4, .f32⟩ : BufTy).Contents (Elt F) → (⟨S4096x512x4, .f32⟩ : BufTy).Contents (Elt F) → (⟨S4096x512x4, .f32⟩ : BufTy).Contents (Elt F))
  :: StableHlo.binary main_v68 main_v70 main_v72 (subf : (⟨S4096x512x4, .f32⟩ : BufTy).Contents (Elt F) → (⟨S4096x512x4, .f32⟩ : BufTy).Contents (Elt F) → (⟨S4096x512x4, .f32⟩ : BufTy).Contents (Elt F))
  :: StableHlo.unary main_v71 main_v73 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.unary main_v72 main_v74 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.binary main_v73 main_v74 main_v75 ((fun a b => concatenate S4096x512x2x4 2 [⟨S4096x512x1x4, a⟩, ⟨S4096x512x1x4, b⟩] concatenates_S4096x512x1x4_S4096x512x1x4_S4096x512x2x4_d2) : (⟨S4096x512x1x4, .f32⟩ : BufTy).Contents (Elt F) → (⟨S4096x512x1x4, .f32⟩ : BufTy).Contents (Elt F) → (⟨S4096x512x2x4, .f32⟩ : BufTy).Contents (Elt F))
  :: StableHlo.reshape main_v75 main_v76 rfl shapeCasts_S4096x512x2x4_S4096x4096
  :: StableHlo.reshape main_v76 main_v77 rfl shapeCasts_S4096x4096_S4096x256x2x8
  :: StableHlo.unary main_v77 main_v78 ((extractStridedSlice S4096x256x1x8 ![0, 0, 0, 0] · slices_S4096x256x2x8_S4096x256x1x8_0_0_0_0) : (⟨S4096x256x2x8, .f32⟩ : BufTy).Contents (Elt F) → (⟨S4096x256x1x8, .f32⟩ : BufTy).Contents (Elt F))
  :: StableHlo.reshape main_v78 main_v79 rfl shapeCasts_S4096x256x1x8_S4096x256x8
  :: StableHlo.unary main_v77 main_v80 ((extractStridedSlice S4096x256x1x8 ![0, 0, 1, 0] · slices_S4096x256x2x8_S4096x256x1x8_0_0_1_0) : (⟨S4096x256x2x8, .f32⟩ : BufTy).Contents (Elt F) → (⟨S4096x256x1x8, .f32⟩ : BufTy).Contents (Elt F))
  :: StableHlo.reshape main_v80 main_v81 rfl shapeCasts_S4096x256x1x8_S4096x256x8
  :: StableHlo.binary main_v79 main_v81 main_v82 (addf : (⟨S4096x256x8, .f32⟩ : BufTy).Contents (Elt F) → (⟨S4096x256x8, .f32⟩ : BufTy).Contents (Elt F) → (⟨S4096x256x8, .f32⟩ : BufTy).Contents (Elt F))
  :: StableHlo.binary main_v79 main_v81 main_v83 (subf : (⟨S4096x256x8, .f32⟩ : BufTy).Contents (Elt F) → (⟨S4096x256x8, .f32⟩ : BufTy).Contents (Elt F) → (⟨S4096x256x8, .f32⟩ : BufTy).Contents (Elt F))
  :: StableHlo.unary main_v82 main_v84 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.unary main_v83 main_v85 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.binary main_v84 main_v85 main_v86 ((fun a b => concatenate S4096x256x2x8 2 [⟨S4096x256x1x8, a⟩, ⟨S4096x256x1x8, b⟩] concatenates_S4096x256x1x8_S4096x256x1x8_S4096x256x2x8_d2) : (⟨S4096x256x1x8, .f32⟩ : BufTy).Contents (Elt F) → (⟨S4096x256x1x8, .f32⟩ : BufTy).Contents (Elt F) → (⟨S4096x256x2x8, .f32⟩ : BufTy).Contents (Elt F))
  :: StableHlo.reshape main_v86 main_v87 rfl shapeCasts_S4096x256x2x8_S4096x4096
  :: StableHlo.reshape main_v87 main_v88 rfl shapeCasts_S4096x4096_S4096x128x2x16
  :: StableHlo.unary main_v88 main_v89 ((extractStridedSlice S4096x128x1x16 ![0, 0, 0, 0] · slices_S4096x128x2x16_S4096x128x1x16_0_0_0_0) : (⟨S4096x128x2x16, .f32⟩ : BufTy).Contents (Elt F) → (⟨S4096x128x1x16, .f32⟩ : BufTy).Contents (Elt F))
  :: StableHlo.reshape main_v89 main_v90 rfl shapeCasts_S4096x128x1x16_S4096x128x16
  :: StableHlo.unary main_v88 main_v91 ((extractStridedSlice S4096x128x1x16 ![0, 0, 1, 0] · slices_S4096x128x2x16_S4096x128x1x16_0_0_1_0) : (⟨S4096x128x2x16, .f32⟩ : BufTy).Contents (Elt F) → (⟨S4096x128x1x16, .f32⟩ : BufTy).Contents (Elt F))
  :: StableHlo.reshape main_v91 main_v92 rfl shapeCasts_S4096x128x1x16_S4096x128x16
  :: StableHlo.binary main_v90 main_v92 main_v93 (addf : (⟨S4096x128x16, .f32⟩ : BufTy).Contents (Elt F) → (⟨S4096x128x16, .f32⟩ : BufTy).Contents (Elt F) → (⟨S4096x128x16, .f32⟩ : BufTy).Contents (Elt F))
  :: StableHlo.binary main_v90 main_v92 main_v94 (subf : (⟨S4096x128x16, .f32⟩ : BufTy).Contents (Elt F) → (⟨S4096x128x16, .f32⟩ : BufTy).Contents (Elt F) → (⟨S4096x128x16, .f32⟩ : BufTy).Contents (Elt F))
  :: StableHlo.unary main_v93 main_v95 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.unary main_v94 main_v96 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.binary main_v95 main_v96 main_v97 ((fun a b => concatenate S4096x128x2x16 2 [⟨S4096x128x1x16, a⟩, ⟨S4096x128x1x16, b⟩] concatenates_S4096x128x1x16_S4096x128x1x16_S4096x128x2x16_d2) : (⟨S4096x128x1x16, .f32⟩ : BufTy).Contents (Elt F) → (⟨S4096x128x1x16, .f32⟩ : BufTy).Contents (Elt F) → (⟨S4096x128x2x16, .f32⟩ : BufTy).Contents (Elt F))
  :: StableHlo.reshape main_v97 main_v98 rfl shapeCasts_S4096x128x2x16_S4096x4096
  :: StableHlo.reshape main_v98 main_v99 rfl shapeCasts_S4096x4096_S4096x64x2x32
  :: StableHlo.unary main_v99 main_v100 ((extractStridedSlice S4096x64x1x32 ![0, 0, 0, 0] · slices_S4096x64x2x32_S4096x64x1x32_0_0_0_0) : (⟨S4096x64x2x32, .f32⟩ : BufTy).Contents (Elt F) → (⟨S4096x64x1x32, .f32⟩ : BufTy).Contents (Elt F))
  :: StableHlo.reshape main_v100 main_v101 rfl shapeCasts_S4096x64x1x32_S4096x64x32
  :: StableHlo.unary main_v99 main_v102 ((extractStridedSlice S4096x64x1x32 ![0, 0, 1, 0] · slices_S4096x64x2x32_S4096x64x1x32_0_0_1_0) : (⟨S4096x64x2x32, .f32⟩ : BufTy).Contents (Elt F) → (⟨S4096x64x1x32, .f32⟩ : BufTy).Contents (Elt F))
  :: StableHlo.reshape main_v102 main_v103 rfl shapeCasts_S4096x64x1x32_S4096x64x32
  :: StableHlo.binary main_v101 main_v103 main_v104 (addf : (⟨S4096x64x32, .f32⟩ : BufTy).Contents (Elt F) → (⟨S4096x64x32, .f32⟩ : BufTy).Contents (Elt F) → (⟨S4096x64x32, .f32⟩ : BufTy).Contents (Elt F))
  :: StableHlo.binary main_v101 main_v103 main_v105 (subf : (⟨S4096x64x32, .f32⟩ : BufTy).Contents (Elt F) → (⟨S4096x64x32, .f32⟩ : BufTy).Contents (Elt F) → (⟨S4096x64x32, .f32⟩ : BufTy).Contents (Elt F))
  :: [] )

/-- 60 host operations of window 2, in order. -/
abbrev win2 : List (HloOp τ sig (Elt F)) :=
  ( StableHlo.unary main_v104 main_v106 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.unary main_v105 main_v107 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.binary main_v106 main_v107 main_v108 ((fun a b => concatenate S4096x64x2x32 2 [⟨S4096x64x1x32, a⟩, ⟨S4096x64x1x32, b⟩] concatenates_S4096x64x1x32_S4096x64x1x32_S4096x64x2x32_d2) : (⟨S4096x64x1x32, .f32⟩ : BufTy).Contents (Elt F) → (⟨S4096x64x1x32, .f32⟩ : BufTy).Contents (Elt F) → (⟨S4096x64x2x32, .f32⟩ : BufTy).Contents (Elt F))
  :: StableHlo.reshape main_v108 main_v109 rfl shapeCasts_S4096x64x2x32_S4096x4096
  :: StableHlo.reshape main_v109 main_v110 rfl shapeCasts_S4096x4096_S4096x32x2x64
  :: StableHlo.unary main_v110 main_v111 ((extractStridedSlice S4096x32x1x64 ![0, 0, 0, 0] · slices_S4096x32x2x64_S4096x32x1x64_0_0_0_0) : (⟨S4096x32x2x64, .f32⟩ : BufTy).Contents (Elt F) → (⟨S4096x32x1x64, .f32⟩ : BufTy).Contents (Elt F))
  :: StableHlo.reshape main_v111 main_v112 rfl shapeCasts_S4096x32x1x64_S4096x32x64
  :: StableHlo.unary main_v110 main_v113 ((extractStridedSlice S4096x32x1x64 ![0, 0, 1, 0] · slices_S4096x32x2x64_S4096x32x1x64_0_0_1_0) : (⟨S4096x32x2x64, .f32⟩ : BufTy).Contents (Elt F) → (⟨S4096x32x1x64, .f32⟩ : BufTy).Contents (Elt F))
  :: StableHlo.reshape main_v113 main_v114 rfl shapeCasts_S4096x32x1x64_S4096x32x64
  :: StableHlo.binary main_v112 main_v114 main_v115 (addf : (⟨S4096x32x64, .f32⟩ : BufTy).Contents (Elt F) → (⟨S4096x32x64, .f32⟩ : BufTy).Contents (Elt F) → (⟨S4096x32x64, .f32⟩ : BufTy).Contents (Elt F))
  :: StableHlo.binary main_v112 main_v114 main_v116 (subf : (⟨S4096x32x64, .f32⟩ : BufTy).Contents (Elt F) → (⟨S4096x32x64, .f32⟩ : BufTy).Contents (Elt F) → (⟨S4096x32x64, .f32⟩ : BufTy).Contents (Elt F))
  :: StableHlo.unary main_v115 main_v117 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.unary main_v116 main_v118 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.binary main_v117 main_v118 main_v119 ((fun a b => concatenate S4096x32x2x64 2 [⟨S4096x32x1x64, a⟩, ⟨S4096x32x1x64, b⟩] concatenates_S4096x32x1x64_S4096x32x1x64_S4096x32x2x64_d2) : (⟨S4096x32x1x64, .f32⟩ : BufTy).Contents (Elt F) → (⟨S4096x32x1x64, .f32⟩ : BufTy).Contents (Elt F) → (⟨S4096x32x2x64, .f32⟩ : BufTy).Contents (Elt F))
  :: StableHlo.reshape main_v119 main_v120 rfl shapeCasts_S4096x32x2x64_S4096x4096
  :: StableHlo.reshape main_v120 main_v121 rfl shapeCasts_S4096x4096_S4096x16x2x128
  :: StableHlo.unary main_v121 main_v122 ((extractStridedSlice S4096x16x1x128 ![0, 0, 0, 0] · slices_S4096x16x2x128_S4096x16x1x128_0_0_0_0) : (⟨S4096x16x2x128, .f32⟩ : BufTy).Contents (Elt F) → (⟨S4096x16x1x128, .f32⟩ : BufTy).Contents (Elt F))
  :: StableHlo.reshape main_v122 main_v123 rfl shapeCasts_S4096x16x1x128_S4096x16x128
  :: StableHlo.unary main_v121 main_v124 ((extractStridedSlice S4096x16x1x128 ![0, 0, 1, 0] · slices_S4096x16x2x128_S4096x16x1x128_0_0_1_0) : (⟨S4096x16x2x128, .f32⟩ : BufTy).Contents (Elt F) → (⟨S4096x16x1x128, .f32⟩ : BufTy).Contents (Elt F))
  :: StableHlo.reshape main_v124 main_v125 rfl shapeCasts_S4096x16x1x128_S4096x16x128
  :: StableHlo.binary main_v123 main_v125 main_v126 (addf : (⟨S4096x16x128, .f32⟩ : BufTy).Contents (Elt F) → (⟨S4096x16x128, .f32⟩ : BufTy).Contents (Elt F) → (⟨S4096x16x128, .f32⟩ : BufTy).Contents (Elt F))
  :: StableHlo.binary main_v123 main_v125 main_v127 (subf : (⟨S4096x16x128, .f32⟩ : BufTy).Contents (Elt F) → (⟨S4096x16x128, .f32⟩ : BufTy).Contents (Elt F) → (⟨S4096x16x128, .f32⟩ : BufTy).Contents (Elt F))
  :: StableHlo.unary main_v126 main_v128 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.unary main_v127 main_v129 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.binary main_v128 main_v129 main_v130 ((fun a b => concatenate S4096x16x2x128 2 [⟨S4096x16x1x128, a⟩, ⟨S4096x16x1x128, b⟩] concatenates_S4096x16x1x128_S4096x16x1x128_S4096x16x2x128_d2) : (⟨S4096x16x1x128, .f32⟩ : BufTy).Contents (Elt F) → (⟨S4096x16x1x128, .f32⟩ : BufTy).Contents (Elt F) → (⟨S4096x16x2x128, .f32⟩ : BufTy).Contents (Elt F))
  :: StableHlo.reshape main_v130 main_v131 rfl shapeCasts_S4096x16x2x128_S4096x4096
  :: StableHlo.reshape main_v131 main_v132 rfl shapeCasts_S4096x4096_S4096x8x2x256
  :: StableHlo.unary main_v132 main_v133 ((extractStridedSlice S4096x8x1x256 ![0, 0, 0, 0] · slices_S4096x8x2x256_S4096x8x1x256_0_0_0_0) : (⟨S4096x8x2x256, .f32⟩ : BufTy).Contents (Elt F) → (⟨S4096x8x1x256, .f32⟩ : BufTy).Contents (Elt F))
  :: StableHlo.reshape main_v133 main_v134 rfl shapeCasts_S4096x8x1x256_S4096x8x256
  :: StableHlo.unary main_v132 main_v135 ((extractStridedSlice S4096x8x1x256 ![0, 0, 1, 0] · slices_S4096x8x2x256_S4096x8x1x256_0_0_1_0) : (⟨S4096x8x2x256, .f32⟩ : BufTy).Contents (Elt F) → (⟨S4096x8x1x256, .f32⟩ : BufTy).Contents (Elt F))
  :: StableHlo.reshape main_v135 main_v136 rfl shapeCasts_S4096x8x1x256_S4096x8x256
  :: StableHlo.binary main_v134 main_v136 main_v137 (addf : (⟨S4096x8x256, .f32⟩ : BufTy).Contents (Elt F) → (⟨S4096x8x256, .f32⟩ : BufTy).Contents (Elt F) → (⟨S4096x8x256, .f32⟩ : BufTy).Contents (Elt F))
  :: StableHlo.binary main_v134 main_v136 main_v138 (subf : (⟨S4096x8x256, .f32⟩ : BufTy).Contents (Elt F) → (⟨S4096x8x256, .f32⟩ : BufTy).Contents (Elt F) → (⟨S4096x8x256, .f32⟩ : BufTy).Contents (Elt F))
  :: StableHlo.unary main_v137 main_v139 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.unary main_v138 main_v140 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.binary main_v139 main_v140 main_v141 ((fun a b => concatenate S4096x8x2x256 2 [⟨S4096x8x1x256, a⟩, ⟨S4096x8x1x256, b⟩] concatenates_S4096x8x1x256_S4096x8x1x256_S4096x8x2x256_d2) : (⟨S4096x8x1x256, .f32⟩ : BufTy).Contents (Elt F) → (⟨S4096x8x1x256, .f32⟩ : BufTy).Contents (Elt F) → (⟨S4096x8x2x256, .f32⟩ : BufTy).Contents (Elt F))
  :: StableHlo.reshape main_v141 main_v142 rfl shapeCasts_S4096x8x2x256_S4096x4096
  :: StableHlo.reshape main_v142 main_v143 rfl shapeCasts_S4096x4096_S4096x4x2x512
  :: StableHlo.unary main_v143 main_v144 ((extractStridedSlice S4096x4x1x512 ![0, 0, 0, 0] · slices_S4096x4x2x512_S4096x4x1x512_0_0_0_0) : (⟨S4096x4x2x512, .f32⟩ : BufTy).Contents (Elt F) → (⟨S4096x4x1x512, .f32⟩ : BufTy).Contents (Elt F))
  :: StableHlo.reshape main_v144 main_v145 rfl shapeCasts_S4096x4x1x512_S4096x4x512
  :: StableHlo.unary main_v143 main_v146 ((extractStridedSlice S4096x4x1x512 ![0, 0, 1, 0] · slices_S4096x4x2x512_S4096x4x1x512_0_0_1_0) : (⟨S4096x4x2x512, .f32⟩ : BufTy).Contents (Elt F) → (⟨S4096x4x1x512, .f32⟩ : BufTy).Contents (Elt F))
  :: StableHlo.reshape main_v146 main_v147 rfl shapeCasts_S4096x4x1x512_S4096x4x512
  :: StableHlo.binary main_v145 main_v147 main_v148 (addf : (⟨S4096x4x512, .f32⟩ : BufTy).Contents (Elt F) → (⟨S4096x4x512, .f32⟩ : BufTy).Contents (Elt F) → (⟨S4096x4x512, .f32⟩ : BufTy).Contents (Elt F))
  :: StableHlo.binary main_v145 main_v147 main_v149 (subf : (⟨S4096x4x512, .f32⟩ : BufTy).Contents (Elt F) → (⟨S4096x4x512, .f32⟩ : BufTy).Contents (Elt F) → (⟨S4096x4x512, .f32⟩ : BufTy).Contents (Elt F))
  :: StableHlo.unary main_v148 main_v150 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.unary main_v149 main_v151 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.binary main_v150 main_v151 main_v152 ((fun a b => concatenate S4096x4x2x512 2 [⟨S4096x4x1x512, a⟩, ⟨S4096x4x1x512, b⟩] concatenates_S4096x4x1x512_S4096x4x1x512_S4096x4x2x512_d2) : (⟨S4096x4x1x512, .f32⟩ : BufTy).Contents (Elt F) → (⟨S4096x4x1x512, .f32⟩ : BufTy).Contents (Elt F) → (⟨S4096x4x2x512, .f32⟩ : BufTy).Contents (Elt F))
  :: StableHlo.reshape main_v152 main_v153 rfl shapeCasts_S4096x4x2x512_S4096x4096
  :: StableHlo.reshape main_v153 main_v154 rfl shapeCasts_S4096x4096_S4096x2x2x1024
  :: StableHlo.unary main_v154 main_v155 ((extractStridedSlice S4096x2x1x1024 ![0, 0, 0, 0] · slices_S4096x2x2x1024_S4096x2x1x1024_0_0_0_0) : (⟨S4096x2x2x1024, .f32⟩ : BufTy).Contents (Elt F) → (⟨S4096x2x1x1024, .f32⟩ : BufTy).Contents (Elt F))
  :: StableHlo.reshape main_v155 main_v156 rfl shapeCasts_S4096x2x1x1024_S4096x2x1024
  :: StableHlo.unary main_v154 main_v157 ((extractStridedSlice S4096x2x1x1024 ![0, 0, 1, 0] · slices_S4096x2x2x1024_S4096x2x1x1024_0_0_1_0) : (⟨S4096x2x2x1024, .f32⟩ : BufTy).Contents (Elt F) → (⟨S4096x2x1x1024, .f32⟩ : BufTy).Contents (Elt F))
  :: StableHlo.reshape main_v157 main_v158 rfl shapeCasts_S4096x2x1x1024_S4096x2x1024
  :: StableHlo.binary main_v156 main_v158 main_v159 (addf : (⟨S4096x2x1024, .f32⟩ : BufTy).Contents (Elt F) → (⟨S4096x2x1024, .f32⟩ : BufTy).Contents (Elt F) → (⟨S4096x2x1024, .f32⟩ : BufTy).Contents (Elt F))
  :: StableHlo.binary main_v156 main_v158 main_v160 (subf : (⟨S4096x2x1024, .f32⟩ : BufTy).Contents (Elt F) → (⟨S4096x2x1024, .f32⟩ : BufTy).Contents (Elt F) → (⟨S4096x2x1024, .f32⟩ : BufTy).Contents (Elt F))
  :: StableHlo.unary main_v159 main_v161 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.unary main_v160 main_v162 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.binary main_v161 main_v162 main_v163 ((fun a b => concatenate S4096x2x2x1024 2 [⟨S4096x2x1x1024, a⟩, ⟨S4096x2x1x1024, b⟩] concatenates_S4096x2x1x1024_S4096x2x1x1024_S4096x2x2x1024_d2) : (⟨S4096x2x1x1024, .f32⟩ : BufTy).Contents (Elt F) → (⟨S4096x2x1x1024, .f32⟩ : BufTy).Contents (Elt F) → (⟨S4096x2x2x1024, .f32⟩ : BufTy).Contents (Elt F))
  :: StableHlo.reshape main_v163 main_v164 rfl shapeCasts_S4096x2x2x1024_S4096x4096
  :: StableHlo.reshape main_v164 main_v165 rfl shapeCasts_S4096x4096_S4096x1x2x2048
  :: [] )

/-- 60 host operations of window 3, in order. -/
abbrev win3 : List (HloOp τ sig (Elt F)) :=
  ( StableHlo.unary main_v165 main_v166 ((extractStridedSlice S4096x1x1x2048 ![0, 0, 0, 0] · slices_S4096x1x2x2048_S4096x1x1x2048_0_0_0_0) : (⟨S4096x1x2x2048, .f32⟩ : BufTy).Contents (Elt F) → (⟨S4096x1x1x2048, .f32⟩ : BufTy).Contents (Elt F))
  :: StableHlo.reshape main_v166 main_v167 rfl shapeCasts_S4096x1x1x2048_S4096x1x2048
  :: StableHlo.unary main_v165 main_v168 ((extractStridedSlice S4096x1x1x2048 ![0, 0, 1, 0] · slices_S4096x1x2x2048_S4096x1x1x2048_0_0_1_0) : (⟨S4096x1x2x2048, .f32⟩ : BufTy).Contents (Elt F) → (⟨S4096x1x1x2048, .f32⟩ : BufTy).Contents (Elt F))
  :: StableHlo.reshape main_v168 main_v169 rfl shapeCasts_S4096x1x1x2048_S4096x1x2048
  :: StableHlo.binary main_v167 main_v169 main_v170 (addf : (⟨S4096x1x2048, .f32⟩ : BufTy).Contents (Elt F) → (⟨S4096x1x2048, .f32⟩ : BufTy).Contents (Elt F) → (⟨S4096x1x2048, .f32⟩ : BufTy).Contents (Elt F))
  :: StableHlo.binary main_v167 main_v169 main_v171 (subf : (⟨S4096x1x2048, .f32⟩ : BufTy).Contents (Elt F) → (⟨S4096x1x2048, .f32⟩ : BufTy).Contents (Elt F) → (⟨S4096x1x2048, .f32⟩ : BufTy).Contents (Elt F))
  :: StableHlo.unary main_v170 main_v172 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.unary main_v171 main_v173 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.binary main_v172 main_v173 main_v174 ((fun a b => concatenate S4096x1x2x2048 2 [⟨S4096x1x1x2048, a⟩, ⟨S4096x1x1x2048, b⟩] concatenates_S4096x1x1x2048_S4096x1x1x2048_S4096x1x2x2048_d2) : (⟨S4096x1x1x2048, .f32⟩ : BufTy).Contents (Elt F) → (⟨S4096x1x1x2048, .f32⟩ : BufTy).Contents (Elt F) → (⟨S4096x1x2x2048, .f32⟩ : BufTy).Contents (Elt F))
  :: StableHlo.reshape main_v174 main_v175 rfl shapeCasts_S4096x1x2x2048_S4096x4096
  :: StableHlo.nullary main_cst (constant S_ .f32 0x3C800000#32)
  :: StableHlo.unary main_cst main_v176 (broadcastInDim S4096x4096 ![] bcast_S_S4096x4096 : (⟨S_, .f32⟩ : BufTy).Contents (Elt F) → (⟨S4096x4096, .f32⟩ : BufTy).Contents (Elt F))
  :: StableHlo.binary main_v175 main_v176 main_v177 (mulf : (⟨S4096x4096, .f32⟩ : BufTy).Contents (Elt F) → (⟨S4096x4096, .f32⟩ : BufTy).Contents (Elt F) → (⟨S4096x4096, .f32⟩ : BufTy).Contents (Elt F))
  :: StableHlo.unary main_arg1 main_v178 (broadcastInDim S1x4096 ![1] bcast_S4096_S1x4096_1 : (⟨S4096, .f32⟩ : BufTy).Contents (Elt F) → (⟨S1x4096, .f32⟩ : BufTy).Contents (Elt F))
  :: StableHlo.unary main_v178 main_v179 (broadcastInDim S4096x4096 ![0, 1] bcast_S1x4096_S4096x4096_0_1 : (⟨S1x4096, .f32⟩ : BufTy).Contents (Elt F) → (⟨S4096x4096, .f32⟩ : BufTy).Contents (Elt F))
  :: StableHlo.binary main_v177 main_v179 main_v180 (mulf : (⟨S4096x4096, .f32⟩ : BufTy).Contents (Elt F) → (⟨S4096x4096, .f32⟩ : BufTy).Contents (Elt F) → (⟨S4096x4096, .f32⟩ : BufTy).Contents (Elt F))
  :: StableHlo.unary main_v180 main_v181 ((transpose S4096x4096 [1, 0] · transposes_S4096x4096_S4096x4096_1_0) : (⟨S4096x4096, .f32⟩ : BufTy).Contents (Elt F) → (⟨S4096x4096, .f32⟩ : BufTy).Contents (Elt F))
  :: StableHlo.reshape main_v181 main_v182 rfl shapeCasts_S4096x4096_S4096x2048x2x1
  :: StableHlo.unary main_v182 main_v183 ((extractStridedSlice S4096x2048x1x1 ![0, 0, 0, 0] · slices_S4096x2048x2x1_S4096x2048x1x1_0_0_0_0) : (⟨S4096x2048x2x1, .f32⟩ : BufTy).Contents (Elt F) → (⟨S4096x2048x1x1, .f32⟩ : BufTy).Contents (Elt F))
  :: StableHlo.reshape main_v183 main_v184 rfl shapeCasts_S4096x2048x1x1_S4096x2048x1
  :: StableHlo.unary main_v182 main_v185 ((extractStridedSlice S4096x2048x1x1 ![0, 0, 1, 0] · slices_S4096x2048x2x1_S4096x2048x1x1_0_0_1_0) : (⟨S4096x2048x2x1, .f32⟩ : BufTy).Contents (Elt F) → (⟨S4096x2048x1x1, .f32⟩ : BufTy).Contents (Elt F))
  :: StableHlo.reshape main_v185 main_v186 rfl shapeCasts_S4096x2048x1x1_S4096x2048x1
  :: StableHlo.binary main_v184 main_v186 main_v187 (addf : (⟨S4096x2048x1, .f32⟩ : BufTy).Contents (Elt F) → (⟨S4096x2048x1, .f32⟩ : BufTy).Contents (Elt F) → (⟨S4096x2048x1, .f32⟩ : BufTy).Contents (Elt F))
  :: StableHlo.binary main_v184 main_v186 main_v188 (subf : (⟨S4096x2048x1, .f32⟩ : BufTy).Contents (Elt F) → (⟨S4096x2048x1, .f32⟩ : BufTy).Contents (Elt F) → (⟨S4096x2048x1, .f32⟩ : BufTy).Contents (Elt F))
  :: StableHlo.unary main_v187 main_v189 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.unary main_v188 main_v190 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.binary main_v189 main_v190 main_v191 ((fun a b => concatenate S4096x2048x2x1 2 [⟨S4096x2048x1x1, a⟩, ⟨S4096x2048x1x1, b⟩] concatenates_S4096x2048x1x1_S4096x2048x1x1_S4096x2048x2x1_d2) : (⟨S4096x2048x1x1, .f32⟩ : BufTy).Contents (Elt F) → (⟨S4096x2048x1x1, .f32⟩ : BufTy).Contents (Elt F) → (⟨S4096x2048x2x1, .f32⟩ : BufTy).Contents (Elt F))
  :: StableHlo.reshape main_v191 main_v192 rfl shapeCasts_S4096x2048x2x1_S4096x4096
  :: StableHlo.reshape main_v192 main_v193 rfl shapeCasts_S4096x4096_S4096x1024x2x2
  :: StableHlo.unary main_v193 main_v194 ((extractStridedSlice S4096x1024x1x2 ![0, 0, 0, 0] · slices_S4096x1024x2x2_S4096x1024x1x2_0_0_0_0) : (⟨S4096x1024x2x2, .f32⟩ : BufTy).Contents (Elt F) → (⟨S4096x1024x1x2, .f32⟩ : BufTy).Contents (Elt F))
  :: StableHlo.reshape main_v194 main_v195 rfl shapeCasts_S4096x1024x1x2_S4096x1024x2
  :: StableHlo.unary main_v193 main_v196 ((extractStridedSlice S4096x1024x1x2 ![0, 0, 1, 0] · slices_S4096x1024x2x2_S4096x1024x1x2_0_0_1_0) : (⟨S4096x1024x2x2, .f32⟩ : BufTy).Contents (Elt F) → (⟨S4096x1024x1x2, .f32⟩ : BufTy).Contents (Elt F))
  :: StableHlo.reshape main_v196 main_v197 rfl shapeCasts_S4096x1024x1x2_S4096x1024x2
  :: StableHlo.binary main_v195 main_v197 main_v198 (addf : (⟨S4096x1024x2, .f32⟩ : BufTy).Contents (Elt F) → (⟨S4096x1024x2, .f32⟩ : BufTy).Contents (Elt F) → (⟨S4096x1024x2, .f32⟩ : BufTy).Contents (Elt F))
  :: StableHlo.binary main_v195 main_v197 main_v199 (subf : (⟨S4096x1024x2, .f32⟩ : BufTy).Contents (Elt F) → (⟨S4096x1024x2, .f32⟩ : BufTy).Contents (Elt F) → (⟨S4096x1024x2, .f32⟩ : BufTy).Contents (Elt F))
  :: StableHlo.unary main_v198 main_v200 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.unary main_v199 main_v201 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.binary main_v200 main_v201 main_v202 ((fun a b => concatenate S4096x1024x2x2 2 [⟨S4096x1024x1x2, a⟩, ⟨S4096x1024x1x2, b⟩] concatenates_S4096x1024x1x2_S4096x1024x1x2_S4096x1024x2x2_d2) : (⟨S4096x1024x1x2, .f32⟩ : BufTy).Contents (Elt F) → (⟨S4096x1024x1x2, .f32⟩ : BufTy).Contents (Elt F) → (⟨S4096x1024x2x2, .f32⟩ : BufTy).Contents (Elt F))
  :: StableHlo.reshape main_v202 main_v203 rfl shapeCasts_S4096x1024x2x2_S4096x4096
  :: StableHlo.reshape main_v203 main_v204 rfl shapeCasts_S4096x4096_S4096x512x2x4
  :: StableHlo.unary main_v204 main_v205 ((extractStridedSlice S4096x512x1x4 ![0, 0, 0, 0] · slices_S4096x512x2x4_S4096x512x1x4_0_0_0_0) : (⟨S4096x512x2x4, .f32⟩ : BufTy).Contents (Elt F) → (⟨S4096x512x1x4, .f32⟩ : BufTy).Contents (Elt F))
  :: StableHlo.reshape main_v205 main_v206 rfl shapeCasts_S4096x512x1x4_S4096x512x4
  :: StableHlo.unary main_v204 main_v207 ((extractStridedSlice S4096x512x1x4 ![0, 0, 1, 0] · slices_S4096x512x2x4_S4096x512x1x4_0_0_1_0) : (⟨S4096x512x2x4, .f32⟩ : BufTy).Contents (Elt F) → (⟨S4096x512x1x4, .f32⟩ : BufTy).Contents (Elt F))
  :: StableHlo.reshape main_v207 main_v208 rfl shapeCasts_S4096x512x1x4_S4096x512x4
  :: StableHlo.binary main_v206 main_v208 main_v209 (addf : (⟨S4096x512x4, .f32⟩ : BufTy).Contents (Elt F) → (⟨S4096x512x4, .f32⟩ : BufTy).Contents (Elt F) → (⟨S4096x512x4, .f32⟩ : BufTy).Contents (Elt F))
  :: StableHlo.binary main_v206 main_v208 main_v210 (subf : (⟨S4096x512x4, .f32⟩ : BufTy).Contents (Elt F) → (⟨S4096x512x4, .f32⟩ : BufTy).Contents (Elt F) → (⟨S4096x512x4, .f32⟩ : BufTy).Contents (Elt F))
  :: StableHlo.unary main_v209 main_v211 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.unary main_v210 main_v212 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.binary main_v211 main_v212 main_v213 ((fun a b => concatenate S4096x512x2x4 2 [⟨S4096x512x1x4, a⟩, ⟨S4096x512x1x4, b⟩] concatenates_S4096x512x1x4_S4096x512x1x4_S4096x512x2x4_d2) : (⟨S4096x512x1x4, .f32⟩ : BufTy).Contents (Elt F) → (⟨S4096x512x1x4, .f32⟩ : BufTy).Contents (Elt F) → (⟨S4096x512x2x4, .f32⟩ : BufTy).Contents (Elt F))
  :: StableHlo.reshape main_v213 main_v214 rfl shapeCasts_S4096x512x2x4_S4096x4096
  :: StableHlo.reshape main_v214 main_v215 rfl shapeCasts_S4096x4096_S4096x256x2x8
  :: StableHlo.unary main_v215 main_v216 ((extractStridedSlice S4096x256x1x8 ![0, 0, 0, 0] · slices_S4096x256x2x8_S4096x256x1x8_0_0_0_0) : (⟨S4096x256x2x8, .f32⟩ : BufTy).Contents (Elt F) → (⟨S4096x256x1x8, .f32⟩ : BufTy).Contents (Elt F))
  :: StableHlo.reshape main_v216 main_v217 rfl shapeCasts_S4096x256x1x8_S4096x256x8
  :: StableHlo.unary main_v215 main_v218 ((extractStridedSlice S4096x256x1x8 ![0, 0, 1, 0] · slices_S4096x256x2x8_S4096x256x1x8_0_0_1_0) : (⟨S4096x256x2x8, .f32⟩ : BufTy).Contents (Elt F) → (⟨S4096x256x1x8, .f32⟩ : BufTy).Contents (Elt F))
  :: StableHlo.reshape main_v218 main_v219 rfl shapeCasts_S4096x256x1x8_S4096x256x8
  :: StableHlo.binary main_v217 main_v219 main_v220 (addf : (⟨S4096x256x8, .f32⟩ : BufTy).Contents (Elt F) → (⟨S4096x256x8, .f32⟩ : BufTy).Contents (Elt F) → (⟨S4096x256x8, .f32⟩ : BufTy).Contents (Elt F))
  :: StableHlo.binary main_v217 main_v219 main_v221 (subf : (⟨S4096x256x8, .f32⟩ : BufTy).Contents (Elt F) → (⟨S4096x256x8, .f32⟩ : BufTy).Contents (Elt F) → (⟨S4096x256x8, .f32⟩ : BufTy).Contents (Elt F))
  :: StableHlo.unary main_v220 main_v222 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.unary main_v221 main_v223 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.binary main_v222 main_v223 main_v224 ((fun a b => concatenate S4096x256x2x8 2 [⟨S4096x256x1x8, a⟩, ⟨S4096x256x1x8, b⟩] concatenates_S4096x256x1x8_S4096x256x1x8_S4096x256x2x8_d2) : (⟨S4096x256x1x8, .f32⟩ : BufTy).Contents (Elt F) → (⟨S4096x256x1x8, .f32⟩ : BufTy).Contents (Elt F) → (⟨S4096x256x2x8, .f32⟩ : BufTy).Contents (Elt F))
  :: [] )

/-- 60 host operations of window 4, in order. -/
abbrev win4 : List (HloOp τ sig (Elt F)) :=
  ( StableHlo.reshape main_v224 main_v225 rfl shapeCasts_S4096x256x2x8_S4096x4096
  :: StableHlo.reshape main_v225 main_v226 rfl shapeCasts_S4096x4096_S4096x128x2x16
  :: StableHlo.unary main_v226 main_v227 ((extractStridedSlice S4096x128x1x16 ![0, 0, 0, 0] · slices_S4096x128x2x16_S4096x128x1x16_0_0_0_0) : (⟨S4096x128x2x16, .f32⟩ : BufTy).Contents (Elt F) → (⟨S4096x128x1x16, .f32⟩ : BufTy).Contents (Elt F))
  :: StableHlo.reshape main_v227 main_v228 rfl shapeCasts_S4096x128x1x16_S4096x128x16
  :: StableHlo.unary main_v226 main_v229 ((extractStridedSlice S4096x128x1x16 ![0, 0, 1, 0] · slices_S4096x128x2x16_S4096x128x1x16_0_0_1_0) : (⟨S4096x128x2x16, .f32⟩ : BufTy).Contents (Elt F) → (⟨S4096x128x1x16, .f32⟩ : BufTy).Contents (Elt F))
  :: StableHlo.reshape main_v229 main_v230 rfl shapeCasts_S4096x128x1x16_S4096x128x16
  :: StableHlo.binary main_v228 main_v230 main_v231 (addf : (⟨S4096x128x16, .f32⟩ : BufTy).Contents (Elt F) → (⟨S4096x128x16, .f32⟩ : BufTy).Contents (Elt F) → (⟨S4096x128x16, .f32⟩ : BufTy).Contents (Elt F))
  :: StableHlo.binary main_v228 main_v230 main_v232 (subf : (⟨S4096x128x16, .f32⟩ : BufTy).Contents (Elt F) → (⟨S4096x128x16, .f32⟩ : BufTy).Contents (Elt F) → (⟨S4096x128x16, .f32⟩ : BufTy).Contents (Elt F))
  :: StableHlo.unary main_v231 main_v233 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.unary main_v232 main_v234 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.binary main_v233 main_v234 main_v235 ((fun a b => concatenate S4096x128x2x16 2 [⟨S4096x128x1x16, a⟩, ⟨S4096x128x1x16, b⟩] concatenates_S4096x128x1x16_S4096x128x1x16_S4096x128x2x16_d2) : (⟨S4096x128x1x16, .f32⟩ : BufTy).Contents (Elt F) → (⟨S4096x128x1x16, .f32⟩ : BufTy).Contents (Elt F) → (⟨S4096x128x2x16, .f32⟩ : BufTy).Contents (Elt F))
  :: StableHlo.reshape main_v235 main_v236 rfl shapeCasts_S4096x128x2x16_S4096x4096
  :: StableHlo.reshape main_v236 main_v237 rfl shapeCasts_S4096x4096_S4096x64x2x32
  :: StableHlo.unary main_v237 main_v238 ((extractStridedSlice S4096x64x1x32 ![0, 0, 0, 0] · slices_S4096x64x2x32_S4096x64x1x32_0_0_0_0) : (⟨S4096x64x2x32, .f32⟩ : BufTy).Contents (Elt F) → (⟨S4096x64x1x32, .f32⟩ : BufTy).Contents (Elt F))
  :: StableHlo.reshape main_v238 main_v239 rfl shapeCasts_S4096x64x1x32_S4096x64x32
  :: StableHlo.unary main_v237 main_v240 ((extractStridedSlice S4096x64x1x32 ![0, 0, 1, 0] · slices_S4096x64x2x32_S4096x64x1x32_0_0_1_0) : (⟨S4096x64x2x32, .f32⟩ : BufTy).Contents (Elt F) → (⟨S4096x64x1x32, .f32⟩ : BufTy).Contents (Elt F))
  :: StableHlo.reshape main_v240 main_v241 rfl shapeCasts_S4096x64x1x32_S4096x64x32
  :: StableHlo.binary main_v239 main_v241 main_v242 (addf : (⟨S4096x64x32, .f32⟩ : BufTy).Contents (Elt F) → (⟨S4096x64x32, .f32⟩ : BufTy).Contents (Elt F) → (⟨S4096x64x32, .f32⟩ : BufTy).Contents (Elt F))
  :: StableHlo.binary main_v239 main_v241 main_v243 (subf : (⟨S4096x64x32, .f32⟩ : BufTy).Contents (Elt F) → (⟨S4096x64x32, .f32⟩ : BufTy).Contents (Elt F) → (⟨S4096x64x32, .f32⟩ : BufTy).Contents (Elt F))
  :: StableHlo.unary main_v242 main_v244 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.unary main_v243 main_v245 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.binary main_v244 main_v245 main_v246 ((fun a b => concatenate S4096x64x2x32 2 [⟨S4096x64x1x32, a⟩, ⟨S4096x64x1x32, b⟩] concatenates_S4096x64x1x32_S4096x64x1x32_S4096x64x2x32_d2) : (⟨S4096x64x1x32, .f32⟩ : BufTy).Contents (Elt F) → (⟨S4096x64x1x32, .f32⟩ : BufTy).Contents (Elt F) → (⟨S4096x64x2x32, .f32⟩ : BufTy).Contents (Elt F))
  :: StableHlo.reshape main_v246 main_v247 rfl shapeCasts_S4096x64x2x32_S4096x4096
  :: StableHlo.reshape main_v247 main_v248 rfl shapeCasts_S4096x4096_S4096x32x2x64
  :: StableHlo.unary main_v248 main_v249 ((extractStridedSlice S4096x32x1x64 ![0, 0, 0, 0] · slices_S4096x32x2x64_S4096x32x1x64_0_0_0_0) : (⟨S4096x32x2x64, .f32⟩ : BufTy).Contents (Elt F) → (⟨S4096x32x1x64, .f32⟩ : BufTy).Contents (Elt F))
  :: StableHlo.reshape main_v249 main_v250 rfl shapeCasts_S4096x32x1x64_S4096x32x64
  :: StableHlo.unary main_v248 main_v251 ((extractStridedSlice S4096x32x1x64 ![0, 0, 1, 0] · slices_S4096x32x2x64_S4096x32x1x64_0_0_1_0) : (⟨S4096x32x2x64, .f32⟩ : BufTy).Contents (Elt F) → (⟨S4096x32x1x64, .f32⟩ : BufTy).Contents (Elt F))
  :: StableHlo.reshape main_v251 main_v252 rfl shapeCasts_S4096x32x1x64_S4096x32x64
  :: StableHlo.binary main_v250 main_v252 main_v253 (addf : (⟨S4096x32x64, .f32⟩ : BufTy).Contents (Elt F) → (⟨S4096x32x64, .f32⟩ : BufTy).Contents (Elt F) → (⟨S4096x32x64, .f32⟩ : BufTy).Contents (Elt F))
  :: StableHlo.binary main_v250 main_v252 main_v254 (subf : (⟨S4096x32x64, .f32⟩ : BufTy).Contents (Elt F) → (⟨S4096x32x64, .f32⟩ : BufTy).Contents (Elt F) → (⟨S4096x32x64, .f32⟩ : BufTy).Contents (Elt F))
  :: StableHlo.unary main_v253 main_v255 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.unary main_v254 main_v256 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.binary main_v255 main_v256 main_v257 ((fun a b => concatenate S4096x32x2x64 2 [⟨S4096x32x1x64, a⟩, ⟨S4096x32x1x64, b⟩] concatenates_S4096x32x1x64_S4096x32x1x64_S4096x32x2x64_d2) : (⟨S4096x32x1x64, .f32⟩ : BufTy).Contents (Elt F) → (⟨S4096x32x1x64, .f32⟩ : BufTy).Contents (Elt F) → (⟨S4096x32x2x64, .f32⟩ : BufTy).Contents (Elt F))
  :: StableHlo.reshape main_v257 main_v258 rfl shapeCasts_S4096x32x2x64_S4096x4096
  :: StableHlo.reshape main_v258 main_v259 rfl shapeCasts_S4096x4096_S4096x16x2x128
  :: StableHlo.unary main_v259 main_v260 ((extractStridedSlice S4096x16x1x128 ![0, 0, 0, 0] · slices_S4096x16x2x128_S4096x16x1x128_0_0_0_0) : (⟨S4096x16x2x128, .f32⟩ : BufTy).Contents (Elt F) → (⟨S4096x16x1x128, .f32⟩ : BufTy).Contents (Elt F))
  :: StableHlo.reshape main_v260 main_v261 rfl shapeCasts_S4096x16x1x128_S4096x16x128
  :: StableHlo.unary main_v259 main_v262 ((extractStridedSlice S4096x16x1x128 ![0, 0, 1, 0] · slices_S4096x16x2x128_S4096x16x1x128_0_0_1_0) : (⟨S4096x16x2x128, .f32⟩ : BufTy).Contents (Elt F) → (⟨S4096x16x1x128, .f32⟩ : BufTy).Contents (Elt F))
  :: StableHlo.reshape main_v262 main_v263 rfl shapeCasts_S4096x16x1x128_S4096x16x128
  :: StableHlo.binary main_v261 main_v263 main_v264 (addf : (⟨S4096x16x128, .f32⟩ : BufTy).Contents (Elt F) → (⟨S4096x16x128, .f32⟩ : BufTy).Contents (Elt F) → (⟨S4096x16x128, .f32⟩ : BufTy).Contents (Elt F))
  :: StableHlo.binary main_v261 main_v263 main_v265 (subf : (⟨S4096x16x128, .f32⟩ : BufTy).Contents (Elt F) → (⟨S4096x16x128, .f32⟩ : BufTy).Contents (Elt F) → (⟨S4096x16x128, .f32⟩ : BufTy).Contents (Elt F))
  :: StableHlo.unary main_v264 main_v266 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.unary main_v265 main_v267 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.binary main_v266 main_v267 main_v268 ((fun a b => concatenate S4096x16x2x128 2 [⟨S4096x16x1x128, a⟩, ⟨S4096x16x1x128, b⟩] concatenates_S4096x16x1x128_S4096x16x1x128_S4096x16x2x128_d2) : (⟨S4096x16x1x128, .f32⟩ : BufTy).Contents (Elt F) → (⟨S4096x16x1x128, .f32⟩ : BufTy).Contents (Elt F) → (⟨S4096x16x2x128, .f32⟩ : BufTy).Contents (Elt F))
  :: StableHlo.reshape main_v268 main_v269 rfl shapeCasts_S4096x16x2x128_S4096x4096
  :: StableHlo.reshape main_v269 main_v270 rfl shapeCasts_S4096x4096_S4096x8x2x256
  :: StableHlo.unary main_v270 main_v271 ((extractStridedSlice S4096x8x1x256 ![0, 0, 0, 0] · slices_S4096x8x2x256_S4096x8x1x256_0_0_0_0) : (⟨S4096x8x2x256, .f32⟩ : BufTy).Contents (Elt F) → (⟨S4096x8x1x256, .f32⟩ : BufTy).Contents (Elt F))
  :: StableHlo.reshape main_v271 main_v272 rfl shapeCasts_S4096x8x1x256_S4096x8x256
  :: StableHlo.unary main_v270 main_v273 ((extractStridedSlice S4096x8x1x256 ![0, 0, 1, 0] · slices_S4096x8x2x256_S4096x8x1x256_0_0_1_0) : (⟨S4096x8x2x256, .f32⟩ : BufTy).Contents (Elt F) → (⟨S4096x8x1x256, .f32⟩ : BufTy).Contents (Elt F))
  :: StableHlo.reshape main_v273 main_v274 rfl shapeCasts_S4096x8x1x256_S4096x8x256
  :: StableHlo.binary main_v272 main_v274 main_v275 (addf : (⟨S4096x8x256, .f32⟩ : BufTy).Contents (Elt F) → (⟨S4096x8x256, .f32⟩ : BufTy).Contents (Elt F) → (⟨S4096x8x256, .f32⟩ : BufTy).Contents (Elt F))
  :: StableHlo.binary main_v272 main_v274 main_v276 (subf : (⟨S4096x8x256, .f32⟩ : BufTy).Contents (Elt F) → (⟨S4096x8x256, .f32⟩ : BufTy).Contents (Elt F) → (⟨S4096x8x256, .f32⟩ : BufTy).Contents (Elt F))
  :: StableHlo.unary main_v275 main_v277 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.unary main_v276 main_v278 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.binary main_v277 main_v278 main_v279 ((fun a b => concatenate S4096x8x2x256 2 [⟨S4096x8x1x256, a⟩, ⟨S4096x8x1x256, b⟩] concatenates_S4096x8x1x256_S4096x8x1x256_S4096x8x2x256_d2) : (⟨S4096x8x1x256, .f32⟩ : BufTy).Contents (Elt F) → (⟨S4096x8x1x256, .f32⟩ : BufTy).Contents (Elt F) → (⟨S4096x8x2x256, .f32⟩ : BufTy).Contents (Elt F))
  :: StableHlo.reshape main_v279 main_v280 rfl shapeCasts_S4096x8x2x256_S4096x4096
  :: StableHlo.reshape main_v280 main_v281 rfl shapeCasts_S4096x4096_S4096x4x2x512
  :: StableHlo.unary main_v281 main_v282 ((extractStridedSlice S4096x4x1x512 ![0, 0, 0, 0] · slices_S4096x4x2x512_S4096x4x1x512_0_0_0_0) : (⟨S4096x4x2x512, .f32⟩ : BufTy).Contents (Elt F) → (⟨S4096x4x1x512, .f32⟩ : BufTy).Contents (Elt F))
  :: StableHlo.reshape main_v282 main_v283 rfl shapeCasts_S4096x4x1x512_S4096x4x512
  :: StableHlo.unary main_v281 main_v284 ((extractStridedSlice S4096x4x1x512 ![0, 0, 1, 0] · slices_S4096x4x2x512_S4096x4x1x512_0_0_1_0) : (⟨S4096x4x2x512, .f32⟩ : BufTy).Contents (Elt F) → (⟨S4096x4x1x512, .f32⟩ : BufTy).Contents (Elt F))
  :: [] )

/-- 40 host operations of window 5, in order. -/
abbrev win5 : List (HloOp τ sig (Elt F)) :=
  ( StableHlo.reshape main_v284 main_v285 rfl shapeCasts_S4096x4x1x512_S4096x4x512
  :: StableHlo.binary main_v283 main_v285 main_v286 (addf : (⟨S4096x4x512, .f32⟩ : BufTy).Contents (Elt F) → (⟨S4096x4x512, .f32⟩ : BufTy).Contents (Elt F) → (⟨S4096x4x512, .f32⟩ : BufTy).Contents (Elt F))
  :: StableHlo.binary main_v283 main_v285 main_v287 (subf : (⟨S4096x4x512, .f32⟩ : BufTy).Contents (Elt F) → (⟨S4096x4x512, .f32⟩ : BufTy).Contents (Elt F) → (⟨S4096x4x512, .f32⟩ : BufTy).Contents (Elt F))
  :: StableHlo.unary main_v286 main_v288 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.unary main_v287 main_v289 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.binary main_v288 main_v289 main_v290 ((fun a b => concatenate S4096x4x2x512 2 [⟨S4096x4x1x512, a⟩, ⟨S4096x4x1x512, b⟩] concatenates_S4096x4x1x512_S4096x4x1x512_S4096x4x2x512_d2) : (⟨S4096x4x1x512, .f32⟩ : BufTy).Contents (Elt F) → (⟨S4096x4x1x512, .f32⟩ : BufTy).Contents (Elt F) → (⟨S4096x4x2x512, .f32⟩ : BufTy).Contents (Elt F))
  :: StableHlo.reshape main_v290 main_v291 rfl shapeCasts_S4096x4x2x512_S4096x4096
  :: StableHlo.reshape main_v291 main_v292 rfl shapeCasts_S4096x4096_S4096x2x2x1024
  :: StableHlo.unary main_v292 main_v293 ((extractStridedSlice S4096x2x1x1024 ![0, 0, 0, 0] · slices_S4096x2x2x1024_S4096x2x1x1024_0_0_0_0) : (⟨S4096x2x2x1024, .f32⟩ : BufTy).Contents (Elt F) → (⟨S4096x2x1x1024, .f32⟩ : BufTy).Contents (Elt F))
  :: StableHlo.reshape main_v293 main_v294 rfl shapeCasts_S4096x2x1x1024_S4096x2x1024
  :: StableHlo.unary main_v292 main_v295 ((extractStridedSlice S4096x2x1x1024 ![0, 0, 1, 0] · slices_S4096x2x2x1024_S4096x2x1x1024_0_0_1_0) : (⟨S4096x2x2x1024, .f32⟩ : BufTy).Contents (Elt F) → (⟨S4096x2x1x1024, .f32⟩ : BufTy).Contents (Elt F))
  :: StableHlo.reshape main_v295 main_v296 rfl shapeCasts_S4096x2x1x1024_S4096x2x1024
  :: StableHlo.binary main_v294 main_v296 main_v297 (addf : (⟨S4096x2x1024, .f32⟩ : BufTy).Contents (Elt F) → (⟨S4096x2x1024, .f32⟩ : BufTy).Contents (Elt F) → (⟨S4096x2x1024, .f32⟩ : BufTy).Contents (Elt F))
  :: StableHlo.binary main_v294 main_v296 main_v298 (subf : (⟨S4096x2x1024, .f32⟩ : BufTy).Contents (Elt F) → (⟨S4096x2x1024, .f32⟩ : BufTy).Contents (Elt F) → (⟨S4096x2x1024, .f32⟩ : BufTy).Contents (Elt F))
  :: StableHlo.unary main_v297 main_v299 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.unary main_v298 main_v300 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.binary main_v299 main_v300 main_v301 ((fun a b => concatenate S4096x2x2x1024 2 [⟨S4096x2x1x1024, a⟩, ⟨S4096x2x1x1024, b⟩] concatenates_S4096x2x1x1024_S4096x2x1x1024_S4096x2x2x1024_d2) : (⟨S4096x2x1x1024, .f32⟩ : BufTy).Contents (Elt F) → (⟨S4096x2x1x1024, .f32⟩ : BufTy).Contents (Elt F) → (⟨S4096x2x2x1024, .f32⟩ : BufTy).Contents (Elt F))
  :: StableHlo.reshape main_v301 main_v302 rfl shapeCasts_S4096x2x2x1024_S4096x4096
  :: StableHlo.reshape main_v302 main_v303 rfl shapeCasts_S4096x4096_S4096x1x2x2048
  :: StableHlo.unary main_v303 main_v304 ((extractStridedSlice S4096x1x1x2048 ![0, 0, 0, 0] · slices_S4096x1x2x2048_S4096x1x1x2048_0_0_0_0) : (⟨S4096x1x2x2048, .f32⟩ : BufTy).Contents (Elt F) → (⟨S4096x1x1x2048, .f32⟩ : BufTy).Contents (Elt F))
  :: StableHlo.reshape main_v304 main_v305 rfl shapeCasts_S4096x1x1x2048_S4096x1x2048
  :: StableHlo.unary main_v303 main_v306 ((extractStridedSlice S4096x1x1x2048 ![0, 0, 1, 0] · slices_S4096x1x2x2048_S4096x1x1x2048_0_0_1_0) : (⟨S4096x1x2x2048, .f32⟩ : BufTy).Contents (Elt F) → (⟨S4096x1x1x2048, .f32⟩ : BufTy).Contents (Elt F))
  :: StableHlo.reshape main_v306 main_v307 rfl shapeCasts_S4096x1x1x2048_S4096x1x2048
  :: StableHlo.binary main_v305 main_v307 main_v308 (addf : (⟨S4096x1x2048, .f32⟩ : BufTy).Contents (Elt F) → (⟨S4096x1x2048, .f32⟩ : BufTy).Contents (Elt F) → (⟨S4096x1x2048, .f32⟩ : BufTy).Contents (Elt F))
  :: StableHlo.binary main_v305 main_v307 main_v309 (subf : (⟨S4096x1x2048, .f32⟩ : BufTy).Contents (Elt F) → (⟨S4096x1x2048, .f32⟩ : BufTy).Contents (Elt F) → (⟨S4096x1x2048, .f32⟩ : BufTy).Contents (Elt F))
  :: StableHlo.unary main_v308 main_v310 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.unary main_v309 main_v311 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.binary main_v310 main_v311 main_v312 ((fun a b => concatenate S4096x1x2x2048 2 [⟨S4096x1x1x2048, a⟩, ⟨S4096x1x1x2048, b⟩] concatenates_S4096x1x1x2048_S4096x1x1x2048_S4096x1x2x2048_d2) : (⟨S4096x1x1x2048, .f32⟩ : BufTy).Contents (Elt F) → (⟨S4096x1x1x2048, .f32⟩ : BufTy).Contents (Elt F) → (⟨S4096x1x2x2048, .f32⟩ : BufTy).Contents (Elt F))
  :: StableHlo.reshape main_v312 main_v313 rfl shapeCasts_S4096x1x2x2048_S4096x4096
  :: StableHlo.nullary main_cst_13 (constant S_ .f32 0x3C800000#32)
  :: StableHlo.unary main_cst_13 main_v314 (broadcastInDim S4096x4096 ![] bcast_S_S4096x4096 : (⟨S_, .f32⟩ : BufTy).Contents (Elt F) → (⟨S4096x4096, .f32⟩ : BufTy).Contents (Elt F))
  :: StableHlo.binary main_v313 main_v314 main_v315 (mulf : (⟨S4096x4096, .f32⟩ : BufTy).Contents (Elt F) → (⟨S4096x4096, .f32⟩ : BufTy).Contents (Elt F) → (⟨S4096x4096, .f32⟩ : BufTy).Contents (Elt F))
  :: StableHlo.unary main_v315 main_v316 ((transpose S4096x4096 [1, 0] · transposes_S4096x4096_S4096x4096_1_0) : (⟨S4096x4096, .f32⟩ : BufTy).Contents (Elt F) → (⟨S4096x4096, .f32⟩ : BufTy).Contents (Elt F))
  :: StableHlo.unary main_arg2 main_v317 (broadcastInDim S4096x1 ![0] bcast_S4096_S4096x1_0 : (⟨S4096, .f32⟩ : BufTy).Contents (Elt F) → (⟨S4096x1, .f32⟩ : BufTy).Contents (Elt F))
  :: StableHlo.unary main_v317 main_v318 (broadcastInDim S4096x4096 ![0, 1] bcast_S4096x1_S4096x4096_0_1 : (⟨S4096x1, .f32⟩ : BufTy).Contents (Elt F) → (⟨S4096x4096, .f32⟩ : BufTy).Contents (Elt F))
  :: StableHlo.binary main_v316 main_v318 main_v319 (mulf : (⟨S4096x4096, .f32⟩ : BufTy).Contents (Elt F) → (⟨S4096x4096, .f32⟩ : BufTy).Contents (Elt F) → (⟨S4096x4096, .f32⟩ : BufTy).Contents (Elt F))
  :: StableHlo.reshape main_v319 main_v320 rfl shapeCasts_S4096x4096_S65536x256
  :: StableHlo.unary main_arg3 main_v321 (broadcastInDim S65536x256 ![0, 1] bcast_S65536x1_S65536x256_0_1 : (⟨S65536x1, .f32⟩ : BufTy).Contents (Elt F) → (⟨S65536x256, .f32⟩ : BufTy).Contents (Elt F))
  :: StableHlo.binary main_v320 main_v321 main_v322 (mulf : (⟨S65536x256, .f32⟩ : BufTy).Contents (Elt F) → (⟨S65536x256, .f32⟩ : BufTy).Contents (Elt F) → (⟨S65536x256, .f32⟩ : BufTy).Contents (Elt F))
  :: StableHlo.reshape main_v322 main_v323 rfl shapeCasts_S65536x256_S4096x4096
  :: [] )

end Cert.ReferenceIdeal.RValue

end
-- ==== Proof.RefRun.lean ====
/-
  The reference's run: its @main is a straight line of host operations, so every buffer ends at the fold of the
  operations over the launch contents; the last operation is the product of the activations with the weight matrix
  %323, contracting the feature axis, which at the exact instance is `Cert.Linear.linear`.

  The plan. @main is printed in six windows; each window is the straight line of its operations (the three called
  functions' bodies in line), so @main is the straight line of all 397 operations, the last being the product. Each
  operation touches TensorCore references only, allocates nothing and writes its own result buffer only, so the six
  arguments are never written. What %324 holds at the end is the product's function of what %arg0 and %323 held before
  it: %arg0 as launched, %323 at the fold of the 396 operations before the product, which is kept folded (`W`). Over
  the extended reals the product read at an index is the sum over the contracted feature coordinate.
-/
import proofs.«430907_j20306605375936_1_alg».proof.Proof.RefOps
import proofs.«430907_j20306605375936_1_alg».proof.Proof.RefWin
import proofs.«430907_j20306605375936_1_alg».proof.Proof.Spec
import Idealize.ShloMosaic.PureOps.Ideal.Laws
import Idealize.ShloMosaic.Lib.Pipeline.Regions

set_option maxRecDepth 4796

noncomputable section

namespace Cert.ReferenceIdeal.RValue

open Idealize.ShloMosaic Idealize.ShloMosaic.TcCoe Idealize.SL.Sem Cert.ReferenceIdeal.Gen

/-! ## @main is one straight line -/

section Line

variable {F : FTy → Type} [FloatOps F]

/-- The operations before the product. -/
abbrev pre : List (HloOp τ sig (Elt F)) := List.flatten [ops0, ops1, ops2, ops3, ops4, ops5, ops6]

set_option maxHeartbeats 40000000 in
/-- Window 0 of @main: the six short stretches (three of them the called functions' bodies) and the first piece of the long one. -/
theorem main_part0_chain (c : Dev nD) : Cert.ReferenceIdeal.main_part0 (F := F) c = Pipeline.chainK
    [StableHlo.seq ops0, StableHlo.seq ops1, StableHlo.seq ops2, StableHlo.seq ops3, StableHlo.seq ops4, StableHlo.seq ops5] (StableHlo.seq win0) := by
  chain_rfl
set_option maxHeartbeats 40000000 in
/-- Window 1 is the second piece of the long stretch. -/
theorem main_part1_chain (c : Dev nD) : Cert.ReferenceIdeal.main_part1 (F := F) c = Pipeline.chainK [] (StableHlo.seq win1) := by
  chain_rfl
set_option maxHeartbeats 40000000 in
/-- Window 2 is the third piece. -/
theorem main_part2_chain (c : Dev nD) : Cert.ReferenceIdeal.main_part2 (F := F) c = Pipeline.chainK [] (StableHlo.seq win2) := by
  chain_rfl
set_option maxHeartbeats 40000000 in
/-- Window 3 is the fourth piece. -/
theorem main_part3_chain (c : Dev nD) : Cert.ReferenceIdeal.main_part3 (F := F) c = Pipeline.chainK [] (StableHlo.seq win3) := by
  chain_rfl
set_option maxHeartbeats 40000000 in
/-- Window 4 is the fifth piece. -/
theorem main_part4_chain (c : Dev nD) : Cert.ReferenceIdeal.main_part4 (F := F) c = Pipeline.chainK [] (StableHlo.seq win4) := by
  chain_rfl
set_option maxHeartbeats 40000000 in
/-- The last window is the last piece, up to the weight matrix %323, then the product. -/
theorem main_part5_chain (c : Dev nD) : Cert.ReferenceIdeal.main_part5 (F := F) c = Pipeline.chain [StableHlo.seq win5, StableHlo.seq [lastOp]] := by
  chain_rfl

/-- A chain of straight lines is the straight line of their concatenation. -/
theorem chain_map_seq {nD : Nat} {τ : Topo} {sig : RefSig} {Val : EltTy → Type} {Λ : Labels} (ls : List (List (HloOp τ sig Val))) :
    Pipeline.chain (ls.map fun l => (StableHlo.seq l : Prog (TpuEff nD τ sig Val Λ .tc) PUnit)) = StableHlo.seq (List.flatten ls) := by
  induction ls with
  | nil => rfl
  | cons l ls ih => rw [List.map_cons, Pipeline.chain_cons, ih, List.flatten_cons, StableHlo.seq_append]

set_option maxHeartbeats 40000000 in
/-- @main is the chain of its windows' stretches. -/
theorem main_chain (c : Dev nD) : Cert.ReferenceIdeal.main (F := F) c = Pipeline.chain
    [StableHlo.seq ops0, StableHlo.seq ops1, StableHlo.seq ops2, StableHlo.seq ops3, StableHlo.seq ops4, StableHlo.seq ops5,
     StableHlo.seq win0, StableHlo.seq win1, StableHlo.seq win2, StableHlo.seq win3, StableHlo.seq win4, StableHlo.seq win5, StableHlo.seq [lastOp]] := by
  show (Cert.ReferenceIdeal.main_part0 (F := F) c >>= fun _ => Cert.ReferenceIdeal.main_part1 (F := F) c >>= fun _ => Cert.ReferenceIdeal.main_part2 (F := F) c >>= fun _ => Cert.ReferenceIdeal.main_part3 (F := F) c >>= fun _ => Cert.ReferenceIdeal.main_part4 (F := F) c >>= fun _ => Cert.ReferenceIdeal.main_part5 (F := F) c) = _
  rewrite [main_part5_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

set_option maxHeartbeats 40000000 in
/-- The windows' stretches, in order, are the operations before the product followed by the product (the long stretch is
    its six window pieces: the two sides list the same operations). -/
theorem windows_eq : (List.flatten [ops0, ops1, ops2, ops3, ops4, ops5, win0, win1, win2, win3, win4, win5, [lastOp]] : List (HloOp τ sig (Elt F)))
    = pre ++ [lastOp] := by
  chain_rfl

set_option maxHeartbeats 40000000 in
/-- @main is the straight line of the operations before the product, then the product. -/
theorem main_eq (c : Dev nD) : Cert.ReferenceIdeal.main (F := F) c = StableHlo.seq (pre ++ [lastOp]) := by
  have h := chain_map_seq (nD := nD) (Λ := Pipeline.Sig Λ₀ (Fin 0) fun p => (pcfgs (F := F) p).Adm) (τ := τ) (sig := sig) (Val := Elt F)
    [ops0, ops1, ops2, ops3, ops4, ops5, win0, win1, win2, win3, win4, win5, [lastOp]]
  simp only [List.map_cons, List.map_nil] at h
  rw [main_chain, h, windows_eq]

end Line

/-! ## What every operation of the line does to the buffers -/

section Walk

/-- A property of every operation of a line, read off the line one operation at a time. -/
theorem forall_cons_intro {α : Type} {p : α → Prop} {a : α} {l : List α} (ha : p a) (hl : l.Forall p) : (a :: l).Forall p :=
  (List.forall_cons _ _ _).2 ⟨ha, hl⟩
theorem forall_nil_intro {α : Type} {p : α → Prop} : ([] : List α).Forall p := trivial
/-- A weaker property holds of every operation too. -/
theorem forall_imp {α : Type} {p q : α → Prop} {l : List α} (h : l.Forall p) (hpq : ∀ a, p a → q a) : l.Forall q :=
  List.forall_iff_forall_mem.2 fun a ha => hpq a (List.forall_iff_forall_mem.1 h a ha)
/-- Two lines one after the other. -/
theorem forall_append {α : Type} {p : α → Prop} {l₁ l₂ : List α} (h₁ : l₁.Forall p) (h₂ : l₂.Forall p) : (l₁ ++ l₂).Forall p :=
  List.forall_iff_forall_mem.2 fun a ha =>
    (List.mem_append.1 ha).elim (List.forall_iff_forall_mem.1 h₁ a) (List.forall_iff_forall_mem.1 h₂ a)
/-- The first of two lines. -/
theorem forall_left {α : Type} {p : α → Prop} {l₁ l₂ : List α} (h : (l₁ ++ l₂).Forall p) : l₁.Forall p :=
  List.forall_iff_forall_mem.2 fun a ha => List.forall_iff_forall_mem.1 h a (List.mem_append_left _ ha)
/-- Several lines one after the other. -/
theorem forall_flatten {α : Type} {p : α → Prop} : ∀ ls : List (List α), (ls.Forall fun l => l.Forall p) → (List.flatten ls).Forall p
  | [], _ => trivial
  | l :: ls, h => by
    rw [List.flatten_cons]
    exact forall_append ((List.forall_cons _ _ _).1 h).1 (forall_flatten ls ((List.forall_cons _ _ _).1 h).2)

section Generic

variable {τ : Topo} {sig : RefSig} {Val : EltTy → Type}

/-- An operation that leaves a reference's buffer alone, whatever the contents. -/
abbrev Keeps (r : Ref sig .tc) (op : HloOp τ sig Val) : Prop :=
  ∀ V : Valuation τ sig Val, op.result V (Proc.devRef .tc r) = V (Proc.devRef .tc r)

/-- A line of operations each of which leaves a buffer alone leaves it alone. -/
theorem after_keeps {r : Ref sig .tc} : ∀ (ops : List (HloOp τ sig Val)) (V : Valuation τ sig Val),
    ops.Forall (Keeps r) → StableHlo.after ops V (Proc.devRef .tc r) = V (Proc.devRef .tc r)
  | [], _, _ => rfl
  | op :: ops, V, h => by
    rw [StableHlo.after_cons, after_keeps ops _ ((List.forall_cons _ _ _).1 h).2]
    exact ((List.forall_cons _ _ _).1 h).1 V

/-- Two lines run one after the other leave what the second leaves from what the first left. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- Each builder writes its own result buffer only: it keeps every other reference's. -/
theorem keeps_nullary {r y : Ref sig .tc} (h : r ≠ y) (v : y.ty.Contents Val) (hy) :
    Keeps r (StableHlo.nullary (τ := τ) y v hy) := fun V => StableHlo.nullary_result_ne y v hy V h
theorem keeps_unary {r x y : Ref sig .tc} (h : r ≠ y) (f : x.ty.Contents Val → y.ty.Contents Val) (hx hy) :
    Keeps r (StableHlo.unary (τ := τ) x y f hx hy) := fun V => StableHlo.unary_result_ne x y f hx hy V h
theorem keeps_binary {r a b y : Ref sig .tc} (h : r ≠ y) (f : a.ty.Contents Val → b.ty.Contents Val → y.ty.Contents Val) (ha hb hy) :
    Keeps r (StableHlo.binary (τ := τ) a b y f ha hb hy) := fun V => StableHlo.binary_result_ne a b y f ha hb hy V h
theorem keeps_ternary {r c a b y : Ref sig .tc} (h : r ≠ y)
    (f : c.ty.Contents Val → a.ty.Contents Val → b.ty.Contents Val → y.ty.Contents Val) (hc ha hb hy) :
    Keeps r (StableHlo.ternary (τ := τ) c a b y f hc ha hb hy) := fun V => StableHlo.ternary_result_ne a b c y f hc ha hb hy V h
theorem keeps_reshape {r x y : Ref sig .tc} (h : r ≠ y) (he hn hx hy) :
    Keeps r (StableHlo.reshape (τ := τ) (Val := Val) x y he hn hx hy) := fun V => StableHlo.reshape_result_ne x y he hn hx hy V h

end Generic

variable {F : FTy → Type} [FloatOps F]

/-- What the run needs of one operation: it touches TensorCore references only, allocates nothing, and writes none of
    the six arguments. -/
abbrev Good (op : HloOp τ sig (Elt F)) : Prop :=
  op.bufs ⊆ StableHlo.tcRefs τ sig ∧ op.fresh = ∅ ∧ Keeps main_arg0 op ∧ Keeps main_arg1 op ∧ Keeps main_arg2 op
    ∧ Keeps main_arg3 op ∧ Keeps main_arg4 op ∧ Keeps main_arg5 op

/-- One builder's buffers are TensorCore references. -/
macro "bufs_sub_one" : tactic => `(tactic| with_reducible
  first | exact StableHlo.unary_bufs_sub .. | exact StableHlo.reshape_bufs_sub .. | exact StableHlo.binary_bufs_sub ..
        | exact StableHlo.nullary_bufs_sub .. | exact StableHlo.ternary_bufs_sub ..)
/-- One builder keeps a reference that is not its result buffer (two literal references are told apart by computation). -/
macro "keeps_one" : tactic => `(tactic|
  (with_reducible (first | refine keeps_unary ?_ _ _ _ | refine keeps_reshape ?_ _ _ _ _ | refine keeps_binary ?_ _ _ _ _
                         | refine keeps_nullary ?_ _ _ | refine keeps_ternary ?_ _ _ _ _ _)) <;> decide)
macro "good_one" : tactic => `(tactic|
  exact ⟨by bufs_sub_one, rfl, by keeps_one, by keeps_one, by keeps_one, by keeps_one, by keeps_one, by keeps_one⟩)
macro "good_walk" : tactic => `(tactic|
  repeat (first | exact forall_nil_intro | refine forall_cons_intro (by good_one) ?_))

set_option maxHeartbeats 4000000 in
theorem ops0_good : (ops0 : List (HloOp τ sig (Elt F))).Forall Good := by good_walk
set_option maxHeartbeats 4000000 in
theorem ops1_good : (ops1 : List (HloOp τ sig (Elt F))).Forall Good := by good_walk
set_option maxHeartbeats 4000000 in
theorem ops2_good : (ops2 : List (HloOp τ sig (Elt F))).Forall Good := by good_walk
set_option maxHeartbeats 4000000 in
theorem ops3_good : (ops3 : List (HloOp τ sig (Elt F))).Forall Good := by good_walk
set_option maxHeartbeats 4000000 in
theorem ops4_good : (ops4 : List (HloOp τ sig (Elt F))).Forall Good := by good_walk
set_option maxHeartbeats 4000000 in
theorem ops5_good : (ops5 : List (HloOp τ sig (Elt F))).Forall Good := by good_walk
set_option maxHeartbeats 4000000 in
theorem win0_good : (win0 : List (HloOp τ sig (Elt F))).Forall Good := by good_walk
set_option maxHeartbeats 4000000 in
theorem win1_good : (win1 : List (HloOp τ sig (Elt F))).Forall Good := by good_walk
set_option maxHeartbeats 4000000 in
theorem win2_good : (win2 : List (HloOp τ sig (Elt F))).Forall Good := by good_walk
set_option maxHeartbeats 4000000 in
theorem win3_good : (win3 : List (HloOp τ sig (Elt F))).Forall Good := by good_walk
set_option maxHeartbeats 4000000 in
theorem win4_good : (win4 : List (HloOp τ sig (Elt F))).Forall Good := by good_walk
set_option maxHeartbeats 4000000 in
theorem win5_good : (win5 : List (HloOp τ sig (Elt F))).Forall Good := by good_walk
set_option maxHeartbeats 4000000 in
theorem last_good : ([lastOp] : List (HloOp τ sig (Elt F))).Forall Good := by good_walk

/-- Every operation of @main is such. -/
theorem all_good : (pre ++ [lastOp] : List (HloOp τ sig (Elt F))).Forall Good := by
  rw [← windows_eq]
  exact forall_flatten _ (forall_cons_intro ops0_good (forall_cons_intro ops1_good (forall_cons_intro ops2_good
    (forall_cons_intro ops3_good (forall_cons_intro ops4_good (forall_cons_intro ops5_good (forall_cons_intro win0_good
    (forall_cons_intro win1_good (forall_cons_intro win2_good (forall_cons_intro win3_good (forall_cons_intro win4_good
    (forall_cons_intro win5_good (forall_cons_intro last_good forall_nil_intro)))))))))))))

end Walk

/-! ## The product at the exact instance -/

section Product

open Idealize.ShloMosaic.ValueIdx
open scoped BigOperators

/-- The product's dimension numbers: the activations' axis 2 against the weight matrix's axis 1. -/
abbrev DL := dot_S4x1024x4096_S4096x4096_S4x1024x4096_2_1_01_0_n_n

/-- The left operand's batch coordinate is the result's. -/
theorem lhsDL_0 (j : S4x1024x4096.Idx) (k : DL.contr.Idx) : (DL.lhsIdx j k 0 : ℕ) = j 0 := by
  simp [DotDims.lhsIdx, DL, dot_S4x1024x4096_S4096x4096_S4x1024x4096_2_1_01_0_n_n]; rfl
/-- The left operand's sequence coordinate is the result's. -/
theorem lhsDL_1 (j : S4x1024x4096.Idx) (k : DL.contr.Idx) : (DL.lhsIdx j k 1 : ℕ) = j 1 := by
  simp [DotDims.lhsIdx, DL, dot_S4x1024x4096_S4096x4096_S4x1024x4096_2_1_01_0_n_n]; rfl
/-- The left operand's feature coordinate is the contraction's. -/
theorem lhsDL_2 (j : S4x1024x4096.Idx) (k : DL.contr.Idx) : (DL.lhsIdx j k 2 : ℕ) = k ⟨0, by decide⟩ :=
  DotDims.lhsIdx_val_of_single DL (cl := 2) rfl j k
/-- The weight matrix's row is the result's output feature. -/
theorem rhsDL_0 (j : S4x1024x4096.Idx) (k : DL.contr.Idx) : (DL.rhsIdx j k 0 : ℕ) = j 2 := by
  simp [DotDims.rhsIdx, DL, dot_S4x1024x4096_S4096x4096_S4x1024x4096_2_1_01_0_n_n]; rfl
/-- The weight matrix's column is the contraction's. -/
theorem rhsDL_1 (j : S4x1024x4096.Idx) (k : DL.contr.Idx) : (DL.rhsIdx j k 1 : ℕ) = k ⟨0, by decide⟩ :=
  DotDims.rhsIdx_val_of_single DL (cr := 1) rfl j k

/-- The host's product of the activations with the weight matrix, over the extended reals, is the linear layer:
    at an index the contraction's sum, re-indexed by the contracted coordinate. -/
theorem dot_eq_linear (x : FVec Ideal S4x1024x4096 .f32) (w : FVec Ideal S4096x4096 .f32) :
    Host.dotGeneral (F := Ideal) DL none x w = Cert.Linear.linear x w := by
  funext i
  show FloatOps.dotGeneral DL none _ x w i = _
  rw [Ideal.dotGeneral_apply, ← Equiv.sum_comp (contrEquiv1 DL 4096 rfl rfl).symm]
  unfold Cert.Linear.linear
  refine Finset.sum_congr rfl fun d _ => ?_
  have hd := contrEquiv1_symm_val DL 4096 rfl rfl d
  have hl : DL.lhsIdx i ((contrEquiv1 DL 4096 rfl rfl).symm d) = ix3 (i 0 : Fin 4) (i 1 : Fin 1024) d := by
    funext a; apply Fin.ext
    match a with
    | ⟨0, _⟩ => exact lhsDL_0 _ _
    | ⟨1, _⟩ => exact lhsDL_1 _ _
    | ⟨2, _⟩ => exact (lhsDL_2 _ _).trans hd
  have hr : DL.rhsIdx i ((contrEquiv1 DL 4096 rfl rfl).symm d) = ix2 (i 2 : Fin 4096) d := by
    funext a; apply Fin.ext
    match a with
    | ⟨0, _⟩ => exact rhsDL_0 _ _
    | ⟨1, _⟩ => exact (rhsDL_1 _ _).trans hd
  rw [hl, hr]
  rfl

/-- The product's result buffer holds the product of what its operands held. -/
theorem lastOp_result (V : Valuation τ sig (Elt Ideal)) :
    (lastOp (F := Ideal)).result V (Proc.devRef .tc main_v324)
      = Host.dotGeneral (F := Ideal) (φ₁ := .f32) (φ₂ := .f32) DL none (V (Proc.devRef .tc main_arg0)) (V (Proc.devRef .tc main_v323)) :=
  StableHlo.binary_result ..

end Product

/-! ## The run -/

theorem scopedRefs_eq : (Finset.univ.filter fun b : Ref sig .tc => b.isScoped) = ∅ := by decide
theorem scopedSems_eq : (Finset.univ.filter fun sm : SemLoc sig => sm.isScoped .tc) = ∅ := by decide

variable (m : (ℓ : Loc nD τ sig) → Buf (Elt Ideal) ℓ) (ρ : Dev nD → PrngReg)

/-- The weight matrix the reference multiplies by: what %323 holds after the host operations before the product. -/
def W (c : Dev nD) : Cert.Linear.SW.Idx → EReal :=
  StableHlo.after (List.flatten [ops0, ops1, ops2, ops3, ops4, ops5, ops6]) (fun b => m (c, b)) (Proc.devRef .tc main_v323)

/-- Every weakly fair execution of the reference terminates with its result at `linear x W` and its arguments unchanged. -/
theorem run : θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v324) = Cert.Linear.linear (m ((c.tc : Thread Cert.ReferenceIdeal.nD Cert.ReferenceIdeal.τ).loc Cert.ReferenceIdeal.main_arg0)) (W m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono (fun r h c => by
      have hgood := all_good (F := Ideal)
      -- the arguments: no operation writes them
      have k0 := (h c main_arg0).trans (after_keeps _ _ (forall_imp hgood fun _ g => g.2.2.1))
      have k1 := (h c main_arg1).trans (after_keeps _ _ (forall_imp hgood fun _ g => g.2.2.2.1))
      have k2 := (h c main_arg2).trans (after_keeps _ _ (forall_imp hgood fun _ g => g.2.2.2.2.1))
      have k3 := (h c main_arg3).trans (after_keeps _ _ (forall_imp hgood fun _ g => g.2.2.2.2.2.1))
      have k4 := (h c main_arg4).trans (after_keeps _ _ (forall_imp hgood fun _ g => g.2.2.2.2.2.2.1))
      have k5 := (h c main_arg5).trans (after_keeps _ _ (forall_imp hgood fun _ g => g.2.2.2.2.2.2.2))
      -- the result: the product of what %arg0 and %323 hold after the operations before it
      have e : r.2.mem ((c.tc : Thread Cert.ReferenceIdeal.nD Cert.ReferenceIdeal.τ).loc Cert.ReferenceIdeal.main_v324)
          = StableHlo.after (pre (F := Ideal) ++ [lastOp]) (StableHlo.launchContents m c) (Proc.devRef .tc main_v324) := h c main_v324
      rw [after_append] at e
      have hW : W m c = StableHlo.after (pre (F := Ideal)) (StableHlo.launchContents m c) (Proc.devRef .tc main_v323) := rfl
      have h0 : StableHlo.after (pre (F := Ideal)) (StableHlo.launchContents m c) (Proc.devRef .tc main_arg0)
          = StableHlo.launchContents m c (Proc.devRef .tc main_arg0) :=
        after_keeps _ _ (forall_imp (forall_left hgood) fun _ g => g.2.2.1)
      rw [hW]
      generalize StableHlo.after (pre (F := Ideal)) (StableHlo.launchContents m c) = V' at e h0 ⊢
      refine ⟨e.trans ((lastOp_result V').trans ?_), k0, k1, k2, k3, k4, k5⟩
      rw [h0]
      exact dot_eq_linear _ _)
    (StableHlo.run_seq scopedRefs_eq scopedSems_eq (Cert.ReferenceIdeal.defs (F := Ideal)) (Cert.ReferenceIdeal.main (F := Ideal))
      (fun _ => pre ++ [lastOp]) (main_eq (F := Ideal)) (fun _ => forall_imp all_good fun _ g => g.1) m ρ
      (fun _ op hop => (List.forall_iff_forall_mem.1 (all_good (F := Ideal)) op hop).2.1))

end Cert.ReferenceIdeal.RValue

end
-- ==== Proof.LibHostSim.lean ====
/-
  Two straight lines of host operations over two different buffer signatures, compared operation by operation.

  When two programs state the same StableHLO text, their host operations write, one after the other, the HBM
  buffers of consecutive indices, each from buffers written before it, through the same pure function. If the two
  launch memories agree on the buffers below an index `n` (the arguments), then after the two lines they agree on
  every buffer the lines wrote: by induction over the lines, one operation at a time (`Step`), with no operation's
  function ever opened. The buffers' content types live over two signatures, so agreement is heterogeneous
  equality; at literal references both types compute to the same type and it is equality.
-/
import Idealize.ShloMosaic.Lib.StableHlo.Run

namespace HostSim

open Idealize.ShloMosaic Idealize.ShloMosaic.StableHlo Idealize.ShloMosaic.TcCoe

variable {τ₁ τ₂ : Topo} {sig₁ sig₂ : RefSig} {Val : EltTy → Type}

/-- A function applied to an argument, across equal types. -/
theorem heq_app {α α' β β' : Type} (hα : α = α') (hβ : β = β') {f : α → β} {f' : α' → β'} (hf : HEq f f')
    {a : α} {a' : α'} (ha : HEq a a') : HEq (f a) (f' a') := by
  subst hα; subst hβ; cases hf; cases ha; rfl

/-- An HBM reference is its index. -/
theorem ref_ext {sig : RefSig} {a b : Ref sig .tc} (ha : a.space = .hbm) (hb : b.space = .hbm)
    (h : a.idx.val = b.idx.val) : a = b := by
  obtain ⟨sa, ia, na⟩ := a
  obtain ⟨sb, ib, nb⟩ := b
  dsimp only at ha hb h
  subst ha; subst hb
  have : ia = ib := Fin.ext h
  subst this
  rfl

/-- The two valuations hold the same contents in the HBM buffers of equal index below `n`. -/
def Agree (n : ℕ) (V₁ : Valuation τ₁ sig₁ Val) (V₂ : Valuation τ₂ sig₂ Val) : Prop :=
  ∀ (a : Ref sig₁ .tc) (b : Ref sig₂ .tc), a.space = .hbm → b.space = .hbm → a.idx.val = b.idx.val → a.idx.val < n →
    HEq (V₁ (Proc.devRef .tc a)) (V₂ (Proc.devRef .tc b))

/-- One operation of each line, run side by side, extends the agreement by the buffer of index `n`. -/
def Step (n : ℕ) (op₁ : HloOp τ₁ sig₁ Val) (op₂ : HloOp τ₂ sig₂ Val) : Prop :=
  ∀ V₁ V₂, Agree n V₁ V₂ → Agree (n + 1) (op₁.result V₁) (op₂.result V₂)

/-- A step from its parts: each operation writes only its result buffer, the two result buffers are the HBM
    buffers of index `n`, and the results agree whenever the valuations agree below `n`. -/
theorem step_of (n : ℕ) (op₁ : HloOp τ₁ sig₁ Val) (op₂ : HloOp τ₂ sig₂ Val) (y₁ : Ref sig₁ .tc) (y₂ : Ref sig₂ .tc)
    (hy₁ : y₁.space = .hbm ∧ y₁.idx.val = n) (hy₂ : y₂.space = .hbm ∧ y₂.idx.val = n)
    (hne₁ : ∀ (V : Valuation τ₁ sig₁ Val) (r : Ref sig₁ .tc), r ≠ y₁ → op₁.result V (Proc.devRef .tc r) = V (Proc.devRef .tc r))
    (hne₂ : ∀ (V : Valuation τ₂ sig₂ Val) (r : Ref sig₂ .tc), r ≠ y₂ → op₂.result V (Proc.devRef .tc r) = V (Proc.devRef .tc r))
    (hval : ∀ V₁ V₂, Agree n V₁ V₂ → HEq (op₁.result V₁ (Proc.devRef .tc y₁)) (op₂.result V₂ (Proc.devRef .tc y₂))) :
    Step n op₁ op₂ := by
  intro V₁ V₂ h a b ha hb hab hlt
  by_cases hn : a.idx.val = n
  · have ea : a = y₁ := ref_ext ha hy₁.1 (hn.trans hy₁.2.symm)
    have eb : b = y₂ := ref_ext hb hy₂.1 ((hab.symm.trans hn).trans hy₂.2.symm)
    subst ea; subst eb
    exact hval V₁ V₂ h
  · have na : a ≠ y₁ := fun e => hn (e ▸ hy₁.2)
    have nb : b ≠ y₂ := fun e => hn (hab.trans (e ▸ hy₂.2))
    rw [hne₁ V₁ a na, hne₂ V₂ b nb]
    exact h a b ha hb hab (by omega)

/-- Two operand buffers that correspond: HBM buffers of one index below `n`, of one type. -/
structure Opnd (n : ℕ) (x₁ : Ref sig₁ .tc) (x₂ : Ref sig₂ .tc) : Prop where
  hbm₁ : x₁.space = .hbm
  hbm₂ : x₂.space = .hbm
  idx : x₁.idx.val = x₂.idx.val
  lt : x₁.idx.val < n
  ty : x₁.ty = x₂.ty

/-- Two result buffers that correspond: the HBM buffers of index `n`, of one type. -/
structure Res (n : ℕ) (y₁ : Ref sig₁ .tc) (y₂ : Ref sig₂ .tc) : Prop where
  hbm₁ : y₁.space = .hbm
  idx₁ : y₁.idx.val = n
  hbm₂ : y₂.space = .hbm
  idx₂ : y₂.idx.val = n
  ty : y₁.ty = y₂.ty

theorem Opnd.heq {n : ℕ} {x₁ : Ref sig₁ .tc} {x₂ : Ref sig₂ .tc} (o : Opnd n x₁ x₂) {V₁ : Valuation τ₁ sig₁ Val}
    {V₂ : Valuation τ₂ sig₂ Val} (h : Agree n V₁ V₂) : HEq (V₁ (Proc.devRef .tc x₁)) (V₂ (Proc.devRef .tc x₂)) :=
  h x₁ x₂ o.hbm₁ o.hbm₂ o.idx o.lt

theorem Opnd.cty {n : ℕ} {x₁ : Ref sig₁ .tc} {x₂ : Ref sig₂ .tc} (o : Opnd n x₁ x₂) :
    x₁.ty.Contents Val = x₂.ty.Contents Val := congrArg (fun T : BufTy => T.Contents Val) o.ty

theorem Res.cty {n : ℕ} {y₁ : Ref sig₁ .tc} {y₂ : Ref sig₂ .tc} (o : Res n y₁ y₂) :
    y₁.ty.Contents Val = y₂.ty.Contents Val := congrArg (fun T : BufTy => T.Contents Val) o.ty

/-- `%y = ‹constant›` on both sides. -/
theorem nullary_step {n : ℕ} {y₁ : Ref sig₁ .tc} {y₂ : Ref sig₂ .tc} {v₁ : y₁.ty.Contents Val} {v₂ : y₂.ty.Contents Val}
    {hy₁ hy₂} (ry : Res n y₁ y₂) (hv : HEq v₁ v₂) :
    Step n (nullary (τ := τ₁) y₁ v₁ hy₁) (nullary (τ := τ₂) y₂ v₂ hy₂) :=
  step_of n _ _ y₁ y₂ ⟨ry.hbm₁, ry.idx₁⟩ ⟨ry.hbm₂, ry.idx₂⟩
    (fun V _ h => nullary_result_ne _ v₁ hy₁ V h) (fun V _ h => nullary_result_ne _ v₂ hy₂ V h)
    (fun V₁ V₂ _ => by rw [nullary_result, nullary_result]; exact hv)

/-- `%y = ‹op› %x` on both sides. -/
theorem unary_step {n : ℕ} {x₁ y₁ : Ref sig₁ .tc} {x₂ y₂ : Ref sig₂ .tc}
    {f₁ : x₁.ty.Contents Val → y₁.ty.Contents Val} {f₂ : x₂.ty.Contents Val → y₂.ty.Contents Val} {hx₁ hy₁ hx₂ hy₂}
    (ox : Opnd n x₁ x₂) (ry : Res n y₁ y₂) (hf : HEq f₁ f₂) :
    Step n (unary (τ := τ₁) x₁ y₁ f₁ hx₁ hy₁) (unary (τ := τ₂) x₂ y₂ f₂ hx₂ hy₂) :=
  step_of n _ _ y₁ y₂ ⟨ry.hbm₁, ry.idx₁⟩ ⟨ry.hbm₂, ry.idx₂⟩
    (fun V _ h => unary_result_ne _ _ f₁ hx₁ hy₁ V h) (fun V _ h => unary_result_ne _ _ f₂ hx₂ hy₂ V h)
    (fun V₁ V₂ h => by rw [unary_result, unary_result]; exact heq_app ox.cty ry.cty hf (ox.heq h))

/-- `%y = ‹op› %a, %b` on both sides. -/
theorem binary_step {n : ℕ} {a₁ b₁ y₁ : Ref sig₁ .tc} {a₂ b₂ y₂ : Ref sig₂ .tc}
    {f₁ : a₁.ty.Contents Val → b₁.ty.Contents Val → y₁.ty.Contents Val}
    {f₂ : a₂.ty.Contents Val → b₂.ty.Contents Val → y₂.ty.Contents Val} {ha₁ hb₁ hy₁ ha₂ hb₂ hy₂}
    (oa : Opnd n a₁ a₂) (ob : Opnd n b₁ b₂) (ry : Res n y₁ y₂) (hf : HEq f₁ f₂) :
    Step n (binary (τ := τ₁) a₁ b₁ y₁ f₁ ha₁ hb₁ hy₁) (binary (τ := τ₂) a₂ b₂ y₂ f₂ ha₂ hb₂ hy₂) :=
  step_of n _ _ y₁ y₂ ⟨ry.hbm₁, ry.idx₁⟩ ⟨ry.hbm₂, ry.idx₂⟩
    (fun V _ h => binary_result_ne _ _ _ f₁ ha₁ hb₁ hy₁ V h) (fun V _ h => binary_result_ne _ _ _ f₂ ha₂ hb₂ hy₂ V h)
    (fun V₁ V₂ h => by
      rw [binary_result, binary_result]
      exact heq_app ob.cty ry.cty (heq_app oa.cty (by rw [ob.cty, ry.cty]) hf (oa.heq h)) (ob.heq h))

/-- `%y = ‹op› %c, %a, %b` on both sides. -/
theorem ternary_step {n : ℕ} {c₁ a₁ b₁ y₁ : Ref sig₁ .tc} {c₂ a₂ b₂ y₂ : Ref sig₂ .tc}
    {f₁ : c₁.ty.Contents Val → a₁.ty.Contents Val → b₁.ty.Contents Val → y₁.ty.Contents Val}
    {f₂ : c₂.ty.Contents Val → a₂.ty.Contents Val → b₂.ty.Contents Val → y₂.ty.Contents Val}
    {hc₁ ha₁ hb₁ hy₁ hc₂ ha₂ hb₂ hy₂}
    (oc : Opnd n c₁ c₂) (oa : Opnd n a₁ a₂) (ob : Opnd n b₁ b₂) (ry : Res n y₁ y₂) (hf : HEq f₁ f₂) :
    Step n (ternary (τ := τ₁) c₁ a₁ b₁ y₁ f₁ hc₁ ha₁ hb₁ hy₁) (ternary (τ := τ₂) c₂ a₂ b₂ y₂ f₂ hc₂ ha₂ hb₂ hy₂) :=
  step_of n _ _ y₁ y₂ ⟨ry.hbm₁, ry.idx₁⟩ ⟨ry.hbm₂, ry.idx₂⟩
    (fun V _ h => ternary_result_ne _ _ _ _ f₁ hc₁ ha₁ hb₁ hy₁ V h) (fun V _ h => ternary_result_ne _ _ _ _ f₂ hc₂ ha₂ hb₂ hy₂ V h)
    (fun V₁ V₂ h => by
      rw [ternary_result, ternary_result]
      exact heq_app ob.cty ry.cty
        (heq_app oa.cty (by rw [ob.cty, ry.cty]) (heq_app oc.cty (by rw [oa.cty, ob.cty, ry.cty]) hf (oc.heq h)) (oa.heq h))
        (ob.heq h))

/-- The row-major re-indexing of equal contents between equal types. -/
theorem reshape_heq {T₁ T₂ U₁ U₂ : BufTy} (tx : T₁ = T₂) (ty : U₁ = U₂)
    (he₁ : T₁.elt = U₁.elt) (hn₁ : T₁.shape.ShapeCasts U₁.shape) (he₂ : T₂.elt = U₂.elt) (hn₂ : T₂.shape.ShapeCasts U₂.shape)
    (u₁ : T₁.Contents Val) (u₂ : T₂.Contents Val) (hu : HEq u₁ u₂) :
    HEq (fun i => he₁ ▸ shapeCast U₁.shape u₁ hn₁ i : U₁.Contents Val) (fun i => he₂ ▸ shapeCast U₂.shape u₂ hn₂ i : U₂.Contents Val) := by
  subst tx; subst ty; cases hu; rfl

/-- `%y = reshape %x` on both sides: the row-major re-indexing is one function of the two shapes. -/
theorem reshape_step {n : ℕ} {x₁ y₁ : Ref sig₁ .tc} {x₂ y₂ : Ref sig₂ .tc} {he₁ hn₁ hx₁ hy₁ he₂ hn₂ hx₂ hy₂}
    (ox : Opnd n x₁ x₂) (ry : Res n y₁ y₂) :
    Step n (reshape (τ := τ₁) (Val := Val) x₁ y₁ he₁ hn₁ hx₁ hy₁) (reshape (τ := τ₂) (Val := Val) x₂ y₂ he₂ hn₂ hx₂ hy₂) :=
  step_of n _ _ y₁ y₂ ⟨ry.hbm₁, ry.idx₁⟩ ⟨ry.hbm₂, ry.idx₂⟩
    (fun V _ h => reshape_result_ne _ _ he₁ hn₁ hx₁ hy₁ V h) (fun V _ h => reshape_result_ne _ _ he₂ hn₂ hx₂ hy₂ V h)
    (fun V₁ V₂ h => by
      rw [reshape_result, reshape_result]
      exact reshape_heq ox.ty ry.ty he₁ hn₁ he₂ hn₂ _ _ (ox.heq h))

/-! ## Lines -/

/-- Two lines of equal length whose operations step side by side from index `n` to index `k`. -/
inductive Sim : ℕ → List (HloOp τ₁ sig₁ Val) → List (HloOp τ₂ sig₂ Val) → ℕ → Prop
  | nil (n : ℕ) : Sim n [] [] n
  | cons {n k : ℕ} {o₁ : HloOp τ₁ sig₁ Val} {o₂ : HloOp τ₂ sig₂ Val} {l₁ l₂} :
      Step n o₁ o₂ → Sim (n + 1) l₁ l₂ k → Sim n (o₁ :: l₁) (o₂ :: l₂) k

theorem Sim.after {n k : ℕ} {l₁ : List (HloOp τ₁ sig₁ Val)} {l₂ : List (HloOp τ₂ sig₂ Val)} (s : Sim n l₁ l₂ k) :
    ∀ {V₁ V₂}, Agree n V₁ V₂ → Agree k (StableHlo.after l₁ V₁) (StableHlo.after l₂ V₂) := by
  induction s with
  | nil n => intro V₁ V₂ h; exact h
  | cons hs _ ih => intro V₁ V₂ h; exact ih (hs V₁ V₂ h)

theorem Sim.append {n k k' : ℕ} {l₁ l₁' : List (HloOp τ₁ sig₁ Val)} {l₂ l₂' : List (HloOp τ₂ sig₂ Val)}
    (s : Sim n l₁ l₂ k) (s' : Sim k l₁' l₂' k') : Sim n (l₁ ++ l₁') (l₂ ++ l₂') k' := by
  induction s with
  | nil n => exact s'
  | cons hs _ ih => exact Sim.cons hs (ih s')

end HostSim
-- ==== Proof.HostSimGlue.lean ====
/-
  The two programs build the weight matrix by the same host operations, buffer for buffer: from memories that agree
  on the arguments, %323 holds the same matrix in both. Operation k of either program writes the HBM buffer of index
  6 + k from buffers of smaller index, through the same function; so the two folds agree on every buffer written
  (Proof/LibHostSim.lean), and no operation is ever evaluated. The kernel's program goes on with two more operations
  (the activations reshaped, the matrix transposed), which do not write %323.
-/
import proofs.«430907_j20306605375936_1_alg».proof.Proof.RefRun
import proofs.«430907_j20306605375936_1_alg».proof.Proof.Gen.KernelIdeal.Frame
import proofs.«430907_j20306605375936_1_alg».proof.Proof.LibHostSim

set_option maxRecDepth 65536

noncomputable section

namespace Cert.Proof.HostSim

open Idealize.ShloMosaic Idealize.ShloMosaic.TcCoe Idealize.SL.Sem _root_.HostSim

/-- The kernel program's operations up to the one that writes %323. -/
abbrev preK : List (HloOp Cert.KernelIdeal.τ Cert.KernelIdeal.sig (Elt Ideal)) :=
  Cert.KernelIdeal.Gen.hostOps0 ++ (Cert.KernelIdeal.Gen.hostOps0_1 ++ (Cert.KernelIdeal.Gen.hostOps0_2 ++ (Cert.KernelIdeal.Gen.hostOps0_3 ++ (Cert.KernelIdeal.Gen.hostOps0_4 ++ (Cert.KernelIdeal.Gen.hostOps0_5 ++ List.take 327 Cert.KernelIdeal.Gen.hostOps0_6)))))

/-- The reference's operations before its product. -/
abbrev preR : List (HloOp Cert.ReferenceIdeal.τ Cert.ReferenceIdeal.sig (Elt Ideal)) :=
  Cert.ReferenceIdeal.RValue.ops0 ++ (Cert.ReferenceIdeal.RValue.ops1 ++ (Cert.ReferenceIdeal.RValue.ops2 ++ (Cert.ReferenceIdeal.RValue.ops3 ++ (Cert.ReferenceIdeal.RValue.ops4 ++ (Cert.ReferenceIdeal.RValue.ops5 ++ Cert.ReferenceIdeal.RValue.ops6)))))

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

theorem flat7 {α : Type} (a b c d e f g : List α) :
    List.flatten [a, b, c, d, e, f, g] = a ++ (b ++ (c ++ (d ++ (e ++ (f ++ g))))) := by
  simp only [List.flatten_cons, List.flatten_nil, List.append_nil]

theorem split7 {α : Type} (a b c d e f g : List α) (k : ℕ) :
    List.flatten [a, b, c, d, e, f, g] = (a ++ (b ++ (c ++ (d ++ (e ++ (f ++ g.take k)))))) ++ g.drop k := by
  simp only [List.flatten_cons, List.flatten_nil, List.append_nil, List.append_assoc, List.take_append_drop]

/-- Memories that agree on the six arguments agree on the HBM buffers below index 6. -/
theorem agree_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Agree 6 (fun b => m (c, b) : Valuation Cert.KernelIdeal.τ Cert.KernelIdeal.sig (Elt Ideal))
      (fun b => m' (c, b) : Valuation Cert.ReferenceIdeal.τ Cert.ReferenceIdeal.sig (Elt Ideal)) := by
  intro a b ha hb hab hlt
  have hc : a.idx.val = 0 ∨ a.idx.val = 1 ∨ a.idx.val = 2 ∨ a.idx.val = 3 ∨ a.idx.val = 4 ∨ a.idx.val = 5 := by omega
  rcases hc with h0 | h1 | h2 | h3 | h4 | h5
  · have ea : a = Cert.KernelIdeal.main_arg0 := ref_ext ha rfl h0
    have eb : b = Cert.ReferenceIdeal.main_arg0 := ref_ext hb rfl (hab.symm.trans h0)
    subst ea; subst eb
    exact heq_of_eq h.1.symm
  · have ea : a = Cert.KernelIdeal.main_arg1 := ref_ext ha rfl h1
    have eb : b = Cert.ReferenceIdeal.main_arg1 := ref_ext hb rfl (hab.symm.trans h1)
    subst ea; subst eb
    exact heq_of_eq h.2.1.symm
  · have ea : a = Cert.KernelIdeal.main_arg2 := ref_ext ha rfl h2
    have eb : b = Cert.ReferenceIdeal.main_arg2 := ref_ext hb rfl (hab.symm.trans h2)
    subst ea; subst eb
    exact heq_of_eq h.2.2.1.symm
  · have ea : a = Cert.KernelIdeal.main_arg3 := ref_ext ha rfl h3
    have eb : b = Cert.ReferenceIdeal.main_arg3 := ref_ext hb rfl (hab.symm.trans h3)
    subst ea; subst eb
    exact heq_of_eq h.2.2.2.1.symm
  · have ea : a = Cert.KernelIdeal.main_arg4 := ref_ext ha rfl h4
    have eb : b = Cert.ReferenceIdeal.main_arg4 := ref_ext hb rfl (hab.symm.trans h4)
    subst ea; subst eb
    exact heq_of_eq h.2.2.2.2.1.symm
  · have ea : a = Cert.KernelIdeal.main_arg5 := ref_ext ha rfl h5
    have eb : b = Cert.ReferenceIdeal.main_arg5 := ref_ext hb rfl (hab.symm.trans h5)
    subst ea; subst eb
    exact heq_of_eq h.2.2.2.2.2.symm

/-- The kernel program's %323 at the kernel's entry is its contents after the operations up to the one that writes
    it: the two operations after it write other buffers. -/
theorem kernel_side (m : (ℓ : Loc Cert.KernelIdeal.nD Cert.KernelIdeal.τ Cert.KernelIdeal.sig) → Buf (Elt Ideal) ℓ)
    (c : Dev Cert.KernelIdeal.nD) :
    Cert.KernelIdeal.Gen.V m c Cert.KernelIdeal.main_v323
      = StableHlo.after preK (fun b => m (c, b)) (Proc.devRef .tc Cert.KernelIdeal.main_v323) := by
  show StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6]) (fun b => m (c, b)) (Proc.devRef .tc Cert.KernelIdeal.main_v323) = _
  rw [split7 _ _ _ _ _ _ _ 327, after_append]
  generalize StableHlo.after preK (fun b => m (c, b)) = V'
  have hd : List.drop 327 (Cert.KernelIdeal.Gen.hostOps0_6 (F := Ideal)) = [_, _] := rfl
  rw [hd]
  simp only [StableHlo.after_cons, StableHlo.after_nil]
  rw [StableHlo.unary_result_ne]; rotate_left; decide
  rw [StableHlo.reshape_result_ne]; decide

/-- From memories agreeing on the six arguments, the reference's %323 is the kernel program's, given that the two
    lines step side by side from the arguments' index to %323's. -/
theorem W_eq_of (s : Sim 6 preK preR 402)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.RValue.W m' c = Cert.KernelIdeal.Gen.V m c Cert.KernelIdeal.main_v323 := by
  have e := eq_of_heq (s.after (agree_args m m' c h) Cert.KernelIdeal.main_v323 Cert.ReferenceIdeal.main_v323 rfl rfl rfl (by decide))
  rw [kernel_side m c]
  unfold Cert.ReferenceIdeal.RValue.W
  rw [flat7]
  exact e.symm

end Cert.Proof.HostSim

end
-- ==== Proof.HostSimLines.lean ====
/-
  The host operations of the two programs, stretch by stretch: operation k of either program writes the HBM buffer
  of index 6 + k from buffers of smaller index, through the same function (Proof/LibHostSim.lean's steps, one per
  operation; no operation is evaluated). The long stretch is walked thirty operations at a time.
-/
import proofs.«430907_j20306605375936_1_alg».proof.Proof.RefOps
import proofs.«430907_j20306605375936_1_alg».proof.Proof.Gen.KernelIdeal.Launch
import proofs.«430907_j20306605375936_1_alg».proof.Proof.LibHostSim
import proofs.«430907_j20306605375936_1_alg».proof.Proof.HostSimGlue

set_option maxRecDepth 65536

noncomputable section

namespace Cert.Proof.HostSim

open Idealize.ShloMosaic Idealize.ShloMosaic.TcCoe Idealize.SL.Sem _root_.HostSim

/-- An operand of the two operations: the same HBM index, written earlier, of one type. -/
macro "sim_opnd" : tactic => `(tactic| exact ⟨rfl, rfl, rfl, by decide, rfl⟩)
/-- The result of the two operations: the HBM buffer of the current index, of one type. -/
macro "sim_res" : tactic => `(tactic| exact ⟨rfl, rfl, rfl, rfl, rfl⟩)

open Lean Elab Tactic Meta in
/-- One operation of each line: the same builder (read off the first line's operation) at corresponding buffers
    with the same function. -/
elab "sim_step" : tactic => withMainContext do
  let tgt ← instantiateMVars (← getMainTarget)
  let args := tgt.getAppArgs
  let o₁ ← whnfR args[args.size - 2]!
  match o₁.getAppFn.constName? with
  | some ``StableHlo.nullary => evalTactic (← `(tactic| exact nullary_step (by sim_res) HEq.rfl))
  | some ``StableHlo.unary => evalTactic (← `(tactic| exact unary_step (by sim_opnd) (by sim_res) HEq.rfl))
  | some ``StableHlo.binary => evalTactic (← `(tactic| exact binary_step (by sim_opnd) (by sim_opnd) (by sim_res) HEq.rfl))
  | some ``StableHlo.ternary => evalTactic (← `(tactic| exact ternary_step (by sim_opnd) (by sim_opnd) (by sim_opnd) (by sim_res) HEq.rfl))
  | some ``StableHlo.reshape => evalTactic (← `(tactic| exact reshape_step (by sim_opnd) (by sim_res)))
  | _ => throwError "sim_step: the operation is not one of the five builders: {o₁}"

/-- A whole stretch. -/
macro "sim_line" : tactic => `(tactic| repeat (first | exact Sim.nil _ | refine Sim.cons (by sim_step) ?_))

/-- A line walked in two parts: its first `k` operations, then the rest. -/
theorem _root_.HostSim.Sim.chunk {τ₁ τ₂ : Topo} {sig₁ sig₂ : RefSig} {Val : EltTy → Type} {n n' n'' : ℕ}
    {l₁ : List (HloOp τ₁ sig₁ Val)} {l₂ : List (HloOp τ₂ sig₂ Val)} (k : ℕ)
    (s : Sim n (l₁.take k) (l₂.take k) n') (s' : Sim n' (l₁.drop k) (l₂.drop k) n'') : Sim n l₁ l₂ n'' := by
  have h := s.append s'
  rwa [List.take_append_drop, List.take_append_drop] at h

set_option maxHeartbeats 0 in
/-- Stretch 0 of the two lines, operation by operation. -/
theorem sim0 : Sim 6 (Cert.KernelIdeal.Gen.hostOps0 (F := Ideal)) (Cert.ReferenceIdeal.RValue.ops0 (F := Ideal)) 8 := by
  sim_line

set_option maxHeartbeats 0 in
/-- Stretch 1 of the two lines, operation by operation. -/
theorem sim1 : Sim 8 (Cert.KernelIdeal.Gen.hostOps0_1 (F := Ideal)) (Cert.ReferenceIdeal.RValue.ops1 (F := Ideal)) 25 := by
  sim_line

set_option maxHeartbeats 0 in
/-- Stretch 2 of the two lines, operation by operation. -/
theorem sim2 : Sim 25 (Cert.KernelIdeal.Gen.hostOps0_2 (F := Ideal)) (Cert.ReferenceIdeal.RValue.ops2 (F := Ideal)) 26 := by
  sim_line

set_option maxHeartbeats 0 in
/-- Stretch 3 of the two lines, operation by operation. -/
theorem sim3 : Sim 26 (Cert.KernelIdeal.Gen.hostOps0_3 (F := Ideal)) (Cert.ReferenceIdeal.RValue.ops3 (F := Ideal)) 47 := by
  sim_line

set_option maxHeartbeats 0 in
/-- Stretch 4 of the two lines, operation by operation. -/
theorem sim4 : Sim 47 (Cert.KernelIdeal.Gen.hostOps0_4 (F := Ideal)) (Cert.ReferenceIdeal.RValue.ops4 (F := Ideal)) 54 := by
  sim_line

set_option maxHeartbeats 0 in
/-- Stretch 5 of the two lines, operation by operation. -/
theorem sim5 : Sim 54 (Cert.KernelIdeal.Gen.hostOps0_5 (F := Ideal)) (Cert.ReferenceIdeal.RValue.ops5 (F := Ideal)) 75 := by
  sim_line

set_option maxHeartbeats 0 in
/-- Operations 0 to 29 of the long stretch. -/
theorem sim6_0 : Sim 75 (List.take 30 (List.take 327 (Cert.KernelIdeal.Gen.hostOps0_6 (F := Ideal)))) (List.take 30 (Cert.ReferenceIdeal.RValue.ops6 (F := Ideal))) 105 := by
  sim_line

set_option maxHeartbeats 0 in
/-- Operations 30 to 59 of the long stretch. -/
theorem sim6_1 : Sim 105 (List.take 30 (List.drop 30 (List.take 327 (Cert.KernelIdeal.Gen.hostOps0_6 (F := Ideal))))) (List.take 30 (List.drop 30 (Cert.ReferenceIdeal.RValue.ops6 (F := Ideal)))) 135 := by
  sim_line

set_option maxHeartbeats 0 in
/-- Operations 60 to 89 of the long stretch. -/
theorem sim6_2 : Sim 135 (List.take 30 (List.drop 30 (List.drop 30 (List.take 327 (Cert.KernelIdeal.Gen.hostOps0_6 (F := Ideal)))))) (List.take 30 (List.drop 30 (List.drop 30 (Cert.ReferenceIdeal.RValue.ops6 (F := Ideal))))) 165 := by
  sim_line

set_option maxHeartbeats 0 in
/-- Operations 90 to 119 of the long stretch. -/
theorem sim6_3 : Sim 165 (List.take 30 (List.drop 30 (List.drop 30 (List.drop 30 (List.take 327 (Cert.KernelIdeal.Gen.hostOps0_6 (F := Ideal))))))) (List.take 30 (List.drop 30 (List.drop 30 (List.drop 30 (Cert.ReferenceIdeal.RValue.ops6 (F := Ideal)))))) 195 := by
  sim_line

set_option maxHeartbeats 0 in
/-- Operations 120 to 149 of the long stretch. -/
theorem sim6_4 : Sim 195 (List.take 30 (List.drop 30 (List.drop 30 (List.drop 30 (List.drop 30 (List.take 327 (Cert.KernelIdeal.Gen.hostOps0_6 (F := Ideal)))))))) (List.take 30 (List.drop 30 (List.drop 30 (List.drop 30 (List.drop 30 (Cert.ReferenceIdeal.RValue.ops6 (F := Ideal))))))) 225 := by
  sim_line

set_option maxHeartbeats 0 in
/-- Operations 150 to 179 of the long stretch. -/
theorem sim6_5 : Sim 225 (List.take 30 (List.drop 30 (List.drop 30 (List.drop 30 (List.drop 30 (List.drop 30 (List.take 327 (Cert.KernelIdeal.Gen.hostOps0_6 (F := Ideal))))))))) (List.take 30 (List.drop 30 (List.drop 30 (List.drop 30 (List.drop 30 (List.drop 30 (Cert.ReferenceIdeal.RValue.ops6 (F := Ideal)))))))) 255 := by
  sim_line

set_option maxHeartbeats 0 in
/-- Operations 180 to 209 of the long stretch. -/
theorem sim6_6 : Sim 255 (List.take 30 (List.drop 30 (List.drop 30 (List.drop 30 (List.drop 30 (List.drop 30 (List.drop 30 (List.take 327 (Cert.KernelIdeal.Gen.hostOps0_6 (F := Ideal)))))))))) (List.take 30 (List.drop 30 (List.drop 30 (List.drop 30 (List.drop 30 (List.drop 30 (List.drop 30 (Cert.ReferenceIdeal.RValue.ops6 (F := Ideal))))))))) 285 := by
  sim_line

set_option maxHeartbeats 0 in
/-- Operations 210 to 239 of the long stretch. -/
theorem sim6_7 : Sim 285 (List.take 30 (List.drop 30 (List.drop 30 (List.drop 30 (List.drop 30 (List.drop 30 (List.drop 30 (List.drop 30 (List.take 327 (Cert.KernelIdeal.Gen.hostOps0_6 (F := Ideal))))))))))) (List.take 30 (List.drop 30 (List.drop 30 (List.drop 30 (List.drop 30 (List.drop 30 (List.drop 30 (List.drop 30 (Cert.ReferenceIdeal.RValue.ops6 (F := Ideal)))))))))) 315 := by
  sim_line

set_option maxHeartbeats 0 in
/-- Operations 240 to 269 of the long stretch. -/
theorem sim6_8 : Sim 315 (List.take 30 (List.drop 30 (List.drop 30 (List.drop 30 (List.drop 30 (List.drop 30 (List.drop 30 (List.drop 30 (List.drop 30 (List.take 327 (Cert.KernelIdeal.Gen.hostOps0_6 (F := Ideal)))))))))))) (List.take 30 (List.drop 30 (List.drop 30 (List.drop 30 (List.drop 30 (List.drop 30 (List.drop 30 (List.drop 30 (List.drop 30 (Cert.ReferenceIdeal.RValue.ops6 (F := Ideal))))))))))) 345 := by
  sim_line

set_option maxHeartbeats 0 in
/-- Operations 270 to 299 of the long stretch. -/
theorem sim6_9 : Sim 345 (List.take 30 (List.drop 30 (List.drop 30 (List.drop 30 (List.drop 30 (List.drop 30 (List.drop 30 (List.drop 30 (List.drop 30 (List.drop 30 (List.take 327 (Cert.KernelIdeal.Gen.hostOps0_6 (F := Ideal))))))))))))) (List.take 30 (List.drop 30 (List.drop 30 (List.drop 30 (List.drop 30 (List.drop 30 (List.drop 30 (List.drop 30 (List.drop 30 (List.drop 30 (Cert.ReferenceIdeal.RValue.ops6 (F := Ideal)))))))))))) 375 := by
  sim_line

set_option maxHeartbeats 0 in
/-- Operations 300 to 326 of the long stretch. -/
theorem sim6_10 : Sim 375 (List.drop 30 (List.drop 30 (List.drop 30 (List.drop 30 (List.drop 30 (List.drop 30 (List.drop 30 (List.drop 30 (List.drop 30 (List.drop 30 (List.take 327 (Cert.KernelIdeal.Gen.hostOps0_6 (F := Ideal))))))))))))) (List.drop 30 (List.drop 30 (List.drop 30 (List.drop 30 (List.drop 30 (List.drop 30 (List.drop 30 (List.drop 30 (List.drop 30 (List.drop 30 (Cert.ReferenceIdeal.RValue.ops6 (F := Ideal)))))))))))) 402 := by
  sim_line

/-- The long stretch: the decode, the two Hadamard transforms with their sign vectors, the block scales. -/
theorem sim6 : Sim 75 (List.take 327 (Cert.KernelIdeal.Gen.hostOps0_6 (F := Ideal))) (Cert.ReferenceIdeal.RValue.ops6 (F := Ideal)) 402 :=
  Sim.chunk 30 sim6_0 (Sim.chunk 30 sim6_1 (Sim.chunk 30 sim6_2 (Sim.chunk 30 sim6_3 (Sim.chunk 30 sim6_4 (Sim.chunk 30 sim6_5 (Sim.chunk 30 sim6_6 (Sim.chunk 30 sim6_7 (Sim.chunk 30 sim6_8 (Sim.chunk 30 sim6_9 (sim6_10))))))))))

theorem sim_all : Sim 6 preK preR 402 :=
  sim0.append (sim1.append (sim2.append (sim3.append (sim4.append (sim5.append sim6)))))

end Cert.Proof.HostSim

end
-- ==== Proof.HostSim.lean ====
/-
  The two programs build the weight matrix by the same host operations, buffer for buffer: from memories that agree
  on the arguments, %323 holds the same matrix in both. Operation k of either program writes the HBM buffer of index
  6 + k from buffers of smaller index, through the same function; so the two folds agree on every buffer written
  (Proof/LibHostSim.lean), and no operation is ever evaluated. The kernel's program goes on with two more operations
  (the activations reshaped, the matrix transposed), which do not write %323.
-/
import proofs.«430907_j20306605375936_1_alg».proof.Proof.HostSimLines

noncomputable section

namespace Cert.Proof.HostSim

open Idealize.ShloMosaic Idealize.ShloMosaic.TcCoe Idealize.SL.Sem

/-- From memories agreeing on the six arguments, the reference's %323 is the kernel program's. -/
theorem W_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.RValue.W m' c = Cert.KernelIdeal.Gen.V m c Cert.KernelIdeal.main_v323 :=
  W_eq_of sim_all m m' c h

end Cert.Proof.HostSim

end
-- ==== Proof.lean ====
/-
  The kernel's program decodes the trellis codes through the lookup table, applies the two Hadamard transforms with
  their sign vectors and the block scales on the host — the same host operations, one for one, as the reference —
  and then multiplies the activations by the transposed weight matrix in a tiled kernel that accumulates over four
  blocks of the contracted axis; the reference takes the same product in one contraction. Over the extended reals
  the blocked sum is the whole sum (addition there is commutative and associative, zero is neutral), so both
  results are `Cert.Linear.linear x W` with `W` the weight matrix %323: the kernel side by the accumulation read off
  the frame's run (Proof/KernelValue.lean), the reference side by its straight-line run (Proof/RefRun.lean), and the
  two weight matrices are one by the buffer-for-buffer correspondence of the host operations (Proof/HostSim.lean).
  No finiteness of the inputs is used.
-/
import proofs.«430907_j20306605375936_1_alg».proof.Defs
import proofs.«430907_j20306605375936_1_alg».proof.Proof.Gen.Kernel
import proofs.«430907_j20306605375936_1_alg».proof.Proof.Gen.Kernel.Frame
import proofs.«430907_j20306605375936_1_alg».proof.Proof.Gen.KernelIdeal
import proofs.«430907_j20306605375936_1_alg».proof.Proof.Gen.KernelIdeal.Frame
import proofs.«430907_j20306605375936_1_alg».proof.Proof.Gen.ReferenceIdeal
import proofs.«430907_j20306605375936_1_alg».proof.Proof.Gen.Pre_finite_inputs
import proofs.«430907_j20306605375936_1_alg».proof.Proof.KernelValue
import proofs.«430907_j20306605375936_1_alg».proof.Proof.RefRun
import proofs.«430907_j20306605375936_1_alg».proof.Proof.HostSim
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RValue.run m ρ)

/-- Both programs end at `linear x W`. -/
theorem algebraic : Cert.algebraic_KernelIdeal_ReferenceIdeal := by
  intro m ρ m' ρ' _ hagree
  refine ⟨fun c => Cert.Linear.linear (m ((c.tc : Thread Cert.KernelIdeal.nD Cert.KernelIdeal.τ).loc Cert.KernelIdeal.main_arg0)) (Cert.KernelIdeal.Gen.V m c Cert.KernelIdeal.main_v323),
    Cert.KernelIdeal.KValue.run m ρ, ?_⟩
  refine (θ_run Cert.ReferenceIdeal.defs _ _).mono (fun _ h c => ⟨(h c).1.trans ?_, (h c).2⟩) (Cert.ReferenceIdeal.RValue.run m' ρ')
  rw [(hagree c).1, Cert.Proof.HostSim.W_eq m m' c (hagree c)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
